-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S300000x64 : Shape := ⟨2, ![300000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_arg12 : FVec F S64x64 .f32) (main_arg13 : FVec F S64x64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64x64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_v33

def fn {F : FTy → Type} [FloatOps F] (main_arg0 : FVec F S500000x64 .f32) (main_arg1 : FVec F S300000x64 .f32) (main_arg2 : IVec S1000000 32) (main_arg3 : IVec S1000000 32) (main_arg4 : FVec F S1000000 .f32) (main_arg5 : IVec S1000000 32) (main_arg6 : IVec S1000000 32) (main_arg7 : FVec F S1000000 .f32) (main_arg8 : FVec F S64x64 .f32) (main_arg9 : FVec F S64 .f32) (main_arg10 : FVec F S64x64 .f32) (main_arg11 : FVec F S64 .f32) (main_arg12 : FVec F S64x64 .f32) (main_arg13 : FVec F S64x64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg8 main_arg9 main_arg10 main_arg11 main_arg12 main_arg13 main_v13 main_v16
-- ==== Kernel.lean ====
abbrev S500000x64 : Shape := ⟨2, ![500000, 64]⟩
abbrev S300000x64 : Shape := ⟨2, ![300000, 64]⟩
abbrev S1000000 : Shape := ⟨1, ![1000000]⟩
abbrev S64x64 : Shape := ⟨2, ![64, 64]⟩
abbrev S64 : Shape := ⟨1, ![64]⟩
abbrev S20000x64 : Shape := ⟨2, ![20000, 64]⟩
abbrev S1000000x1 : Shape := ⟨2, ![1000000, 1]⟩
abbrev S_ : Shape := ⟨0, ![]⟩
abbrev S1000000x64 : Shape := ⟨2, ![1000000, 64]⟩
abbrev S500000 : Shape := ⟨1, ![500000]⟩
abbrev S500000x1 : Shape := ⟨2, ![500000, 1]⟩
abbrev S300000 : Shape := ⟨1, ![300000]⟩
abbrev S300000x1 : Shape := ⟨2, ![300000, 1]⟩
abbrev S1x64 : Shape := ⟨2, ![1, 64]⟩
abbrev S25x2 : Shape := ⟨2, ![25, 2]⟩
abbrev S20000x1 : Shape := ⟨2, ![20000, 1]⟩
abbrev S1x20000x64 : Shape := ⟨3, ![1, 20000, 64]⟩
abbrev S1 : Shape := ⟨1, ![1]⟩
abbrev S1x1x1 : Shape := ⟨3, ![1, 1, 1]⟩
abbrev S1x20000x1 : Shape := ⟨3, ![1, 20000, 1]⟩
abbrev S2 : Shape := ⟨1, ![2]⟩
abbrev S1x2 : Shape := ⟨2, ![1, 2]⟩
abbrev S15x2 : Shape := ⟨2, ![15, 2]⟩
abbrev S25x1 : Shape := ⟨2, ![25, 1]⟩
abbrev S25 : Shape := ⟨1, ![25]⟩
abbrev S15x1 : Shape := ⟨2, ![15, 1]⟩
abbrev S15 : Shape := ⟨1, ![15]⟩

abbrev nBuf : Space → Nat
  | .hbm => 87
  | .vmem => 32
  | .smem => 0
  | _ => 0

abbrev bufTy : (tb : Table) → Fin (tcTables nBuf tb) → BufTy
  | .hbm, ⟨0, _⟩ => ⟨S500000x64, .f32⟩
  | .hbm, ⟨1, _⟩ => ⟨S300000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S300000x64, .f32⟩
  | .hbm, ⟨16, _⟩ => ⟨S64x64, .f32⟩
  | .hbm, ⟨17, _⟩ => ⟨S500000x64, .f32⟩
  | .hbm, ⟨18, _⟩ => ⟨S1000000x1, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S500000x64, .f32⟩
  | .hbm, ⟨32, _⟩ => ⟨S1000000x1, .i32⟩
  | .hbm, ⟨33, _⟩ => ⟨S500000x64, .f32⟩
  | .hbm, ⟨34, _⟩ => ⟨S_, .f32⟩
  | .hbm, ⟨35, _⟩ => ⟨S500000, .f32⟩
  | .hbm, ⟨36, _⟩ => ⟨S1000000x1, .i32⟩
  | .hbm, ⟨37, _⟩ => ⟨S500000, .f32⟩
  | .hbm, ⟨38, _⟩ => ⟨S500000x1, .f32⟩
  | .hbm, ⟨39, _⟩ => ⟨S1000000x1, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S300000x64, .f32⟩
  | .hbm, ⟨53, _⟩ => ⟨S1000000x1, .i32⟩
  | .hbm, ⟨54, _⟩ => ⟨S300000x64, .f32⟩
  | .hbm, ⟨55, _⟩ => ⟨S_, .f32⟩
  | .hbm, ⟨56, _⟩ => ⟨S300000, .f32⟩
  | .hbm, ⟨57, _⟩ => ⟨S1000000x1, .i32⟩
  | .hbm, ⟨58, _⟩ => ⟨S300000, .f32⟩
  | .hbm, ⟨59, _⟩ => ⟨S300000x1, .f32⟩
  | .hbm, ⟨60, _⟩ => ⟨S64x64, .f32⟩
  | .hbm, ⟨61, _⟩ => ⟨S1x64, .f32⟩
  | .hbm, ⟨62, _⟩ => ⟨S500000x64, .f32⟩
  | .hbm, ⟨63, _⟩ => ⟨S25x2, .f32⟩
  | .hbm, ⟨64, _⟩ => ⟨S64x64, .f32⟩
  | .hbm, ⟨65, _⟩ => ⟨S1x64, .f32⟩
  | .hbm, ⟨66, _⟩ => ⟨S300000x64, .f32⟩
  | .hbm, ⟨67, _⟩ => ⟨S15x2, .f32⟩
  | .hbm, ⟨68, _⟩ => ⟨S25x1, .f32⟩
  | .hbm, ⟨69, _⟩ => ⟨S25, .f32⟩
  | .hbm, ⟨70, _⟩ => ⟨S_, .f32⟩
  | .hbm, ⟨71, _⟩ => ⟨S_, .f32⟩
  | .hbm, ⟨72, _⟩ => ⟨S25x1, .f32⟩
  | .hbm, ⟨73, _⟩ => ⟨S25, .f32⟩
  | .hbm, ⟨74, _⟩ => ⟨S_, .f32⟩
  | .hbm, ⟨75, _⟩ => ⟨S_, .f32⟩
  | .hbm, ⟨76, _⟩ => ⟨S15x1, .f32⟩
  | .hbm, ⟨77, _⟩ => ⟨S15, .f32⟩
  | .hbm, ⟨78, _⟩ => ⟨S_, .f32⟩
  | .hbm, ⟨79, _⟩ => ⟨S_, .f32⟩
  | .hbm, ⟨80, _⟩ => ⟨S15x1, .f32⟩
  | .hbm, ⟨81, _⟩ => ⟨S15, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S64x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S1x64, .f32⟩
  | .local _ .vmem, ⟨14, _⟩ => ⟨S20000x64, .f32⟩
  | .local _ .vmem, ⟨15, _⟩ => ⟨S20000x64, .f32⟩
  | .local _ .vmem, ⟨16, _⟩ => ⟨S20000x1, .f32⟩
  | .local _ .vmem, ⟨17, _⟩ => ⟨S20000x1, .f32⟩
  | .local _ .vmem, ⟨18, _⟩ => ⟨S20000x64, .f32⟩
  | .local _ .vmem, ⟨19, _⟩ => ⟨S20000x64, .f32⟩
  | .local _ .vmem, ⟨20, _⟩ => ⟨S25x2, .f32⟩
  | .local _ .vmem, ⟨21, _⟩ => ⟨S20000x64, .f32⟩
  | .local _ .vmem, ⟨22, _⟩ => ⟨S20000x64, .f32⟩
  | .local _ .vmem, ⟨23, _⟩ => ⟨S64x64, .f32⟩
  | .local _ .vmem, ⟨24, _⟩ => ⟨S1x64, .f32⟩
  | .local _ .vmem, ⟨25, _⟩ => ⟨S20000x64, .f32⟩
  | .local _ .vmem, ⟨26, _⟩ => ⟨S20000x64, .f32⟩
  | .local _ .vmem, ⟨27, _⟩ => ⟨S20000x1, .f32⟩
  | .local _ .vmem, ⟨28, _⟩ => ⟨S20000x1, .f32⟩
  | .local _ .vmem, ⟨29, _⟩ => ⟨S20000x64, .f32⟩
  | .local _ .vmem, ⟨30, _⟩ => ⟨S20000x64, .f32⟩
  | .local _ .vmem, ⟨31, _⟩ => ⟨S15x2, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc3_stg6_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc3_sem5_0 : DmaSem sig := 29
abbrev cc3_sem5_1 : DmaSem sig := 30
abbrev cc3_sem6_0 : DmaSem sig := 31

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let v35 : Index := Scalar.indexCast arg0
  let c0_15 : Index := 0#32
  ![v35.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S20000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S20000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S25x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![15], ![false]⟩

def k3_off1 (i : grid3.Coords) : Fin 2 → Nat :=
  let arg0 : BitVec 32 := BitVec.ofNat 32 (i 0).val
  let v35 : Index := Scalar.indexCast arg0
  let c0_15 : Index := 0#32
  ![v35.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S20000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S20000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S20000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S15x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  transposes_S64x64_S64x64_1_0 : S64x64.Transposes [1, 0] S64x64
  inb_S20000x64_S20000x64_0_0 : ∀ a, (![0, 0] : Fin 2 → Nat) a + S20000x64.size a ≤ S20000x64.size a
  h_S20000x64 : 0 < S20000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S500000x64 : S_.BroadcastsInDim S500000x64 (![] : Fin 0 → Fin S500000x64.rank)
  bcast_S_S500000 : S_.BroadcastsInDim S500000 (![] : Fin 0 → Fin S500000.rank)
  shapeCasts_S500000_S500000x1 : S500000.ShapeCasts S500000x1
  bcast_S_S300000x64 : S_.BroadcastsInDim S300000x64 (![] : Fin 0 → Fin S300000x64.rank)
  bcast_S_S300000 : S_.BroadcastsInDim S300000 (![] : Fin 0 → Fin S300000.rank)
  shapeCasts_S300000_S300000x1 : S300000.ShapeCasts S300000x1
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  natLt_1_32 : 1 < 32
  shapeCasts_S20000x64_S20000x64 : S20000x64.ShapeCasts S20000x64
  broadcasts_S20000x1_S20000x64 : S20000x1.Broadcasts S20000x64
  shapeCasts_S20000x64_S1x20000x64 : S20000x64.ShapeCasts S1x20000x64
  reduces_S1x20000x64_S1 : S1x20000x64.Reduces [1, 2] S1
  shapeCasts_S1_S1x1x1 : S1.ShapeCasts S1x1x1
  inpos_S1x1x1_p0_0_0 : ∀ a, (![0, 0, 0] : Fin 3 → Nat) a < S1x1x1.size a
  shapeCasts_S20000x1_S1x20000x1 : S20000x1.ShapeCasts S1x20000x1
  reduces_S1x20000x1_S1 : S1x20000x1.Reduces [1, 2] S1
  concatenates_S1_S1_S2_d0 : Shape.Concatenates [S1, S1] S2 0
  h_S1x2 : 0 < S1x2.numel
  shapeCasts_S1x2_S2 : S1x2.ShapeCasts S2
  shapeCasts_S2_S1x2 : S2.ShapeCasts S1x2
  slices_S25x2_S25x1_0_0 : S25x2.Slices ![0, 0] S25x1
  shapeCasts_S25x1_S25 : S25x1.ShapeCasts S25
  reducesTo_S25_S_d0 : S25.ReducesTo [0] S_
  h_S_ : 0 < S_.numel
  slices_S25x2_S25x1_0_1 : S25x2.Slices ![0, 1] S25x1
  slices_S15x2_S15x1_0_0 : S15x2.Slices ![0, 0] S15x1
  shapeCasts_S15x1_S15 : S15x1.ShapeCasts S15
  reducesTo_S15_S_d0 : S15.ReducesTo [0] S_
  slices_S15x2_S15x1_0_1 : S15x2.Slices ![0, 1] S15x1
  dot_S20000x64_S64x64_S20000x64_1_0_0_1_n_n_wf : DotDims.WF S20000x64 S64x64 S20000x64 [1] [0] [0] [1] [] []
  gather_S300000x64_S1000000x1_S1000000x64_1_0_n_n_0_1_164_wf : GatherDims.WF S300000x64 S1000000x1 S1000000x64 [1] [0] [] [0] [] 1 ![1, 64]
  scatter_S500000x64_S1000000x1_S1000000x64_1_0_0_1_wf : ScatterDims.WF S500000x64 S1000000x1 S1000000x64 [1] [0] [0] 1
  scatter_S500000_S1000000x1_S1000000_n_0_0_1_wf : ScatterDims.WF S500000 S1000000x1 S1000000 [] [0] [0] 1
  gather_S500000x64_S1000000x1_S1000000x64_1_0_n_n_0_1_164_wf : GatherDims.WF S500000x64 S1000000x1 S1000000x64 [1] [0] [] [0] [] 1 ![1, 64]
  scatter_S300000x64_S1000000x1_S1000000x64_1_0_0_1_wf : ScatterDims.WF S300000x64 S1000000x1 S1000000x64 [1] [0] [0] 1
  scatter_S300000_S1000000x1_S1000000_n_0_0_1_wf : ScatterDims.WF S300000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S300000x64.size a
  hwx0_0 : ∀ i : grid0.Coords, EltTy.bits .f32 = 32 ∨ (Rect.block (s := S300000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S300000x64.size a
  hwx0_2 : ∀ i : grid0.Coords, EltTy.bits .f32 = 32 ∨ (Rect.block (s := S300000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S500000x64.size a
  hwx1_0 : ∀ i : grid1.Coords, EltTy.bits .f32 = 32 ∨ (Rect.block (s := S500000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S500000x64.size a
  hwx1_2 : ∀ i : grid1.Coords, EltTy.bits .f32 = 32 ∨ (Rect.block (s := S500000x64) S20000x64.size (cc1_transform_2 i) (hinb1_2 i)).WholeWords (EltTy.packing .f32)
  hrank2 : 0 < grid2.rank
  k2_off1_inb : ∀ i : grid2.Coords, ∀ a, (k2_off1 i) a + S1x2.size a ≤ S25x2.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S500000x64.size a
  hwx2_0 : ∀ i : grid2.Coords, EltTy.bits .f32 = 32 ∨ (Rect.block (s := S500000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S500000x64.size a
  hwx2_3 : ∀ i : grid2.Coords, EltTy.bits .f32 = 32 ∨ (Rect.block (s := S500000x64) S20000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x1.size a ≤ S500000x1.size a
  hwx2_4 : ∀ i : grid2.Coords, EltTy.bits .f32 = 32 ∨ (Rect.block (s := S500000x1) S20000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x64.size a ≤ S500000x64.size a
  hwx2_5 : ∀ i : grid2.Coords, EltTy.bits .f32 = 32 ∨ (Rect.block (s := S500000x64) S20000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S25x2.size a ≤ S25x2.size a
  hwx2_6 : ∀ i : grid2.Coords, EltTy.bits .f32 = 32 ∨ (Rect.block (s := S25x2) S25x2.size (cc2_transform_6 i) (hinb2_6 i)).WholeWords (EltTy.packing .f32)
  hrank3 : 0 < grid3.rank
  k3_off1_inb : ∀ i : grid3.Coords, ∀ a, (k3_off1 i) a + S1x2.size a ≤ S15x2.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S300000x64.size a
  hwx3_0 : ∀ i : grid3.Coords, EltTy.bits .f32 = 32 ∨ (Rect.block (s := S300000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x64.size a ≤ S300000x64.size a
  hwx3_3 : ∀ i : grid3.Coords, EltTy.bits .f32 = 32 ∨ (Rect.block (s := S300000x64) S20000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S20000x1.size a ≤ S300000x1.size a
  hwx3_4 : ∀ i : grid3.Coords, EltTy.bits .f32 = 32 ∨ (Rect.block (s := S300000x1) S20000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S20000x64.size a ≤ S300000x64.size a
  hwx3_5 : ∀ i : grid3.Coords, EltTy.bits .f32 = 32 ∨ (Rect.block (s := S300000x64) S20000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S15x2.size a ≤ S15x2.size a
  hwx3_6 : ∀ i : grid3.Coords, EltTy.bits .f32 = 32 ∨ (Rect.block (s := S15x2) S15x2.size (cc3_transform_6 i) (hinb3_6 i)).WholeWords (EltTy.packing .f32)

variable [Facts₀]

def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def scatter_S300000_S1000000x1_S1000000_n_0_0_1 : ScatterDims S300000 S1000000x1 S1000000 where
  updateWindowDims := []
  insertedWindowDims := [0]
  scatterDimsToOperandDims := [0]
  indexVectorDim := 1
  wf := scatter_S300000_S1000000x1_S1000000_n_0_0_1_wf

abbrev win0_0 : Pipeline.Window sig grid0 :=
  Pipeline.Window.ofSpec (Memref.whole main_arg1) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S20000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S20000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40_0) S20000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40_1) S25x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S20000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S20000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v43_0) S20000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v43_1) S15x2.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x64 : Shape := ⟨2, ![500000, 64]⟩
abbrev S300000x64 : Shape := ⟨2, ![300000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S1000000x1 : Shape := ⟨2, ![1000000, 1]⟩
abbrev S_ : Shape := ⟨0, ![]⟩
abbrev S1000000x64 : Shape := ⟨2, ![1000000, 64]⟩
abbrev S500000 : Shape := ⟨1, ![500000]⟩
abbrev S300000 : Shape := ⟨1, ![300000]⟩
abbrev S500000x1 : Shape := ⟨2, ![500000, 1]⟩
abbrev S300000x1 : Shape := ⟨2, ![300000, 1]⟩

abbrev nBuf : Space → Nat
  | .hbm => 105
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S300000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S500000x64, .f32⟩
  | .hbm, ⟨16, _⟩ => ⟨S1x64, .f32⟩
  | .hbm, ⟨17, _⟩ => ⟨S500000x64, .f32⟩
  | .hbm, ⟨18, _⟩ => ⟨S500000x64, .f32⟩
  | .hbm, ⟨19, _⟩ => ⟨S64x64, .f32⟩
  | .hbm, ⟨20, _⟩ => ⟨S300000x64, .f32⟩
  | .hbm, ⟨21, _⟩ => ⟨S1000000x1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S500000x64, .f32⟩
  | .hbm, ⟨35, _⟩ => ⟨S1000000x1, .i32⟩
  | .hbm, ⟨36, _⟩ => ⟨S500000x64, .f32⟩
  | .hbm, ⟨37, _⟩ => ⟨S500000x64, .f32⟩
  | .hbm, ⟨38, _⟩ => ⟨S_, .f32⟩
  | .hbm, ⟨39, _⟩ => ⟨S500000x64, .f32⟩
  | .hbm, ⟨40, _⟩ => ⟨S500000x64, .f32⟩
  | .hbm, ⟨41, _⟩ => ⟨S64x64, .f32⟩
  | .hbm, ⟨42, _⟩ => ⟨S300000x64, .f32⟩
  | .hbm, ⟨43, _⟩ => ⟨S1x64, .f32⟩
  | .hbm, ⟨44, _⟩ => ⟨S300000x64, .f32⟩
  | .hbm, ⟨45, _⟩ => ⟨S300000x64, .f32⟩
  | .hbm, ⟨46, _⟩ => ⟨S64x64, .f32⟩
  | .hbm, ⟨47, _⟩ => ⟨S500000x64, .f32⟩
  | .hbm, ⟨48, _⟩ => ⟨S1000000x1, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S300000x64, .f32⟩
  | .hbm, ⟨62, _⟩ => ⟨S1000000x1, .i32⟩
  | .hbm, ⟨63, _⟩ => ⟨S300000x64, .f32⟩
  | .hbm, ⟨64, _⟩ => ⟨S300000x64, .f32⟩
  | .hbm, ⟨65, _⟩ => ⟨S_, .f32⟩
  | .hbm, ⟨66, _⟩ => ⟨S300000x64, .f32⟩
  | .hbm, ⟨67, _⟩ => ⟨S300000x64, .f32⟩
  | .hbm, ⟨68, _⟩ => ⟨S_, .f32⟩
  | .hbm, ⟨69, _⟩ => ⟨S500000, .f32⟩
  | .hbm, ⟨70, _⟩ => ⟨S1000000x1, .i32⟩
  | .hbm, ⟨71, _⟩ => ⟨S500000, .f32⟩
  | .hbm, ⟨72, _⟩ => ⟨S_, .f32⟩
  | .hbm, ⟨73, _⟩ => ⟨S500000, .f32⟩
  | .hbm, ⟨74, _⟩ => ⟨S500000, .i1⟩
  | .hbm, ⟨75, _⟩ => ⟨S500000, .f32⟩
  | .hbm, ⟨76, _⟩ => ⟨S_, .f32⟩
  | .hbm, ⟨77, _⟩ => ⟨S300000, .f32⟩
  | .hbm, ⟨78, _⟩ => ⟨S1000000x1, .i32⟩
  | .hbm, ⟨79, _⟩ => ⟨S300000, .f32⟩
  | .hbm, ⟨80, _⟩ => ⟨S_, .f32⟩
  | .hbm, ⟨81, _⟩ => ⟨S300000, .f32⟩
  | .hbm, ⟨82, _⟩ => ⟨S300000, .i1⟩
  | .hbm, ⟨83, _⟩ => ⟨S300000, .f32⟩
  | .hbm, ⟨84, _⟩ => ⟨S500000x1, .f32⟩
  | .hbm, ⟨85, _⟩ => ⟨S500000x64, .f32⟩
  | .hbm, ⟨86, _⟩ => ⟨S500000x64, .f32⟩
  | .hbm, ⟨87, _⟩ => ⟨S300000x1, .f32⟩
  | .hbm, ⟨88, _⟩ => ⟨S300000x64, .f32⟩
  | .hbm, ⟨89, _⟩ => ⟨S300000x64, .f32⟩
  | .hbm, ⟨90, _⟩ => ⟨S500000x64, .f32⟩
  | .hbm, ⟨91, _⟩ => ⟨S300000x64, .f32⟩
  | .hbm, ⟨92, _⟩ => ⟨S500000x64, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S300000x64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_1 : Ref sig .tc := ⟨.hbm, 49, rfl⟩
abbrev main_v30 : Ref sig .tc := ⟨.hbm, 50, rfl⟩
abbrev main_v31 : Ref sig .tc := ⟨.hbm, 51, rfl⟩
abbrev main_c_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S500000x64 : S_.BroadcastsInDim S500000x64 (![] : Fin 0 → Fin S500000x64.rank)
  bcast_S1x64_S300000x64_0_1 : S1x64.BroadcastsInDim S300000x64 (![0, 1] : Fin 2 → Fin S300000x64.rank)
  bcast_S_S300000x64 : S_.BroadcastsInDim S300000x64 (![] : Fin 0 → Fin S300000x64.rank)
  bcast_S_S500000 : S_.BroadcastsInDim S500000 (![] : Fin 0 → Fin S500000.rank)
  bcast_S_S300000 : S_.BroadcastsInDim S300000 (![] : Fin 0 → Fin S300000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S300000_S300000x1_0 : S300000.BroadcastsInDim S300000x1 (![0] : Fin 1 → Fin S300000x1.rank)
  bcast_S300000x1_S300000x64_0_1 : S300000x1.BroadcastsInDim S300000x64 (![0, 1] : Fin 2 → Fin S300000x64.rank)
  reducesTo_S500000x64_S_d0_1 : S500000x64.ReducesTo [0, 1] S_
  h_S_ : 0 < S_.numel
  reducesTo_S500000_S_d0 : S500000.ReducesTo [0] S_
  reducesTo_S300000x64_S_d0_1 : S300000x64.ReducesTo [0, 1] S_
  reducesTo_S300000_S_d0 : S300000.ReducesTo [0] S_
  dot_S500000x64_S64x64_S500000x64_1_0_0_1_n_n_wf : DotDims.WF S500000x64 S64x64 S500000x64 [1] [0] [0] [1] [] []
  dot_S300000x64_S64x64_S300000x64_1_0_0_1_n_n_wf : DotDims.WF S300000x64 S64x64 S300000x64 [1] [0] [0] [1] [] []
  gather_S300000x64_S1000000x1_S1000000x64_1_0_n_n_0_1_164_wf : GatherDims.WF S300000x64 S1000000x1 S1000000x64 [1] [0] [] [0] [] 1 ![1, 64]
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  scatter_S300000x64_S1000000x1_S1000000x64_1_0_0_1_wf : ScatterDims.WF S300000x64 S1000000x1 S1000000x64 [1] [0] [0] 1
  scatter_S500000_S1000000x1_S1000000_n_0_0_1_wf : ScatterDims.WF S500000 S1000000x1 S1000000 [] [0] [0] 1
  scatter_S300000_S1000000x1_S1000000_n_0_0_1_wf : ScatterDims.WF S300000 S1000000x1 S1000000 [] [0] [0] 1

variable [Facts₀]

def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S300000_S1000000x1_S1000000_n_0_0_1 : ScatterDims S300000 S1000000x1 S1000000 where
  updateWindowDims := []
  insertedWindowDims := [0]
  scatterDimsToOperandDims := [0]
  indexVectorDim := 1
  wf := scatter_S300000_S1000000x1_S1000000_n_0_0_1_wf

class Facts : Prop extends Facts₀ where

variable [Facts]
-- ==== Proof.Lin.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the projection kernel (one matrix product per block of 20000 rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S20000x64 := Rect.unit (s := S20000x64) ![0, 0] S20000x64.size inb_S20000x64_S20000x64_0_0
abbrev rW0 : Rect S64x64 := Rect.unit (s := S64x64) ![0, 0] S64x64.size inb_S64x64_S64x64_0_0

/-- What the body leaves in the output window's buffer: the product of the row block with the weight block. -/
def out0_2 (x0 : Vec F S20000x64 .f32) (x1 : Vec F S64x64 .f32) : Vec F S20000x64 .f32 :=
  View.canon [⟨rX0, k0_pay1 (View.ld x0 rX0) (View.ld x1 rW0)⟩]

/-- The proof data of pipeline 0 on core `c`: both inputs stay at their blocks, the output is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Input window 0's buffer holds its row block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's buffer holds the weight block at every point: fetched at the first point only, its block
    index is the same at every point and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store is of the whole block at zero offsets, so it covers the output buffer. -/
theorem cover0_2 (p0 : Vec F S20000x64 .f32) (y : S20000x64.Idx) :
    ∃ pc ∈ ([⟨rX0, p0⟩] : List (View.Piece (Elt F) S20000x64 .f32)), y ∈ pc.1.set :=
  View.cover_of_tiled [⟨rX0, p0⟩] S20000x64.size (by rfl) y

set_option maxHeartbeats 1000000 in
/-- The body on whole staging memrefs, the row block at `x0`, the weight at `x1` and the output at anything, runs to
    the inputs as they were and the output at the product `out0_2 x0 x1`: two loads of the inputs, one load of the
    output whose value is unused, and one store of the whole block. -/
theorem sound_kernel0 (c : Dev nD) (E : Set ℕ) (i : grid0.Coords)
    (arg1 : Memref sig .tc .vmem S20000x64 .f32) (harg1 : arg1.IsWhole)
    (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' memrefs hold their blocks, so the triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: the projection kernel (one matrix product per block of 20000 rows) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S20000x64 := Rect.unit (s := S20000x64) ![0, 0] S20000x64.size inb_S20000x64_S20000x64_0_0
abbrev rW1 : Rect S64x64 := Rect.unit (s := S64x64) ![0, 0] S64x64.size inb_S64x64_S64x64_0_0

/-- What the body leaves in the output window's buffer: the product of the row block with the weight block. -/
def out1_2 (x0 : Vec F S20000x64 .f32) (x1 : Vec F S64x64 .f32) : Vec F S20000x64 .f32 :=
  View.canon [⟨rX1, k1_pay1 (View.ld x0 rX1) (View.ld x1 rW1)⟩]

/-- The proof data of pipeline 1 on core `c`: both inputs stay at their blocks, the output is the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Input window 0's buffer holds its row block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's buffer holds the weight block at every point: fetched at the first point only, its block
    index is the same at every point and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The one store is of the whole block at zero offsets, so it covers the output buffer. -/
theorem cover1_2 (p0 : Vec F S20000x64 .f32) (y : S20000x64.Idx) :
    ∃ pc ∈ ([⟨rX1, p0⟩] : List (View.Piece (Elt F) S20000x64 .f32)), y ∈ pc.1.set :=
  View.cover_of_tiled [⟨rX1, p0⟩] S20000x64.size (by rfl) y

set_option maxHeartbeats 1000000 in
/-- The body on whole staging memrefs, the row block at `x0`, the weight at `x1` and the output at anything, runs to
    the inputs as they were and the output at the product `out1_2 x0 x1`: two loads of the inputs, one load of the
    output whose value is unused, and one store of the whole block. -/
theorem sound_kernel1 (c : Dev nD) (E : Set ℕ) (i : grid1.Coords)
    (arg1 : Memref sig .tc .vmem S20000x64 .f32) (harg1 : arg1.IsWhole)
    (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' memrefs hold their blocks, so the triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand
end
-- ==== Proof.Comb2.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import Idealize.ShloMosaic.Lib.ValueIdx
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: the combine kernel. Per block of 20000 rows it writes the new rows (window 5) and ONE row of the
    statistics buffer (window 6: the block's sum of squared updates and its count of rows with positive degree). The
    statistics block is the whole 25x2 array at every point, so its buffer is kept from point to point and written
    back once, after the last point. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S20000x64 := Rect.unit (s := S20000x64) ![0, 0] S20000x64.size inb_S20000x64_S20000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rD2 : Rect S20000x1 := Rect.unit (s := S20000x1) ![0, 0] S20000x1.size inb_S20000x1_S20000x1_0_0

/-- The new rows of a block, from the windows' blocks in WINDOW order: rows `x0`, self weight `x1`, bias `x2`,
    propagated sum `x3`, degree column `x4`. -/
def out2_5 (x0 : Vec F S20000x64 .f32) (x1 : Vec F S64x64 .f32) (x2 : Vec F S1x64 .f32) (x3 : Vec F S20000x64 .f32)
    (x4 : Vec F S20000x1 .f32) : Vec F S20000x64 .f32 :=
  View.canon [⟨rX2, k2_pay3 (View.ld x0 rX2) (View.ld x1 rW2) (View.ld x2 rB2) (View.ld x4 rD2) (View.ld x3 rX2)⟩]

/-- The block's two sums (squared updates; rows of positive degree), as the 1x2 row the body stores. -/
def stat2 (x0 : Vec F S20000x64 .f32) (x1 : Vec F S64x64 .f32) (x2 : Vec F S1x64 .f32) (x3 : Vec F S20000x64 .f32)
    (x4 : Vec F S20000x1 .f32) : Vec F S1x2 .f32 :=
  k2_pay4 (View.ld x0 rX2) (View.ld x1 rW2) (View.ld x2 rB2) (View.ld x4 rD2) (View.ld x3 rX2)

/-- The two sums of the block at point `t`. -/
def stats2At (c : Dev nD) (t : Fin cfg2.N) : Vec F S1x2 .f32 :=
  stat2 (iblk2 V c 0 t) (iblk2 V c 1 t) (iblk2 V c 2 t) (iblk2 V c 3 t) (iblk2 V c 4 t)

/-- Exact proof data for every window but the statistics one (its entry below is never consulted: the relation
    `rel2` replaces it). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => iblk2 V c 6 t
  Φ _ := Pipeline.ΦA spec2 c
  q _ := fullShare
  owed _ := 0

/-- What the body does to the statistics buffer at point `t`: row `t` becomes the block's two sums, every other
    row is left as found. -/
def rel2 (c : Dev nD) (t : Fin cfg2.N) (Y X : Vec F S25x2 .f32) : Prop :=
  ∀ (r : Fin 25) (k : Fin 2), X (ix2 r k) = if r.val = t.val then stats2At V c t (ix2 (0 : Fin 1) k) else Y (ix2 r k)

/-- Only the statistics window is constrained rather than named. -/
def ovr2 (c : Dev nD) : (w : Fin cfg2.W) → Option (Fin cfg2.N → (Y X : (cfg2.win w).block.Idx → Elt F (cfg2.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (rel2 V c)

/-- The region's relational proof data. -/
def rd2 (c : Dev nD) : RDat τ (Elt F) Unit ℕ (UR sig nD τ) ℕ cfg2 c := (dat2 V c).toR.override (ovr2 V c)

theorem rd2_A (c : Dev nD) (w : Fin cfg2.W) : (rd2 V c).A w = V c (Pipeline.arrRef spec2 w) := by
  unfold rd2; rw [RDat.override_A, Dat.toR_A]; dsimp only [dat2]

/-! ## The body's triple -/

/-- The one store of the new rows covers the block. -/
theorem cover2_5 (p0 : Vec F S20000x64 .f32) (y : S20000x64.Idx) :
    ∃ pc ∈ ([⟨rX2, p0⟩] : List (View.Piece (Elt F) S20000x64 .f32)), y ∈ pc.1.set :=
  View.cover_of_tiled [⟨rX2, p0⟩] S20000x64.size (by rfl) y

/-- Where the statistics row goes: the row of the grid coordinate, column 0. -/
theorem unitLocal2 (o : ℕ) (r : Fin 25) (k : Fin 2)
    (h : ∀ a : Fin 2, (![o, 0] : Fin 2 → ℕ) a ≤ ((ix2 r k : S25x2.Idx) a).val ∧ ((ix2 r k : S25x2.Idx) a).val < (![o, 0] : Fin 2 → ℕ) a + S1x2.size a) :
    (Rect.unitLocal (s := S25x2) (off := ![o, 0]) (size := S1x2.size) (ix2 r k) h) = (ix2 (0 : Fin 1) k : S1x2.Idx) := by
  funext a
  match a with
  | ⟨0, _⟩ =>
    have h0 : o ≤ r.val ∧ r.val < o + 1 := h 0
    exact Fin.ext (by show r.val - o = 0; omega)
  | ⟨1, _⟩ => exact Fin.ext (by show k.val - 0 = k.val; omega)

set_option maxHeartbeats 4000000 in
/-- The body on whole staging memrefs: the five inputs at read contents (window order), the new-rows buffer at anything,
    the statistics buffer at named contents y6. It gives the inputs back as they were, the new rows at their closed
    form, and the statistics buffer with row (i 0) replaced by the block's two sums and every other row as it was. -/
theorem sound_kernel2 (c : Dev nD) (E : Set ℕ) (i : grid2.Coords)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S20000x1 .f32) (harg5 : arg5.IsWhole) (arg6 : Memref sig .tc .vmem S20000x64 .f32) (harg6 : arg6.IsWhole)
    (arg7 : Memref sig .tc .vmem S25x2 .f32) (harg7 : arg7.IsWhole)
    (x0 : Vec F S20000x64 .f32) (x1 : Vec F S64x64 .f32) (x2 : Vec F S1x64 .f32) (x3 : Vec F S20000x64 .f32) (x4 : Vec F S20000x1 .f32)
    (y6 : Vec F S25x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare y6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)
            ∗ (∃ X : Vec F S25x2 .f32, ⌜∀ (r : Fin 25) (k : Fin 2), X (ix2 r k)
                  = if r.val = (i 0).val then stat2 x0 x1 x2 x3 x4 (ix2 (0 : Fin 1) k) else y6 (ix2 r k)⌝
                ∗ owns (c : Thread nD τ) arg7 fullShare X)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_5 _)
  iexists _; isplitr
  swap
  · iexists _; isplitr
    swap; · iexact H7
    ipureintro; rfl
  ipureintro
  intro r k
  rw [View.read_writes_cons_rows (o := (i 0).val) (W := 1) arg7.view f7 (k2_off1_inb i) _ [] (ix2 r k) (k2_off1_eq i) rfl rfl]
  by_cases hr : r.val = (i 0).val
  · rw [if_pos hr, dif_pos (by show (i 0).val ≤ r.val ∧ r.val < (i 0).val + 1; omega)]
    unfold stat2
    rw [unitLocal2]
    rfl
  · rw [if_neg hr, dif_neg (by show ¬ ((i 0).val ≤ r.val ∧ r.val < (i 0).val + 1); omega)]
    rfl

/-! ## The proof data, window by window -/

/-- The exact data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Each input's current staging buffer holds its block at every point, fetched there or not: unfetched, the block
    index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- What the body may find in a window whose relation is the exact one: what the exact data says it finds. -/
theorem finds2_of_none (c : Dev nD) (w : Fin cfg2.W) (h : ovr2 V c w = none) (t : Fin cfg2.N)
    (Y : (cfg2.win w).block.Idx → Elt F (cfg2.win w).elt) (hY : (rd2 V c).Finds w t Y) : ∃ d, Y = (dat2 V c).before w t d :=
  (dat2 V c).toR_finds w t Y (((dat2 V c).toR.override_finds h t Y).mp hY)

/-- For such a window the relation holds of the exact data's named contents, whatever was found. -/
theorem after2_of_none (c : Dev nD) (w : Fin cfg2.W) (h : ovr2 V c w = none) (t : Fin cfg2.N)
    (Y : (cfg2.win w).block.Idx → Elt F (cfg2.win w).elt) : (rd2 V c).after w t Y ((dat2 V c).after w t) := by
  unfold rd2
  rw [(dat2 V c).toR.override_after_of_eq_none h]
  exact (Dat.Leaves.live_iff (dat2 V c) (.inl rfl)).mpr rfl

/-- For the statistics window the relation is rel2. -/
theorem after2_6 (c : Dev nD) (t : Fin cfg2.N) (Y X : (cfg2.win 6).block.Idx → Elt F (cfg2.win 6).elt)
    (h : rel2 V c t Y X) : (rd2 V c).after 6 t Y X := by
  unfold rd2
  rw [(dat2 V c).toR.override_after_of_eq_some (R := rel2 V c) rfl]
  exact h

/-- The grid has one axis: a point's coordinate is its number. -/
theorem coords2_val : ∀ t : Fin grid2.N, (grid2.coords t 0).val = t.val := by decide +kernel

/-! ## The body obligation, at a generic point -/

set_option maxHeartbeats 1000000 in
/-- The body at any point, the windows one by one: the inputs' buffers hold their blocks, so the triple applies at the
    point's coordinate; each input comes back as found, the new rows at their closed form, the statistics buffer in the
    relation rel2 to what it held; the invariant and what the core owes pass through unread. -/
theorem sound_body2 (c : Dev nD) (t : Fin cfg2.N)
    (y0 : (cfg2.win 0).block.Idx → Elt F (cfg2.win 0).elt) (y1 : (cfg2.win 1).block.Idx → Elt F (cfg2.win 1).elt)
    (y2 : (cfg2.win 2).block.Idx → Elt F (cfg2.win 2).elt) (y3 : (cfg2.win 3).block.Idx → Elt F (cfg2.win 3).elt)
    (y4 : (cfg2.win 4).block.Idx → Elt F (cfg2.win 4).elt) (y5 : (cfg2.win 5).block.Idx → Elt F (cfg2.win 5).elt)
    (y6 : (cfg2.win 6).block.Idx → Elt F (cfg2.win 6).elt)
    (h0 : y0 = iblk2 V c 0 t) (h1 : y1 = iblk2 V c 1 t) (h2 : y2 = iblk2 V c 2 t) (h3 : y3 = iblk2 V c 3 t) (h4 : y4 = iblk2 V c 4 t) :
    iprop((rd2 V c).Φ t.castSucc ∗ (rd2 V c).owesAt () t.castSucc
        ∗ owns (c : Thread nD τ) (st2_0 t) fullShare y0 ∗ owns (c : Thread nD τ) (st2_1 t) fullShare y1
        ∗ owns (c : Thread nD τ) (st2_2 t) fullShare y2 ∗ owns (c : Thread nD τ) (st2_3 t) fullShare y3
        ∗ owns (c : Thread nD τ) (st2_4 t) fullShare y4 ∗ owns (c : Thread nD τ) (st2_5 t) fullShare y5
        ∗ owns (c : Thread nD τ) (st2_6 t) fullShare y6)
      ⊢ wp frame (wpE (defs₀ (F := F)) Variants.none c none) Set.univ (bodyAt2 t) (fun _ =>
          iprop((rd2 V c).Φ t.succ ∗ (rd2 V c).owesAt () t.succ
            ∗ (∃ X, ⌜(rd2 V c).after 0 t y0 X⌝ ∗ owns (c : Thread nD τ) (st2_0 t) fullShare X)
            ∗ (∃ X, ⌜(rd2 V c).after 1 t y1 X⌝ ∗ owns (c : Thread nD τ) (st2_1 t) fullShare X)
            ∗ (∃ X, ⌜(rd2 V c).after 2 t y2 X⌝ ∗ owns (c : Thread nD τ) (st2_2 t) fullShare X)
            ∗ (∃ X, ⌜(rd2 V c).after 3 t y3 X⌝ ∗ owns (c : Thread nD τ) (st2_3 t) fullShare X)
            ∗ (∃ X, ⌜(rd2 V c).after 4 t y4 X⌝ ∗ owns (c : Thread nD τ) (st2_4 t) fullShare X)
            ∗ (∃ X, ⌜(rd2 V c).after 5 t y5 X⌝ ∗ owns (c : Thread nD τ) (st2_5 t) fullShare X)
            ∗ (∃ X, ⌜(rd2 V c).after 6 t y6 X⌝ ∗ owns (c : Thread nD τ) (st2_6 t) fullShare X))) := by
  subst h0 h1 h2 h3 h4
  rw [show (rd2 V c).Φ t.succ = (rd2 V c).Φ t.castSucc from rfl,
    show (rd2 V c).owesAt () t.succ = (rd2 V c).owesAt () t.castSucc from rfl]
  unfold bodyAt2
  iintro ⟨HΦ, Ho, H0, H1, H2, H3, H4, H5, H6⟩
  iapply (sound_kernel2 c Set.univ _ _ _ _ _ _ _ _ _ _ _ _ _ _ _
    (iblk2 V c 0 t) (iblk2 V c 1 t) (iblk2 V c 2 t) (iblk2 V c 3 t) (iblk2 V c 4 t) y6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact (after2_0 V c t) ▸ after2_of_none V c 0 rfl t _
    iexact H0
  isplitl [H1]
  · iexists _; isplitr; · ipureintro; exact (after2_1 V c t) ▸ after2_of_none V c 1 rfl t _
    iexact H1
  isplitl [H2]
  · iexists _; isplitr; · ipureintro; exact (after2_2 V c t) ▸ after2_of_none V c 2 rfl t _
    iexact H2
  isplitl [H3]
  · iexists _; isplitr; · ipureintro; exact (after2_3 V c t) ▸ after2_of_none V c 3 rfl t _
    iexact H3
  isplitl [H4]
  · iexists _; isplitr; · ipureintro; exact (after2_4 V c t) ▸ after2_of_none V c 4 rfl t _
    iexact H4
  isplitl [H5]
  · iexists _; isplitr; · ipureintro; exact (after2_5 V c t) ▸ after2_of_none V c 5 rfl t _
    iexact H5
  iexists X; isplitr
  · ipureintro
    refine after2_6 V c t y6 X fun r k => ?_
    rw [hX r k, coords2_val t]
    rfl
  iexact H6

/-- The body obligation of region 2 over the relational data, at every point. -/
theorem body_obligation2 (c : Dev nD) : (rd2 (F := F) V c).BodyObligation (defs₀ (F := F)) Variants.none () Set.univ := by
  intro t Y hY
  obtain ⟨d0, h0⟩ := finds2_of_none V c 0 rfl t (Y 0) (hY 0)
  obtain ⟨d1, h1⟩ := finds2_of_none V c 1 rfl t (Y 1) (hY 1)
  obtain ⟨d2, h2⟩ := finds2_of_none V c 2 rfl t (Y 2) (hY 2)
  obtain ⟨d3, h3⟩ := finds2_of_none V c 3 rfl t (Y 3) (hY 3)
  obtain ⟨d4, h4⟩ := finds2_of_none V c 4 rfl t (Y 4) (hY 4)
  rw [before2_0] at h0; rw [before2_1] at h1; rw [before2_2] at h2; rw [before2_3] at h3; rw [before2_4] at h4
  rw [bigSep_W2, bigSep_W2]
  exact sound_body2 V c t (Y 0) (Y 1) (Y 2) (Y 3) (Y 4) (Y 5) (Y 6) h0 h1 h2 h3 h4

end Regions

end Cert.KernelIdeal.Hand
end
-- ==== Proof.Comb2Arr.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Comb2
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: what its arrays hold after the last point -/

/-- The statistics array after the region: row `t` holds block `t`'s two sums. -/
def statsArr2 (c : Dev nD) : Vec F S25x2 .f32 :=
  fun y => stats2At V c (Fin.cast N_2.symm (y 0)) (ix2 (0 : Fin 1) (y 1))

/-- Each windowed array's contents after the region. -/
def fin2 (c : Dev nD) : (w : Fin cfg2.W) → Buf (Elt F) ((cfg2.win w).arr.view.loc (c.tc : Thread nD τ))
  | ⟨0, _⟩ => (dat2 V c).arrAt 0 cfg2.N
  | ⟨1, _⟩ => (dat2 V c).arrAt 1 cfg2.N
  | ⟨2, _⟩ => (dat2 V c).arrAt 2 cfg2.N
  | ⟨3, _⟩ => (dat2 V c).arrAt 3 cfg2.N
  | ⟨4, _⟩ => (dat2 V c).arrAt 4 cfg2.N
  | ⟨5, _⟩ => (dat2 V c).arrAt 5 cfg2.N
  | ⟨6, _⟩ => statsArr2 V c

/-- The statistics window is an output: no point fetches it. -/
theorem nofetch2_6 : ∀ t : Fin cfg2.N, (cfg2.win 6).fetch t = false :=
  (by decide +kernel : ∀ t : Fin grid2.N, win2_6.fetch t = false)

/-- The statistics block sits at block index 0 on both axes, at every point. -/
theorem index2_6 : ∀ (i : grid2.Coords) (a : Fin 2), cc2_transform_6 i a = 0 := by
  intro i a; fin_cases a <;> rfl

/-- The statistics block is the whole array, uncut: written back over the full mask, it replaces the array's
    contents, whatever they were. -/
theorem write2_6 (c : Dev nD) (t : Fin cfg2.N) (G₀ : Buf (Elt F) ((cfg2.win 6).arr.view.loc (c.tc : Thread nD τ)))
    (X : Vec F S25x2 .f32) :
    ((cfg2.win 6).blk t).view.write (Elt F) G₀ ((cfg2.win 6).cut (cfg2.grid.coords t) X) Finset.univ = X := by
  funext y
  have h := View.write_emb_of_mem (v := ((cfg2.win 6).blk t).view) G₀ ((cfg2.win 6).cut (cfg2.grid.coords t) X) (Finset.mem_univ y)
  have e : ((cfg2.win 6).blk t).view.emb y = y := by
    funext a; apply Fin.ext
    show cc2_transform_6 (cfg2.grid.coords t) a * S25x2.size a + 1 * (y a).val = (y a).val
    rw [index2_6]; omega
  rw [e] at h
  rw [h]; rfl

/-- The relation the body is held to at the statistics window. -/
theorem after2_6_eq (c : Dev nD) : (rd2 V c).after 6 = rel2 V c :=
  RDat.override_after_of_eq_some (rd := (dat2 V c).toR) (ovr := ovr2 V c) (w := 6) rfl

/-- What the body leaves in the statistics buffer at point `t` has every row up to `t` at its block's two sums:
    row `t` by the relation at `t`; a row below it by the relation's other branch and what was left at the point
    before, which did not write the buffer back. -/
theorem leaves2_6 (c : Dev nD) : ∀ (n : Nat) (t : Fin cfg2.N), t.val = n → ∀ (X : Vec F S25x2 .f32), (rd2 V c).Leaves 6 t X →
    ∀ (r : Fin 25) (k : Fin 2), r.val ≤ t.val → X (ix2 r k) = stats2At V c (Fin.cast N_2.symm r) (ix2 (0 : Fin 1) k) := by
  intro n
  induction n with
  | zero =>
    rintro t ht X ⟨Y, -, hR⟩ r k hr
    rw [after2_6_eq] at hR
    have e : r.val = t.val := by omega
    rw [hR r k, if_pos e]
    exact congrArg (fun u => stats2At V c u (ix2 (0 : Fin 1) k)) (Fin.ext e.symm)
  | succ n ih =>
    rintro t ht X ⟨Y, hY, hR⟩ r k hr
    rw [after2_6_eq] at hR
    by_cases e : r.val = t.val
    · rw [hR r k, if_pos e]
      exact congrArg (fun u => stats2At V c u (ix2 (0 : Fin 1) k)) (Fin.ext e.symm)
    · rw [hR r k, if_neg e]
      have h25 : cfg2.N = 25 := N_2
      have hlt := t.isLt
      rw [(rd2 V c).finds_of_pos (nofetch2_6 t) (by omega)] at hY
      rcases hY with hfl | hL
      · rw [flush2_6] at hfl; dsimp only at hfl; omega
      · exact ih ⟨t.val - 1, Nat.lt_of_le_of_lt (Nat.sub_le _ _) t.isLt⟩ (by dsimp only; omega) Y hL r k (by dsimp only; omega)

/-- A window the relation does not replace: its array holds what the exact data name. -/
theorem arrAt2_named (c : Dev nD) (w : Fin cfg2.W) (hw : ovr2 V c w = none)
    (G : Buf (Elt F) ((cfg2.win w).arr.view.loc (c.tc : Thread nD τ))) :
    (rd2 V c).ArrAt w cfg2.N G → G = (dat2 V c).arrAt w cfg2.N := fun h =>
  (dat2 V c).toR_arrAt w cfg2.N G ((RDat.override_arrAt (rd := (dat2 V c).toR) (ovr := ovr2 V c) (w := w) hw cfg2.N G).mp h)

/-- The statistics array after the last point: the one write-back, at the last point, replaces it by what the
    body left there, every row of which is its block's two sums. -/
theorem arrAt2_6 (c : Dev nD) (G : Buf (Elt F) ((cfg2.win 6).arr.view.loc (c.tc : Thread nD τ))) :
    (rd2 V c).ArrAt 6 cfg2.N G → G = statsArr2 V c := by
  intro h
  have h24 : 24 < cfg2.N := by rw [show cfg2.N = 25 from N_2]; omega
  have hs := (rd2 V c).ArrAt_succ 6 ⟨24, h24⟩
  have hN : (rd2 V c).ArrAt 6 cfg2.N = (rd2 V c).ArrAt 6 (24 + 1) := congrArg ((rd2 V c).ArrAt 6) N_2
  have hfl : (cfg2.win 6).flush ⟨24, h24⟩ = true := (flush2_6 ⟨24, h24⟩).mpr rfl
  dsimp only at hs
  rw [hN, hs, if_pos hfl] at h
  obtain ⟨G₀, X, -, hX, rfl⟩ := h
  rw [write2_6]
  funext y
  rw [eq_ix2 y]
  exact leaves2_6 V c 24 ⟨24, h24⟩ rfl X hX (y 0) (y 1) (Nat.le_of_lt_succ (y 0).isLt)

/-! Window by window: the named windows hold what the exact data name, the statistics window its rows of sums. -/

theorem arrAt2_fin_0 (c : Dev nD) (hk : 0 < cfg2.W) (G : Buf (Elt F) ((cfg2.win ⟨0, hk⟩).arr.view.loc (c.tc : Thread nD τ))) :
    (rd2 V c).ArrAt ⟨0, hk⟩ cfg2.N G → G = fin2 V c ⟨0, hk⟩ := by
  intro h; dsimp only [fin2]; exact arrAt2_named V c 0 rfl G h

theorem arrAt2_fin_1 (c : Dev nD) (hk : 1 < cfg2.W) (G : Buf (Elt F) ((cfg2.win ⟨1, hk⟩).arr.view.loc (c.tc : Thread nD τ))) :
    (rd2 V c).ArrAt ⟨1, hk⟩ cfg2.N G → G = fin2 V c ⟨1, hk⟩ := by
  intro h; dsimp only [fin2]; exact arrAt2_named V c 1 rfl G h

theorem arrAt2_fin_2 (c : Dev nD) (hk : 2 < cfg2.W) (G : Buf (Elt F) ((cfg2.win ⟨2, hk⟩).arr.view.loc (c.tc : Thread nD τ))) :
    (rd2 V c).ArrAt ⟨2, hk⟩ cfg2.N G → G = fin2 V c ⟨2, hk⟩ := by
  intro h; dsimp only [fin2]; exact arrAt2_named V c 2 rfl G h

theorem arrAt2_fin_3 (c : Dev nD) (hk : 3 < cfg2.W) (G : Buf (Elt F) ((cfg2.win ⟨3, hk⟩).arr.view.loc (c.tc : Thread nD τ))) :
    (rd2 V c).ArrAt ⟨3, hk⟩ cfg2.N G → G = fin2 V c ⟨3, hk⟩ := by
  intro h; dsimp only [fin2]; exact arrAt2_named V c 3 rfl G h

theorem arrAt2_fin_4 (c : Dev nD) (hk : 4 < cfg2.W) (G : Buf (Elt F) ((cfg2.win ⟨4, hk⟩).arr.view.loc (c.tc : Thread nD τ))) :
    (rd2 V c).ArrAt ⟨4, hk⟩ cfg2.N G → G = fin2 V c ⟨4, hk⟩ := by
  intro h; dsimp only [fin2]; exact arrAt2_named V c 4 rfl G h

theorem arrAt2_fin_5 (c : Dev nD) (hk : 5 < cfg2.W) (G : Buf (Elt F) ((cfg2.win ⟨5, hk⟩).arr.view.loc (c.tc : Thread nD τ))) :
    (rd2 V c).ArrAt ⟨5, hk⟩ cfg2.N G → G = fin2 V c ⟨5, hk⟩ := by
  intro h; dsimp only [fin2]; exact arrAt2_named V c 5 rfl G h

theorem arrAt2_fin_6 (c : Dev nD) (hk : 6 < cfg2.W) (G : Buf (Elt F) ((cfg2.win ⟨6, hk⟩).arr.view.loc (c.tc : Thread nD τ))) :
    (rd2 V c).ArrAt ⟨6, hk⟩ cfg2.N G → G = fin2 V c ⟨6, hk⟩ := by
  intro h; dsimp only [fin2]; exact arrAt2_6 V c G h

/-- The relational data pin every array after the last point. -/
theorem arrAt2_fin (c : Dev nD) (w : Fin cfg2.W) (G : Buf (Elt F) ((cfg2.win w).arr.view.loc (c.tc : Thread nD τ))) :
    (rd2 V c).ArrAt w cfg2.N G → G = fin2 V c w :=
  match w, G with
  | ⟨0, hk⟩, G => arrAt2_fin_0 V c hk G
  | ⟨1, hk⟩, G => arrAt2_fin_1 V c hk G
  | ⟨2, hk⟩, G => arrAt2_fin_2 V c hk G
  | ⟨3, hk⟩, G => arrAt2_fin_3 V c hk G
  | ⟨4, hk⟩, G => arrAt2_fin_4 V c hk G
  | ⟨5, hk⟩, G => arrAt2_fin_5 V c hk G
  | ⟨6, hk⟩, G => arrAt2_fin_6 V c hk G

end Regions

end Cert.KernelIdeal.Hand
end
-- ==== Proof.Comb3.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import Idealize.ShloMosaic.Lib.ValueIdx
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: the combine kernel. Per block of 20000 rows it writes the new rows (window 5) and ONE row of the
    statistics buffer (window 6: the block's sum of squared updates and its count of rows with positive degree). The
    statistics block is the whole 25x2 array at every point, so its buffer is kept from point to point and written
    back once, after the last point. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S20000x64 := Rect.unit (s := S20000x64) ![0, 0] S20000x64.size inb_S20000x64_S20000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0
abbrev rD3 : Rect S20000x1 := Rect.unit (s := S20000x1) ![0, 0] S20000x1.size inb_S20000x1_S20000x1_0_0

/-- The new rows of a block, from the windows' blocks in WINDOW order: rows `x0`, self weight `x1`, bias `x2`,
    propagated sum `x3`, degree column `x4`. -/
def out3_5 (x0 : Vec F S20000x64 .f32) (x1 : Vec F S64x64 .f32) (x2 : Vec F S1x64 .f32) (x3 : Vec F S20000x64 .f32)
    (x4 : Vec F S20000x1 .f32) : Vec F S20000x64 .f32 :=
  View.canon [⟨rX3, k3_pay3 (View.ld x0 rX3) (View.ld x1 rW3) (View.ld x2 rB3) (View.ld x4 rD3) (View.ld x3 rX3)⟩]

/-- The block's two sums (squared updates; rows of positive degree), as the 1x2 row the body stores. -/
def stat3 (x0 : Vec F S20000x64 .f32) (x1 : Vec F S64x64 .f32) (x2 : Vec F S1x64 .f32) (x3 : Vec F S20000x64 .f32)
    (x4 : Vec F S20000x1 .f32) : Vec F S1x2 .f32 :=
  k3_pay4 (View.ld x0 rX3) (View.ld x1 rW3) (View.ld x2 rB3) (View.ld x4 rD3) (View.ld x3 rX3)

/-- The two sums of the block at point `t`. -/
def stats3At (c : Dev nD) (t : Fin cfg3.N) : Vec F S1x2 .f32 :=
  stat3 (iblk3 V c 0 t) (iblk3 V c 1 t) (iblk3 V c 2 t) (iblk3 V c 3 t) (iblk3 V c 4 t)

/-- Exact proof data for every window but the statistics one (its entry below is never consulted: the relation
    `rel3` replaces it). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => iblk3 V c 6 t
  Φ _ := Pipeline.ΦA spec3 c
  q _ := fullShare
  owed _ := 0

/-- What the body does to the statistics buffer at point `t`: row `t` becomes the block's two sums, every other
    row is left as found. -/
def rel3 (c : Dev nD) (t : Fin cfg3.N) (Y X : Vec F S15x2 .f32) : Prop :=
  ∀ (r : Fin 15) (k : Fin 2), X (ix2 r k) = if r.val = t.val then stats3At V c t (ix2 (0 : Fin 1) k) else Y (ix2 r k)

/-- Only the statistics window is constrained rather than named. -/
def ovr3 (c : Dev nD) : (w : Fin cfg3.W) → Option (Fin cfg3.N → (Y X : (cfg3.win w).block.Idx → Elt F (cfg3.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (rel3 V c)

/-- The region's relational proof data. -/
def rd3 (c : Dev nD) : RDat τ (Elt F) Unit ℕ (UR sig nD τ) ℕ cfg3 c := (dat3 V c).toR.override (ovr3 V c)

theorem rd3_A (c : Dev nD) (w : Fin cfg3.W) : (rd3 V c).A w = V c (Pipeline.arrRef spec3 w) := by
  unfold rd3; rw [RDat.override_A, Dat.toR_A]; dsimp only [dat3]

/-! ## The body's triple -/

/-- The one store of the new rows covers the block. -/
theorem cover3_5 (p0 : Vec F S20000x64 .f32) (y : S20000x64.Idx) :
    ∃ pc ∈ ([⟨rX3, p0⟩] : List (View.Piece (Elt F) S20000x64 .f32)), y ∈ pc.1.set :=
  View.cover_of_tiled [⟨rX3, p0⟩] S20000x64.size (by rfl) y

/-- Where the statistics row goes: the row of the grid coordinate, column 0. -/
theorem unitLocal3 (o : ℕ) (r : Fin 15) (k : Fin 2)
    (h : ∀ a : Fin 2, (![o, 0] : Fin 2 → ℕ) a ≤ ((ix2 r k : S15x2.Idx) a).val ∧ ((ix2 r k : S15x2.Idx) a).val < (![o, 0] : Fin 2 → ℕ) a + S1x2.size a) :
    (Rect.unitLocal (s := S15x2) (off := ![o, 0]) (size := S1x2.size) (ix2 r k) h) = (ix2 (0 : Fin 1) k : S1x2.Idx) := by
  funext a
  match a with
  | ⟨0, _⟩ =>
    have h0 : o ≤ r.val ∧ r.val < o + 1 := h 0
    exact Fin.ext (by show r.val - o = 0; omega)
  | ⟨1, _⟩ => exact Fin.ext (by show k.val - 0 = k.val; omega)

set_option maxHeartbeats 4000000 in
/-- The body on whole staging memrefs: the five inputs at read contents (window order), the new-rows buffer at anything,
    the statistics buffer at named contents y6. It gives the inputs back as they were, the new rows at their closed
    form, and the statistics buffer with row (i 0) replaced by the block's two sums and every other row as it was. -/
theorem sound_kernel3 (c : Dev nD) (E : Set ℕ) (i : grid3.Coords)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S20000x1 .f32) (harg5 : arg5.IsWhole) (arg6 : Memref sig .tc .vmem S20000x64 .f32) (harg6 : arg6.IsWhole)
    (arg7 : Memref sig .tc .vmem S15x2 .f32) (harg7 : arg7.IsWhole)
    (x0 : Vec F S20000x64 .f32) (x1 : Vec F S64x64 .f32) (x2 : Vec F S1x64 .f32) (x3 : Vec F S20000x64 .f32) (x4 : Vec F S20000x1 .f32)
    (y6 : Vec F S15x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare y6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)
            ∗ (∃ X : Vec F S15x2 .f32, ⌜∀ (r : Fin 15) (k : Fin 2), X (ix2 r k)
                  = if r.val = (i 0).val then stat3 x0 x1 x2 x3 x4 (ix2 (0 : Fin 1) k) else y6 (ix2 r k)⌝
                ∗ owns (c : Thread nD τ) arg7 fullShare X)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_5 _)
  iexists _; isplitr
  swap
  · iexists _; isplitr
    swap; · iexact H7
    ipureintro; rfl
  ipureintro
  intro r k
  rw [View.read_writes_cons_rows (o := (i 0).val) (W := 1) arg7.view f7 (k3_off1_inb i) _ [] (ix2 r k) (k3_off1_eq i) rfl rfl]
  by_cases hr : r.val = (i 0).val
  · rw [if_pos hr, dif_pos (by show (i 0).val ≤ r.val ∧ r.val < (i 0).val + 1; omega)]
    unfold stat3
    rw [unitLocal3]
    rfl
  · rw [if_neg hr, dif_neg (by show ¬ ((i 0).val ≤ r.val ∧ r.val < (i 0).val + 1); omega)]
    rfl

/-! ## The proof data, window by window -/

/-- The exact data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not: unfetched, the block
    index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- What the body may find in a window whose relation is the exact one: what the exact data says it finds. -/
theorem finds3_of_none (c : Dev nD) (w : Fin cfg3.W) (h : ovr3 V c w = none) (t : Fin cfg3.N)
    (Y : (cfg3.win w).block.Idx → Elt F (cfg3.win w).elt) (hY : (rd3 V c).Finds w t Y) : ∃ d, Y = (dat3 V c).before w t d :=
  (dat3 V c).toR_finds w t Y (((dat3 V c).toR.override_finds h t Y).mp hY)

/-- For such a window the relation holds of the exact data's named contents, whatever was found. -/
theorem after3_of_none (c : Dev nD) (w : Fin cfg3.W) (h : ovr3 V c w = none) (t : Fin cfg3.N)
    (Y : (cfg3.win w).block.Idx → Elt F (cfg3.win w).elt) : (rd3 V c).after w t Y ((dat3 V c).after w t) := by
  unfold rd3
  rw [(dat3 V c).toR.override_after_of_eq_none h]
  exact (Dat.Leaves.live_iff (dat3 V c) (.inl rfl)).mpr rfl

/-- For the statistics window the relation is rel3. -/
theorem after3_6 (c : Dev nD) (t : Fin cfg3.N) (Y X : (cfg3.win 6).block.Idx → Elt F (cfg3.win 6).elt)
    (h : rel3 V c t Y X) : (rd3 V c).after 6 t Y X := by
  unfold rd3
  rw [(dat3 V c).toR.override_after_of_eq_some (R := rel3 V c) rfl]
  exact h

/-- The grid has one axis: a point's coordinate is its number. -/
theorem coords3_val : ∀ t : Fin grid3.N, (grid3.coords t 0).val = t.val := by decide +kernel

/-! ## The body obligation, at a generic point -/

set_option maxHeartbeats 1000000 in
/-- The body at any point, the windows one by one: the inputs' buffers hold their blocks, so the triple applies at the
    point's coordinate; each input comes back as found, the new rows at their closed form, the statistics buffer in the
    relation rel3 to what it held; the invariant and what the core owes pass through unread. -/
theorem sound_body3 (c : Dev nD) (t : Fin cfg3.N)
    (y0 : (cfg3.win 0).block.Idx → Elt F (cfg3.win 0).elt) (y1 : (cfg3.win 1).block.Idx → Elt F (cfg3.win 1).elt)
    (y2 : (cfg3.win 2).block.Idx → Elt F (cfg3.win 2).elt) (y3 : (cfg3.win 3).block.Idx → Elt F (cfg3.win 3).elt)
    (y4 : (cfg3.win 4).block.Idx → Elt F (cfg3.win 4).elt) (y5 : (cfg3.win 5).block.Idx → Elt F (cfg3.win 5).elt)
    (y6 : (cfg3.win 6).block.Idx → Elt F (cfg3.win 6).elt)
    (h0 : y0 = iblk3 V c 0 t) (h1 : y1 = iblk3 V c 1 t) (h2 : y2 = iblk3 V c 2 t) (h3 : y3 = iblk3 V c 3 t) (h4 : y4 = iblk3 V c 4 t) :
    iprop((rd3 V c).Φ t.castSucc ∗ (rd3 V c).owesAt () t.castSucc
        ∗ owns (c : Thread nD τ) (st3_0 t) fullShare y0 ∗ owns (c : Thread nD τ) (st3_1 t) fullShare y1
        ∗ owns (c : Thread nD τ) (st3_2 t) fullShare y2 ∗ owns (c : Thread nD τ) (st3_3 t) fullShare y3
        ∗ owns (c : Thread nD τ) (st3_4 t) fullShare y4 ∗ owns (c : Thread nD τ) (st3_5 t) fullShare y5
        ∗ owns (c : Thread nD τ) (st3_6 t) fullShare y6)
      ⊢ wp frame (wpE (defs₀ (F := F)) Variants.none c none) Set.univ (bodyAt3 t) (fun _ =>
          iprop((rd3 V c).Φ t.succ ∗ (rd3 V c).owesAt () t.succ
            ∗ (∃ X, ⌜(rd3 V c).after 0 t y0 X⌝ ∗ owns (c : Thread nD τ) (st3_0 t) fullShare X)
            ∗ (∃ X, ⌜(rd3 V c).after 1 t y1 X⌝ ∗ owns (c : Thread nD τ) (st3_1 t) fullShare X)
            ∗ (∃ X, ⌜(rd3 V c).after 2 t y2 X⌝ ∗ owns (c : Thread nD τ) (st3_2 t) fullShare X)
            ∗ (∃ X, ⌜(rd3 V c).after 3 t y3 X⌝ ∗ owns (c : Thread nD τ) (st3_3 t) fullShare X)
            ∗ (∃ X, ⌜(rd3 V c).after 4 t y4 X⌝ ∗ owns (c : Thread nD τ) (st3_4 t) fullShare X)
            ∗ (∃ X, ⌜(rd3 V c).after 5 t y5 X⌝ ∗ owns (c : Thread nD τ) (st3_5 t) fullShare X)
            ∗ (∃ X, ⌜(rd3 V c).after 6 t y6 X⌝ ∗ owns (c : Thread nD τ) (st3_6 t) fullShare X))) := by
  subst h0 h1 h2 h3 h4
  rw [show (rd3 V c).Φ t.succ = (rd3 V c).Φ t.castSucc from rfl,
    show (rd3 V c).owesAt () t.succ = (rd3 V c).owesAt () t.castSucc from rfl]
  unfold bodyAt3
  iintro ⟨HΦ, Ho, H0, H1, H2, H3, H4, H5, H6⟩
  iapply (sound_kernel3 c Set.univ _ _ _ _ _ _ _ _ _ _ _ _ _ _ _
    (iblk3 V c 0 t) (iblk3 V c 1 t) (iblk3 V c 2 t) (iblk3 V c 3 t) (iblk3 V c 4 t) y6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact (after3_0 V c t) ▸ after3_of_none V c 0 rfl t _
    iexact H0
  isplitl [H1]
  · iexists _; isplitr; · ipureintro; exact (after3_1 V c t) ▸ after3_of_none V c 1 rfl t _
    iexact H1
  isplitl [H2]
  · iexists _; isplitr; · ipureintro; exact (after3_2 V c t) ▸ after3_of_none V c 2 rfl t _
    iexact H2
  isplitl [H3]
  · iexists _; isplitr; · ipureintro; exact (after3_3 V c t) ▸ after3_of_none V c 3 rfl t _
    iexact H3
  isplitl [H4]
  · iexists _; isplitr; · ipureintro; exact (after3_4 V c t) ▸ after3_of_none V c 4 rfl t _
    iexact H4
  isplitl [H5]
  · iexists _; isplitr; · ipureintro; exact (after3_5 V c t) ▸ after3_of_none V c 5 rfl t _
    iexact H5
  iexists X; isplitr
  · ipureintro
    refine after3_6 V c t y6 X fun r k => ?_
    rw [hX r k, coords3_val t]
    rfl
  iexact H6

/-- The body obligation of region 2 over the relational data, at every point. -/
theorem body_obligation3 (c : Dev nD) : (rd3 (F := F) V c).BodyObligation (defs₀ (F := F)) Variants.none () Set.univ := by
  intro t Y hY
  obtain ⟨d0, h0⟩ := finds3_of_none V c 0 rfl t (Y 0) (hY 0)
  obtain ⟨d1, h1⟩ := finds3_of_none V c 1 rfl t (Y 1) (hY 1)
  obtain ⟨d2, h2⟩ := finds3_of_none V c 2 rfl t (Y 2) (hY 2)
  obtain ⟨d3, h3⟩ := finds3_of_none V c 3 rfl t (Y 3) (hY 3)
  obtain ⟨d4, h4⟩ := finds3_of_none V c 4 rfl t (Y 4) (hY 4)
  rw [before3_0] at h0; rw [before3_1] at h1; rw [before3_2] at h2; rw [before3_3] at h3; rw [before3_4] at h4
  rw [bigSep_W3, bigSep_W3]
  exact sound_body3 V c t (Y 0) (Y 1) (Y 2) (Y 3) (Y 4) (Y 5) (Y 6) h0 h1 h2 h3 h4

end Regions

end Cert.KernelIdeal.Hand
end
-- ==== Proof.Comb3Arr.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Comb3
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: what its arrays hold after the last point -/

/-- The statistics array after the region: row `t` holds block `t`'s two sums. -/
def statsArr3 (c : Dev nD) : Vec F S15x2 .f32 :=
  fun y => stats3At V c (Fin.cast N_3.symm (y 0)) (ix2 (0 : Fin 1) (y 1))

/-- Each windowed array's contents after the region. -/
def fin3 (c : Dev nD) : (w : Fin cfg3.W) → Buf (Elt F) ((cfg3.win w).arr.view.loc (c.tc : Thread nD τ))
  | ⟨0, _⟩ => (dat3 V c).arrAt 0 cfg3.N
  | ⟨1, _⟩ => (dat3 V c).arrAt 1 cfg3.N
  | ⟨2, _⟩ => (dat3 V c).arrAt 2 cfg3.N
  | ⟨3, _⟩ => (dat3 V c).arrAt 3 cfg3.N
  | ⟨4, _⟩ => (dat3 V c).arrAt 4 cfg3.N
  | ⟨5, _⟩ => (dat3 V c).arrAt 5 cfg3.N
  | ⟨6, _⟩ => statsArr3 V c

/-- The statistics window is an output: no point fetches it. -/
theorem nofetch3_6 : ∀ t : Fin cfg3.N, (cfg3.win 6).fetch t = false :=
  (by decide +kernel : ∀ t : Fin grid3.N, win3_6.fetch t = false)

/-- The statistics block sits at block index 0 on both axes, at every point. -/
theorem index3_6 : ∀ (i : grid3.Coords) (a : Fin 2), cc3_transform_6 i a = 0 := by
  intro i a; fin_cases a <;> rfl

/-- The statistics block is the whole array, uncut: written back over the full mask, it replaces the array's
    contents, whatever they were. -/
theorem write3_6 (c : Dev nD) (t : Fin cfg3.N) (G₀ : Buf (Elt F) ((cfg3.win 6).arr.view.loc (c.tc : Thread nD τ)))
    (X : Vec F S15x2 .f32) :
    ((cfg3.win 6).blk t).view.write (Elt F) G₀ ((cfg3.win 6).cut (cfg3.grid.coords t) X) Finset.univ = X := by
  funext y
  have h := View.write_emb_of_mem (v := ((cfg3.win 6).blk t).view) G₀ ((cfg3.win 6).cut (cfg3.grid.coords t) X) (Finset.mem_univ y)
  have e : ((cfg3.win 6).blk t).view.emb y = y := by
    funext a; apply Fin.ext
    show cc3_transform_6 (cfg3.grid.coords t) a * S15x2.size a + 1 * (y a).val = (y a).val
    rw [index3_6]; omega
  rw [e] at h
  rw [h]; rfl

/-- The relation the body is held to at the statistics window. -/
theorem after3_6_eq (c : Dev nD) : (rd3 V c).after 6 = rel3 V c :=
  RDat.override_after_of_eq_some (rd := (dat3 V c).toR) (ovr := ovr3 V c) (w := 6) rfl

/-- What the body leaves in the statistics buffer at point `t` has every row up to `t` at its block's two sums:
    row `t` by the relation at `t`; a row below it by the relation's other branch and what was left at the point
    before, which did not write the buffer back. -/
theorem leaves3_6 (c : Dev nD) : ∀ (n : Nat) (t : Fin cfg3.N), t.val = n → ∀ (X : Vec F S15x2 .f32), (rd3 V c).Leaves 6 t X →
    ∀ (r : Fin 15) (k : Fin 2), r.val ≤ t.val → X (ix2 r k) = stats3At V c (Fin.cast N_3.symm r) (ix2 (0 : Fin 1) k) := by
  intro n
  induction n with
  | zero =>
    rintro t ht X ⟨Y, -, hR⟩ r k hr
    rw [after3_6_eq] at hR
    have e : r.val = t.val := by omega
    rw [hR r k, if_pos e]
    exact congrArg (fun u => stats3At V c u (ix2 (0 : Fin 1) k)) (Fin.ext e.symm)
  | succ n ih =>
    rintro t ht X ⟨Y, hY, hR⟩ r k hr
    rw [after3_6_eq] at hR
    by_cases e : r.val = t.val
    · rw [hR r k, if_pos e]
      exact congrArg (fun u => stats3At V c u (ix2 (0 : Fin 1) k)) (Fin.ext e.symm)
    · rw [hR r k, if_neg e]
      have h25 : cfg3.N = 15 := N_3
      have hlt := t.isLt
      rw [(rd3 V c).finds_of_pos (nofetch3_6 t) (by omega)] at hY
      rcases hY with hfl | hL
      · rw [flush3_6] at hfl; dsimp only at hfl; omega
      · exact ih ⟨t.val - 1, Nat.lt_of_le_of_lt (Nat.sub_le _ _) t.isLt⟩ (by dsimp only; omega) Y hL r k (by dsimp only; omega)

/-- A window the relation does not replace: its array holds what the exact data name. -/
theorem arrAt3_named (c : Dev nD) (w : Fin cfg3.W) (hw : ovr3 V c w = none)
    (G : Buf (Elt F) ((cfg3.win w).arr.view.loc (c.tc : Thread nD τ))) :
    (rd3 V c).ArrAt w cfg3.N G → G = (dat3 V c).arrAt w cfg3.N := fun h =>
  (dat3 V c).toR_arrAt w cfg3.N G ((RDat.override_arrAt (rd := (dat3 V c).toR) (ovr := ovr3 V c) (w := w) hw cfg3.N G).mp h)

/-- The statistics array after the last point: the one write-back, at the last point, replaces it by what the
    body left there, every row of which is its block's two sums. -/
theorem arrAt3_6 (c : Dev nD) (G : Buf (Elt F) ((cfg3.win 6).arr.view.loc (c.tc : Thread nD τ))) :
    (rd3 V c).ArrAt 6 cfg3.N G → G = statsArr3 V c := by
  intro h
  have h24 : 14 < cfg3.N := by rw [show cfg3.N = 15 from N_3]; omega
  have hs := (rd3 V c).ArrAt_succ 6 ⟨14, h24⟩
  have hN : (rd3 V c).ArrAt 6 cfg3.N = (rd3 V c).ArrAt 6 (14 + 1) := congrArg ((rd3 V c).ArrAt 6) N_3
  have hfl : (cfg3.win 6).flush ⟨14, h24⟩ = true := (flush3_6 ⟨14, h24⟩).mpr rfl
  dsimp only at hs
  rw [hN, hs, if_pos hfl] at h
  obtain ⟨G₀, X, -, hX, rfl⟩ := h
  rw [write3_6]
  funext y
  rw [eq_ix2 y]
  exact leaves3_6 V c 14 ⟨14, h24⟩ rfl X hX (y 0) (y 1) (Nat.le_of_lt_succ (y 0).isLt)

/-! Window by window: the named windows hold what the exact data name, the statistics window its rows of sums. -/

theorem arrAt3_fin_0 (c : Dev nD) (hk : 0 < cfg3.W) (G : Buf (Elt F) ((cfg3.win ⟨0, hk⟩).arr.view.loc (c.tc : Thread nD τ))) :
    (rd3 V c).ArrAt ⟨0, hk⟩ cfg3.N G → G = fin3 V c ⟨0, hk⟩ := by
  intro h; dsimp only [fin3]; exact arrAt3_named V c 0 rfl G h

theorem arrAt3_fin_1 (c : Dev nD) (hk : 1 < cfg3.W) (G : Buf (Elt F) ((cfg3.win ⟨1, hk⟩).arr.view.loc (c.tc : Thread nD τ))) :
    (rd3 V c).ArrAt ⟨1, hk⟩ cfg3.N G → G = fin3 V c ⟨1, hk⟩ := by
  intro h; dsimp only [fin3]; exact arrAt3_named V c 1 rfl G h

theorem arrAt3_fin_2 (c : Dev nD) (hk : 2 < cfg3.W) (G : Buf (Elt F) ((cfg3.win ⟨2, hk⟩).arr.view.loc (c.tc : Thread nD τ))) :
    (rd3 V c).ArrAt ⟨2, hk⟩ cfg3.N G → G = fin3 V c ⟨2, hk⟩ := by
  intro h; dsimp only [fin3]; exact arrAt3_named V c 2 rfl G h

theorem arrAt3_fin_3 (c : Dev nD) (hk : 3 < cfg3.W) (G : Buf (Elt F) ((cfg3.win ⟨3, hk⟩).arr.view.loc (c.tc : Thread nD τ))) :
    (rd3 V c).ArrAt ⟨3, hk⟩ cfg3.N G → G = fin3 V c ⟨3, hk⟩ := by
  intro h; dsimp only [fin3]; exact arrAt3_named V c 3 rfl G h

theorem arrAt3_fin_4 (c : Dev nD) (hk : 4 < cfg3.W) (G : Buf (Elt F) ((cfg3.win ⟨4, hk⟩).arr.view.loc (c.tc : Thread nD τ))) :
    (rd3 V c).ArrAt ⟨4, hk⟩ cfg3.N G → G = fin3 V c ⟨4, hk⟩ := by
  intro h; dsimp only [fin3]; exact arrAt3_named V c 4 rfl G h

theorem arrAt3_fin_5 (c : Dev nD) (hk : 5 < cfg3.W) (G : Buf (Elt F) ((cfg3.win ⟨5, hk⟩).arr.view.loc (c.tc : Thread nD τ))) :
    (rd3 V c).ArrAt ⟨5, hk⟩ cfg3.N G → G = fin3 V c ⟨5, hk⟩ := by
  intro h; dsimp only [fin3]; exact arrAt3_named V c 5 rfl G h

theorem arrAt3_fin_6 (c : Dev nD) (hk : 6 < cfg3.W) (G : Buf (Elt F) ((cfg3.win ⟨6, hk⟩).arr.view.loc (c.tc : Thread nD τ))) :
    (rd3 V c).ArrAt ⟨6, hk⟩ cfg3.N G → G = fin3 V c ⟨6, hk⟩ := by
  intro h; dsimp only [fin3]; exact arrAt3_6 V c G h

/-- The relational data pin every array after the last point. -/
theorem arrAt3_fin (c : Dev nD) (w : Fin cfg3.W) (G : Buf (Elt F) ((cfg3.win w).arr.view.loc (c.tc : Thread nD τ))) :
    (rd3 V c).ArrAt w cfg3.N G → G = fin3 V c w :=
  match w, G with
  | ⟨0, hk⟩, G => arrAt3_fin_0 V c hk G
  | ⟨1, hk⟩, G => arrAt3_fin_1 V c hk G
  | ⟨2, hk⟩, G => arrAt3_fin_2 V c hk G
  | ⟨3, hk⟩, G => arrAt3_fin_3 V c hk G
  | ⟨4, hk⟩, G => arrAt3_fin_4 V c hk G
  | ⟨5, hk⟩, G => arrAt3_fin_5 V c hk G
  | ⟨6, hk⟩, G => arrAt3_fin_6 V c hk G

end Regions

end Cert.KernelIdeal.Hand
end
-- ==== Proof.Fold.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Gen.KernelIdeal.Regions
import proofs.«427575_j39067022524700_2_alg».proof.Proof.Lin
import proofs.«427575_j39067022524700_2_alg».proof.Proof.Comb2Arr
import proofs.«427575_j39067022524700_2_alg».proof.Proof.Comb3Arr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents at each boundary of the host program

The host program is five stretches of host operations around the four kernel regions. Core `c`'s unscoped buffers are
followed through it: a stretch applies its operations; a region leaves its windowed arrays at what its write-backs make
of them and every other buffer as it was. -/

/-- At launch. -/
abbrev W0 : Dev nD → Valuation τ sig (Elt F) := fun c b => m ((c : Dev nD), b)
/-- After the first stretch (the transposed cross weight for the item projection). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: the projected item rows. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second stretch (the other transposed cross weight). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: the projected user rows. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the third stretch: both sparse propagations and both degree columns, the self weight and bias of the users. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: the new user rows and the users' per-block statistics. -/
def W6 (c : Dev nD) : Valuation τ sig (Elt F) :=
  Pipeline.withArrays spec2 c (W5 m c) (fin2 (V5 m) c)
theorem W6_arr (c : Dev nD) (w : Fin cfg2.W) :
    W6 m c (Proc.devRef .tc (Pipeline.arrRef spec2 w)) = fin2 (V5 m) c w := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the fourth stretch: the self weight and bias of the items. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: the new item rows and the items' per-block statistics. -/
def W8 (c : Dev nD) : Valuation τ sig (Elt F) :=
  Pipeline.withArrays spec3 c (W7 m c) (fin3 (V7 m) c)
theorem W8_arr (c : Dev nD) (w : Fin cfg3.W) :
    W8 m c (Proc.devRef .tc (Pipeline.arrRef spec3 w)) = fin3 (V7 m) c w := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
/-- After the last stretch: the statistics summed over the blocks, the two quotients and their sum. -/
abbrev W9 : Dev nD → Valuation τ sig (Elt F) := fun c => StableHlo.after hostOps4 (W8 m c)

/-! ## The proof data family -/

abbrev adm : (p : Fin 4) → (pcfgs (F := F) p).Adm := fun p => (cfgs p).toPCfg_adm

/-- Every pipeline's relational proof data, each at its region's entry contents: the two projections' exact data read
    relationally, the two combine regions' data with the statistics window constrained. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => rd2 (V5 m) c
  | ⟨3, _⟩ => fun c => rd3 (V7 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand
end
-- ==== Proof.Assembly.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # A region's arrays back among the core's unscoped buffers

After a region the relational data know each windowed array only as "some contents the write-backs may have left". When
those contents are pinned to one array `Ffin w` per window, the arrays beside the untouched rest are the core's unscoped
buffers at any valuation that holds `Ffin` at the arrays and agrees with the entry valuation elsewhere. -/

theorem bufs_of_arraysAt (p : Fin 4) (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (Ffin : (w : Fin (Pipeline.pin (pcfgs (F := F)) adm p).W) → Buf (Elt F) (((Pipeline.pin (pcfgs (F := F)) adm p).spec w).arr.view.loc (c.tc : Thread nD τ)))
    (hfin : ∀ w G, (rdats m p c).ArrAt w (Pipeline.pin (pcfgs (F := F)) adm p).N G → G = Ffin w)
    (hF : ∀ w, Ffin w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arraysAt (Pipeline.pin (pcfgs (F := F)) adm p).N ∗ Pipeline.unscopedRest (Pipeline.pin (pcfgs (F := F)) adm p).spec c V)
      ⊢ (unscopedBufs c V' : sProp 𝕄) := by
  have h1 : (rdats m p c).arraysAt (Pipeline.pin (pcfgs (F := F)) adm p).N ⊢ ((rdats m p c).arrays Ffin : sProp 𝕄) := by
    unfold RDat.arraysAt RDat.arrays
    exact BI.bigSep_mono fun w _ =>
      show iprop(∃ G, ⌜(rdats m p c).ArrAt w (Pipeline.pin (pcfgs (F := F)) adm p).N G⌝
            ∗ ((Pipeline.pin (pcfgs (F := F)) adm p).win w).arr.view.loc (c.tc : Thread nD τ) ↦[((Pipeline.pin (pcfgs (F := F)) adm p).win w).arr.view.set]{(rdats m p c).share w} G)
          ⊢ (((Pipeline.pin (pcfgs (F := F)) adm p).win w).arr.view.loc (c.tc : Thread nD τ) ↦[((Pipeline.pin (pcfgs (F := F)) adm p).win w).arr.view.set]{(rdats m p c).share w} Ffin w : sProp 𝕄) from by
        iintro ⟨%G, %hG, H⟩; rw [hfin w G hG]; iexact H
  rw [Pipeline.unscopedBufs_split (Pipeline.pin (pcfgs (F := F)) adm) p hw.arr_unscoped hw.arr_inj c V']
  refine (sep_mono h1 .rfl).trans ?_
  rw [Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! # The regions as segments of the host program -/

set_option backward.isDefEq.respectTransparency.types false in
/-- Region 0 over the thread state: entered with every unscoped buffer at `W1`, left with them at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arraysAt m 0 launch0.win launch0.arr_whole c ((rdats m 0 c).share_full fun _ => rfl)
      (V1 m c) (V2 m c) (fun w => (dat0 (V1 m) c).arrAt w cfg0.N)
      (fun w G hG => (dat0 (V1 m) c).toR_arrAt w _ G hG) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered with every unscoped buffer at `W3`, left with them at `W4`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V3 m) c).loose).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arraysAt m 1 launch1.win launch1.arr_whole c ((rdats m 1 c).share_full fun _ => rfl)
      (V3 m c) (V4 m c) (fun w => (dat1 (V3 m) c).arrAt w cfg1.N)
      (fun w G hG => (dat1 (V3 m) c).toR_arrAt w _ G hG) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 over the thread state: entered with every unscoped buffer at `W5`, left with them at `W6`. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m) c
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := bufs_of_arraysAt m 2 launch2.win launch2.arr_whole c ((rdats m 2 c).share_full fun _ => rfl)
      (V5 m c) (V6 m c) (fin2 (V5 m) c)
      (fun w G hG => arrAt2_fin (V5 m) c w G hG) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 3 over the thread state: entered with every unscoped buffer at `W7`, left with them at `W8`. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (V7 m) c
  hwaits := Pipeline.RDat.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := bufs_of_arraysAt m 3 launch3.win launch3.arr_whole c ((rdats m 3 c).share_full fun _ => rfl)
      (V7 m c) (V8 m c) (fin3 (V7 m) c)
      (fun w G hG => arrAt3_fin (V7 m) c w G hG) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! # The host program as segments, and the launch -/

/-- The nine segments in order: a host segment per stretch from its boundary's contents, a region per kernel call. -/
abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

/-- The host program IS the run of the segments. -/
theorem main_run (c : Dev nD) : main (F := F) c = Pipeline.RDat.Seg.run (segs m) := (main_chain c).trans (by chain_rfl)

set_option backward.isDefEq.respectTransparency.types false in
/-- From any memory with zero counters every weakly fair execution of the host program terminates, nothing faulting, and
    every unscoped buffer of every core ends at the last boundary's contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl,
      fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand
end
-- ==== Proof.Keep.lean ====
import proofs.«427575_j39067022524700_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ)

/-! # What each step of the host program leaves unchanged

A stretch of host operations changes only the buffers its operations write. A kernel region changes only its output
windows' arrays: an input window's array is read, never written back, and a buffer that is no array of the region is not
touched at all. -/

/-! ## The host stretches -/

theorem W1_keep (c : Dev nD) (b : Ref sig .tc) (h : b ∉ hostOps0_W) :
    W1 m c (Proc.devRef .tc b) = W0 m c (Proc.devRef .tc b) :=
  StableHlo.after_of_writes_sub hostOps0 _ hostOps0_writes h
theorem W3_keep (c : Dev nD) (b : Ref sig .tc) (h : b ∉ hostOps1_W) :
    W3 m c (Proc.devRef .tc b) = W2 m c (Proc.devRef .tc b) :=
  StableHlo.after_of_writes_sub hostOps1 _ hostOps1_writes h
theorem W5_keep (c : Dev nD) (b : Ref sig .tc) (h : b ∉ hostOps2_W) :
    W5 m c (Proc.devRef .tc b) = W4 m c (Proc.devRef .tc b) :=
  StableHlo.after_of_writes_sub hostOps2 _ hostOps2_writes h
theorem W7_keep (c : Dev nD) (b : Ref sig .tc) (h : b ∉ hostOps3_W) :
    W7 m c (Proc.devRef .tc b) = W6 m c (Proc.devRef .tc b) :=
  StableHlo.after_of_writes_sub hostOps3 _ hostOps3_writes h
theorem W9_keep_step (c : Dev nD) (b : Ref sig .tc) (h : b ∉ hostOps4_W) :
    W9 m c (Proc.devRef .tc b) = W8 m c (Proc.devRef .tc b) :=
  StableHlo.after_of_writes_sub hostOps4 _ hostOps4_writes h

/-! ## The regions -/

/-- Region 0 changes the projected item rows only: both its input arrays are as entered. -/
theorem W2_keep (c : Dev nD) (b : Ref sig .tc) (hb : b ∉ ([main_v1] : List (Ref sig .tc))) :
    W2 m c (Proc.devRef .tc b) = W1 m c (Proc.devRef .tc b) := by
  by_cases h : ∀ w, Pipeline.arrRef spec0 w ≠ b
  · exact W2_of_ne m c b h
  · obtain ⟨w, hw⟩ := not_forall.mp h
    have e : Pipeline.arrRef spec0 w = b := not_not.mp hw
    subst e
    refine (W2_arr m c w).trans ?_
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, hb => exact absurd (List.mem_singleton.mpr rfl) hb

/-- Region 1 changes the projected user rows only. -/
theorem W4_keep (c : Dev nD) (b : Ref sig .tc) (hb : b ∉ ([main_v3] : List (Ref sig .tc))) :
    W4 m c (Proc.devRef .tc b) = W3 m c (Proc.devRef .tc b) := by
  by_cases h : ∀ w, Pipeline.arrRef spec1 w ≠ b
  · exact W4_of_ne m c b h
  · obtain ⟨w, hw⟩ := not_forall.mp h
    have e : Pipeline.arrRef spec1 w = b := not_not.mp hw
    subst e
    refine (W4_arr m c w).trans ?_
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, hb => exact absurd (List.mem_singleton.mpr rfl) hb

/-- Region 2 changes the new user rows and the users' statistics only: its five input arrays are as entered. -/
theorem W6_keep (c : Dev nD) (b : Ref sig .tc) (hb : b ∉ ([main_v40_0, main_v40_1] : List (Ref sig .tc))) :
    W6 m c (Proc.devRef .tc b) = W5 m c (Proc.devRef .tc b) := by
  by_cases h : ∀ w, Pipeline.arrRef spec2 w ≠ b
  · exact W6_of_ne m c b h
  · obtain ⟨w, hw⟩ := not_forall.mp h
    have e : Pipeline.arrRef spec2 w = b := not_not.mp hw
    subst e
    refine (W6_arr m c w).trans ?_
    match w, hb with
    | ⟨0, _⟩, _ => dsimp only [fin2]; exact ((dat2 (V5 m) c).arrAt_in 0 rfl _).trans (A_eq2 (V5 m) c 0)
    | ⟨1, _⟩, _ => dsimp only [fin2]; exact ((dat2 (V5 m) c).arrAt_in 1 rfl _).trans (A_eq2 (V5 m) c 1)
    | ⟨2, _⟩, _ => dsimp only [fin2]; exact ((dat2 (V5 m) c).arrAt_in 2 rfl _).trans (A_eq2 (V5 m) c 2)
    | ⟨3, _⟩, _ => dsimp only [fin2]; exact ((dat2 (V5 m) c).arrAt_in 3 rfl _).trans (A_eq2 (V5 m) c 3)
    | ⟨4, _⟩, _ => dsimp only [fin2]; exact ((dat2 (V5 m) c).arrAt_in 4 rfl _).trans (A_eq2 (V5 m) c 4)
    | ⟨5, _⟩, hb => exact absurd (List.mem_cons_self) hb
    | ⟨6, _⟩, hb => exact absurd (List.mem_cons_of_mem _ List.mem_cons_self) hb

/-- Region 3 changes the new item rows and the items' statistics only. -/
theorem W8_keep (c : Dev nD) (b : Ref sig .tc) (hb : b ∉ ([main_v43_0, main_v43_1] : List (Ref sig .tc))) :
    W8 m c (Proc.devRef .tc b) = W7 m c (Proc.devRef .tc b) := by
  by_cases h : ∀ w, Pipeline.arrRef spec3 w ≠ b
  · exact W8_of_ne m c b h
  · obtain ⟨w, hw⟩ := not_forall.mp h
    have e : Pipeline.arrRef spec3 w = b := not_not.mp hw
    subst e
    refine (W8_arr m c w).trans ?_
    match w, hb with
    | ⟨0, _⟩, _ => dsimp only [fin3]; exact ((dat3 (V7 m) c).arrAt_in 0 rfl _).trans (A_eq3 (V7 m) c 0)
    | ⟨1, _⟩, _ => dsimp only [fin3]; exact ((dat3 (V7 m) c).arrAt_in 1 rfl _).trans (A_eq3 (V7 m) c 1)
    | ⟨2, _⟩, _ => dsimp only [fin3]; exact ((dat3 (V7 m) c).arrAt_in 2 rfl _).trans (A_eq3 (V7 m) c 2)
    | ⟨3, _⟩, _ => dsimp only [fin3]; exact ((dat3 (V7 m) c).arrAt_in 3 rfl _).trans (A_eq3 (V7 m) c 3)
    | ⟨4, _⟩, _ => dsimp only [fin3]; exact ((dat3 (V7 m) c).arrAt_in 4 rfl _).trans (A_eq3 (V7 m) c 4)
    | ⟨5, _⟩, hb => exact absurd (List.mem_cons_self) hb
    | ⟨6, _⟩, hb => exact absurd (List.mem_cons_of_mem _ List.mem_cons_self) hb

/-! ## From each boundary back to the launch -/

section Launch
variable (c : Dev nD) (b : Ref sig .tc)
  (h0 : b ∉ hostOps0_W) (h1 : b ∉ ([main_v1] : List (Ref sig .tc)))
  (h2 : b ∉ hostOps1_W) (h3 : b ∉ ([main_v3] : List (Ref sig .tc)))
  (h4 : b ∉ hostOps2_W) (h5 : b ∉ ([main_v40_0, main_v40_1] : List (Ref sig .tc)))
  (h6 : b ∉ hostOps3_W) (h7 : b ∉ ([main_v43_0, main_v43_1] : List (Ref sig .tc)))
  (h8 : b ∉ hostOps4_W)
include h0 in
theorem W1_launch : W1 m c b = m ((c.tc : Thread nD τ).loc b) := W1_keep m c b h0
include h0 h1 in
theorem W2_launch : W2 m c b = m ((c.tc : Thread nD τ).loc b) := (W2_keep m c b h1).trans (W1_launch m c b h0)
include h0 h1 h2 in
theorem W3_launch : W3 m c b = m ((c.tc : Thread nD τ).loc b) := (W3_keep m c b h2).trans (W2_launch m c b h0 h1)
include h0 h1 h2 h3 in
theorem W4_launch : W4 m c b = m ((c.tc : Thread nD τ).loc b) := (W4_keep m c b h3).trans (W3_launch m c b h0 h1 h2)
include h0 h1 h2 h3 h4 in
theorem W5_launch : W5 m c b = m ((c.tc : Thread nD τ).loc b) := (W5_keep m c b h4).trans (W4_launch m c b h0 h1 h2 h3)
include h0 h1 h2 h3 h4 h5 in
theorem W6_launch : W6 m c b = m ((c.tc : Thread nD τ).loc b) := (W6_keep m c b h5).trans (W5_launch m c b h0 h1 h2 h3 h4)
include h0 h1 h2 h3 h4 h5 h6 in
theorem W7_launch : W7 m c b = m ((c.tc : Thread nD τ).loc b) :=
  (W7_keep m c b h6).trans (W6_launch m c b h0 h1 h2 h3 h4 h5)
include h0 h1 h2 h3 h4 h5 h6 h7 in
theorem W8_launch : W8 m c b = m ((c.tc : Thread nD τ).loc b) :=
  (W8_keep m c b h7).trans (W7_launch m c b h0 h1 h2 h3 h4 h5 h6)
include h0 h1 h2 h3 h4 h5 h6 h7 h8 in
/-- A buffer that no stretch writes and that is no output array of a region ends as launched. -/
theorem W9_keep : W9 m c b = m ((c.tc : Thread nD τ).loc b) :=
  (W9_keep_step m c b h8).trans (W8_launch m c b h0 h1 h2 h3 h4 h5 h6 h7)
end Launch

end Cert.KernelIdeal.Hand
end
-- ==== Proof.BLin.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the projection kernel (one matrix product per block of 20000 rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S20000x64 := Rect.unit (s := S20000x64) ![0, 0] S20000x64.size inb_S20000x64_S20000x64_0_0
abbrev rW0 : Rect S64x64 := Rect.unit (s := S64x64) ![0, 0] S64x64.size inb_S64x64_S64x64_0_0

/-- What the body leaves in the output window's buffer: the product of the row block with the weight block. -/
def out0_2 (x0 : Vec F S20000x64 .f32) (x1 : Vec F S64x64 .f32) : Vec F S20000x64 .f32 :=
  View.canon [⟨rX0, k0_pay1 (View.ld x0 rX0) (View.ld x1 rW0)⟩]

/-- The proof data of pipeline 0 on core `c`: both inputs stay at their blocks, the output is the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Input window 0's buffer holds its row block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's buffer holds the weight block at every point: fetched at the first point only, its block
    index is the same at every point and the body leaves it in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store is of the whole block at zero offsets, so it covers the output buffer. -/
theorem cover0_2 (p0 : Vec F S20000x64 .f32) (y : S20000x64.Idx) :
    ∃ pc ∈ ([⟨rX0, p0⟩] : List (View.Piece (Elt F) S20000x64 .f32)), y ∈ pc.1.set :=
  View.cover_of_tiled [⟨rX0, p0⟩] S20000x64.size (by rfl) y

set_option maxHeartbeats 1000000 in
/-- The body on whole staging memrefs, the row block at `x0`, the weight at `x1` and the output at anything, runs to
    the inputs as they were and the output at the product `out0_2 x0 x1`: two loads of the inputs, one load of the
    output whose value is unused, and one store of the whole block. -/
theorem sound_kernel0 (c : Dev nD) (E : Set ℕ) (i : grid0.Coords)
    (arg1 : Memref sig .tc .vmem S20000x64 .f32) (harg1 : arg1.IsWhole)
    (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' memrefs hold their blocks, so the triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: the projection kernel (one matrix product per block of 20000 rows) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S20000x64 := Rect.unit (s := S20000x64) ![0, 0] S20000x64.size inb_S20000x64_S20000x64_0_0
abbrev rW1 : Rect S64x64 := Rect.unit (s := S64x64) ![0, 0] S64x64.size inb_S64x64_S64x64_0_0

/-- What the body leaves in the output window's buffer: the product of the row block with the weight block. -/
def out1_2 (x0 : Vec F S20000x64 .f32) (x1 : Vec F S64x64 .f32) : Vec F S20000x64 .f32 :=
  View.canon [⟨rX1, k1_pay1 (View.ld x0 rX1) (View.ld x1 rW1)⟩]

/-- The proof data of pipeline 1 on core `c`: both inputs stay at their blocks, the output is the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Input window 0's buffer holds its row block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's buffer holds the weight block at every point: fetched at the first point only, its block
    index is the same at every point and the body leaves it in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The one store is of the whole block at zero offsets, so it covers the output buffer. -/
theorem cover1_2 (p0 : Vec F S20000x64 .f32) (y : S20000x64.Idx) :
    ∃ pc ∈ ([⟨rX1, p0⟩] : List (View.Piece (Elt F) S20000x64 .f32)), y ∈ pc.1.set :=
  View.cover_of_tiled [⟨rX1, p0⟩] S20000x64.size (by rfl) y

set_option maxHeartbeats 1000000 in
/-- The body on whole staging memrefs, the row block at `x0`, the weight at `x1` and the output at anything, runs to
    the inputs as they were and the output at the product `out1_2 x0 x1`: two loads of the inputs, one load of the
    output whose value is unused, and one store of the whole block. -/
theorem sound_kernel1 (c : Dev nD) (E : Set ℕ) (i : grid1.Coords)
    (arg1 : Memref sig .tc .vmem S20000x64 .f32) (harg1 : arg1.IsWhole)
    (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' memrefs hold their blocks, so the triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand
end
-- ==== Proof.BComb2.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import Idealize.ShloMosaic.Lib.ValueIdx
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: the combine kernel. Per block of 20000 rows it writes the new rows (window 5) and ONE row of the
    statistics buffer (window 6: the block's sum of squared updates and its count of rows with positive degree). The
    statistics block is the whole 25x2 array at every point, so its buffer is kept from point to point and written
    back once, after the last point. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S20000x64 := Rect.unit (s := S20000x64) ![0, 0] S20000x64.size inb_S20000x64_S20000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0
abbrev rD2 : Rect S20000x1 := Rect.unit (s := S20000x1) ![0, 0] S20000x1.size inb_S20000x1_S20000x1_0_0

/-- The new rows of a block, from the windows' blocks in WINDOW order: rows `x0`, self weight `x1`, bias `x2`,
    propagated sum `x3`, degree column `x4`. -/
def out2_5 (x0 : Vec F S20000x64 .f32) (x1 : Vec F S64x64 .f32) (x2 : Vec F S1x64 .f32) (x3 : Vec F S20000x64 .f32)
    (x4 : Vec F S20000x1 .f32) : Vec F S20000x64 .f32 :=
  View.canon [⟨rX2, k2_pay3 (View.ld x0 rX2) (View.ld x1 rW2) (View.ld x2 rB2) (View.ld x4 rD2) (View.ld x3 rX2)⟩]

/-- The block's two sums (squared updates; rows of positive degree), as the 1x2 row the body stores. -/
def stat2 (x0 : Vec F S20000x64 .f32) (x1 : Vec F S64x64 .f32) (x2 : Vec F S1x64 .f32) (x3 : Vec F S20000x64 .f32)
    (x4 : Vec F S20000x1 .f32) : Vec F S1x2 .f32 :=
  k2_pay4 (View.ld x0 rX2) (View.ld x1 rW2) (View.ld x2 rB2) (View.ld x4 rD2) (View.ld x3 rX2)

/-- The two sums of the block at point `t`. -/
def stats2At (c : Dev nD) (t : Fin cfg2.N) : Vec F S1x2 .f32 :=
  stat2 (iblk2 V c 0 t) (iblk2 V c 1 t) (iblk2 V c 2 t) (iblk2 V c 3 t) (iblk2 V c 4 t)

/-- Exact proof data for every window but the statistics one (its entry below is never consulted: the relation
    `rel2` replaces it). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => iblk2 V c 6 t
  Φ _ := Pipeline.ΦA spec2 c
  q _ := fullShare
  owed _ := 0

/-- What the body does to the statistics buffer at point `t`: row `t` becomes the block's two sums, every other
    row is left as found. -/
def rel2 (c : Dev nD) (t : Fin cfg2.N) (Y X : Vec F S25x2 .f32) : Prop :=
  ∀ (r : Fin 25) (k : Fin 2), X (ix2 r k) = if r.val = t.val then stats2At V c t (ix2 (0 : Fin 1) k) else Y (ix2 r k)

/-- Only the statistics window is constrained rather than named. -/
def ovr2 (c : Dev nD) : (w : Fin cfg2.W) → Option (Fin cfg2.N → (Y X : (cfg2.win w).block.Idx → Elt F (cfg2.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (rel2 V c)

/-- The region's relational proof data. -/
def rd2 (c : Dev nD) : RDat τ (Elt F) Unit ℕ (UR sig nD τ) ℕ cfg2 c := (dat2 V c).toR.override (ovr2 V c)

theorem rd2_A (c : Dev nD) (w : Fin cfg2.W) : (rd2 V c).A w = V c (Pipeline.arrRef spec2 w) := by
  unfold rd2; rw [RDat.override_A, Dat.toR_A]; dsimp only [dat2]

/-! ## The body's triple -/

/-- The one store of the new rows covers the block. -/
theorem cover2_5 (p0 : Vec F S20000x64 .f32) (y : S20000x64.Idx) :
    ∃ pc ∈ ([⟨rX2, p0⟩] : List (View.Piece (Elt F) S20000x64 .f32)), y ∈ pc.1.set :=
  View.cover_of_tiled [⟨rX2, p0⟩] S20000x64.size (by rfl) y

/-- Where the statistics row goes: the row of the grid coordinate, column 0. -/
theorem unitLocal2 (o : ℕ) (r : Fin 25) (k : Fin 2)
    (h : ∀ a : Fin 2, (![o, 0] : Fin 2 → ℕ) a ≤ ((ix2 r k : S25x2.Idx) a).val ∧ ((ix2 r k : S25x2.Idx) a).val < (![o, 0] : Fin 2 → ℕ) a + S1x2.size a) :
    (Rect.unitLocal (s := S25x2) (off := ![o, 0]) (size := S1x2.size) (ix2 r k) h) = (ix2 (0 : Fin 1) k : S1x2.Idx) := by
  funext a
  match a with
  | ⟨0, _⟩ =>
    have h0 : o ≤ r.val ∧ r.val < o + 1 := h 0
    exact Fin.ext (by show r.val - o = 0; omega)
  | ⟨1, _⟩ => exact Fin.ext (by show k.val - 0 = k.val; omega)

set_option maxHeartbeats 4000000 in
/-- The body on whole staging memrefs: the five inputs at read contents (window order), the new-rows buffer at anything,
    the statistics buffer at named contents y6. It gives the inputs back as they were, the new rows at their closed
    form, and the statistics buffer with row (i 0) replaced by the block's two sums and every other row as it was. -/
theorem sound_kernel2 (c : Dev nD) (E : Set ℕ) (i : grid2.Coords)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S20000x1 .f32) (harg5 : arg5.IsWhole) (arg6 : Memref sig .tc .vmem S20000x64 .f32) (harg6 : arg6.IsWhole)
    (arg7 : Memref sig .tc .vmem S25x2 .f32) (harg7 : arg7.IsWhole)
    (x0 : Vec F S20000x64 .f32) (x1 : Vec F S64x64 .f32) (x2 : Vec F S1x64 .f32) (x3 : Vec F S20000x64 .f32) (x4 : Vec F S20000x1 .f32)
    (y6 : Vec F S25x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare y6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)
            ∗ (∃ X : Vec F S25x2 .f32, ⌜∀ (r : Fin 25) (k : Fin 2), X (ix2 r k)
                  = if r.val = (i 0).val then stat2 x0 x1 x2 x3 x4 (ix2 (0 : Fin 1) k) else y6 (ix2 r k)⌝
                ∗ owns (c : Thread nD τ) arg7 fullShare X)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_5 _)
  iexists _; isplitr
  swap
  · iexists _; isplitr
    swap; · iexact H7
    ipureintro; rfl
  ipureintro
  intro r k
  rw [View.read_writes_cons_rows (o := (i 0).val) (W := 1) arg7.view f7 (k2_off1_inb i) _ [] (ix2 r k) (k2_off1_eq i) rfl rfl]
  by_cases hr : r.val = (i 0).val
  · rw [if_pos hr, dif_pos (by show (i 0).val ≤ r.val ∧ r.val < (i 0).val + 1; omega)]
    unfold stat2
    rw [unitLocal2]
    rfl
  · rw [if_neg hr, dif_neg (by show ¬ ((i 0).val ≤ r.val ∧ r.val < (i 0).val + 1); omega)]
    rfl

/-! ## The proof data, window by window -/

/-- The exact data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Each input's current staging buffer holds its block at every point, fetched there or not: unfetched, the block
    index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- What the body may find in a window whose relation is the exact one: what the exact data says it finds. -/
theorem finds2_of_none (c : Dev nD) (w : Fin cfg2.W) (h : ovr2 V c w = none) (t : Fin cfg2.N)
    (Y : (cfg2.win w).block.Idx → Elt F (cfg2.win w).elt) (hY : (rd2 V c).Finds w t Y) : ∃ d, Y = (dat2 V c).before w t d :=
  (dat2 V c).toR_finds w t Y (((dat2 V c).toR.override_finds h t Y).mp hY)

/-- For such a window the relation holds of the exact data's named contents, whatever was found. -/
theorem after2_of_none (c : Dev nD) (w : Fin cfg2.W) (h : ovr2 V c w = none) (t : Fin cfg2.N)
    (Y : (cfg2.win w).block.Idx → Elt F (cfg2.win w).elt) : (rd2 V c).after w t Y ((dat2 V c).after w t) := by
  unfold rd2
  rw [(dat2 V c).toR.override_after_of_eq_none h]
  exact (Dat.Leaves.live_iff (dat2 V c) (.inl rfl)).mpr rfl

/-- For the statistics window the relation is rel2. -/
theorem after2_6 (c : Dev nD) (t : Fin cfg2.N) (Y X : (cfg2.win 6).block.Idx → Elt F (cfg2.win 6).elt)
    (h : rel2 V c t Y X) : (rd2 V c).after 6 t Y X := by
  unfold rd2
  rw [(dat2 V c).toR.override_after_of_eq_some (R := rel2 V c) rfl]
  exact h

/-- The grid has one axis: a point's coordinate is its number. -/
theorem coords2_val : ∀ t : Fin grid2.N, (grid2.coords t 0).val = t.val := by decide +kernel

/-! ## The body obligation, at a generic point -/

set_option maxHeartbeats 1000000 in
/-- The body at any point, the windows one by one: the inputs' buffers hold their blocks, so the triple applies at the
    point's coordinate; each input comes back as found, the new rows at their closed form, the statistics buffer in the
    relation rel2 to what it held; the invariant and what the core owes pass through unread. -/
theorem sound_body2 (c : Dev nD) (t : Fin cfg2.N)
    (y0 : (cfg2.win 0).block.Idx → Elt F (cfg2.win 0).elt) (y1 : (cfg2.win 1).block.Idx → Elt F (cfg2.win 1).elt)
    (y2 : (cfg2.win 2).block.Idx → Elt F (cfg2.win 2).elt) (y3 : (cfg2.win 3).block.Idx → Elt F (cfg2.win 3).elt)
    (y4 : (cfg2.win 4).block.Idx → Elt F (cfg2.win 4).elt) (y5 : (cfg2.win 5).block.Idx → Elt F (cfg2.win 5).elt)
    (y6 : (cfg2.win 6).block.Idx → Elt F (cfg2.win 6).elt)
    (h0 : y0 = iblk2 V c 0 t) (h1 : y1 = iblk2 V c 1 t) (h2 : y2 = iblk2 V c 2 t) (h3 : y3 = iblk2 V c 3 t) (h4 : y4 = iblk2 V c 4 t) :
    iprop((rd2 V c).Φ t.castSucc ∗ (rd2 V c).owesAt () t.castSucc
        ∗ owns (c : Thread nD τ) (st2_0 t) fullShare y0 ∗ owns (c : Thread nD τ) (st2_1 t) fullShare y1
        ∗ owns (c : Thread nD τ) (st2_2 t) fullShare y2 ∗ owns (c : Thread nD τ) (st2_3 t) fullShare y3
        ∗ owns (c : Thread nD τ) (st2_4 t) fullShare y4 ∗ owns (c : Thread nD τ) (st2_5 t) fullShare y5
        ∗ owns (c : Thread nD τ) (st2_6 t) fullShare y6)
      ⊢ wp frame (wpE (defs₀ (F := F)) Variants.none c none) Set.univ (bodyAt2 t) (fun _ =>
          iprop((rd2 V c).Φ t.succ ∗ (rd2 V c).owesAt () t.succ
            ∗ (∃ X, ⌜(rd2 V c).after 0 t y0 X⌝ ∗ owns (c : Thread nD τ) (st2_0 t) fullShare X)
            ∗ (∃ X, ⌜(rd2 V c).after 1 t y1 X⌝ ∗ owns (c : Thread nD τ) (st2_1 t) fullShare X)
            ∗ (∃ X, ⌜(rd2 V c).after 2 t y2 X⌝ ∗ owns (c : Thread nD τ) (st2_2 t) fullShare X)
            ∗ (∃ X, ⌜(rd2 V c).after 3 t y3 X⌝ ∗ owns (c : Thread nD τ) (st2_3 t) fullShare X)
            ∗ (∃ X, ⌜(rd2 V c).after 4 t y4 X⌝ ∗ owns (c : Thread nD τ) (st2_4 t) fullShare X)
            ∗ (∃ X, ⌜(rd2 V c).after 5 t y5 X⌝ ∗ owns (c : Thread nD τ) (st2_5 t) fullShare X)
            ∗ (∃ X, ⌜(rd2 V c).after 6 t y6 X⌝ ∗ owns (c : Thread nD τ) (st2_6 t) fullShare X))) := by
  subst h0 h1 h2 h3 h4
  rw [show (rd2 V c).Φ t.succ = (rd2 V c).Φ t.castSucc from rfl,
    show (rd2 V c).owesAt () t.succ = (rd2 V c).owesAt () t.castSucc from rfl]
  unfold bodyAt2
  iintro ⟨HΦ, Ho, H0, H1, H2, H3, H4, H5, H6⟩
  iapply (sound_kernel2 c Set.univ _ _ _ _ _ _ _ _ _ _ _ _ _ _ _
    (iblk2 V c 0 t) (iblk2 V c 1 t) (iblk2 V c 2 t) (iblk2 V c 3 t) (iblk2 V c 4 t) y6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact (after2_0 V c t) ▸ after2_of_none V c 0 rfl t _
    iexact H0
  isplitl [H1]
  · iexists _; isplitr; · ipureintro; exact (after2_1 V c t) ▸ after2_of_none V c 1 rfl t _
    iexact H1
  isplitl [H2]
  · iexists _; isplitr; · ipureintro; exact (after2_2 V c t) ▸ after2_of_none V c 2 rfl t _
    iexact H2
  isplitl [H3]
  · iexists _; isplitr; · ipureintro; exact (after2_3 V c t) ▸ after2_of_none V c 3 rfl t _
    iexact H3
  isplitl [H4]
  · iexists _; isplitr; · ipureintro; exact (after2_4 V c t) ▸ after2_of_none V c 4 rfl t _
    iexact H4
  isplitl [H5]
  · iexists _; isplitr; · ipureintro; exact (after2_5 V c t) ▸ after2_of_none V c 5 rfl t _
    iexact H5
  iexists X; isplitr
  · ipureintro
    refine after2_6 V c t y6 X fun r k => ?_
    rw [hX r k, coords2_val t]
    rfl
  iexact H6

/-- The body obligation of region 2 over the relational data, at every point. -/
theorem body_obligation2 (c : Dev nD) : (rd2 (F := F) V c).BodyObligation (defs₀ (F := F)) Variants.none () Set.univ := by
  intro t Y hY
  obtain ⟨d0, h0⟩ := finds2_of_none V c 0 rfl t (Y 0) (hY 0)
  obtain ⟨d1, h1⟩ := finds2_of_none V c 1 rfl t (Y 1) (hY 1)
  obtain ⟨d2, h2⟩ := finds2_of_none V c 2 rfl t (Y 2) (hY 2)
  obtain ⟨d3, h3⟩ := finds2_of_none V c 3 rfl t (Y 3) (hY 3)
  obtain ⟨d4, h4⟩ := finds2_of_none V c 4 rfl t (Y 4) (hY 4)
  rw [before2_0] at h0; rw [before2_1] at h1; rw [before2_2] at h2; rw [before2_3] at h3; rw [before2_4] at h4
  rw [bigSep_W2, bigSep_W2]
  exact sound_body2 V c t (Y 0) (Y 1) (Y 2) (Y 3) (Y 4) (Y 5) (Y 6) h0 h1 h2 h3 h4

end Regions

end Cert.Kernel.Hand
end
-- ==== Proof.BComb2Arr.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import proofs.«427575_j39067022524700_2_alg».proof.Proof.BComb2
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: what its arrays hold after the last point -/

/-- The statistics array after the region: row `t` holds block `t`'s two sums. -/
def statsArr2 (c : Dev nD) : Vec F S25x2 .f32 :=
  fun y => stats2At V c (Fin.cast N_2.symm (y 0)) (ix2 (0 : Fin 1) (y 1))

/-- Each windowed array's contents after the region. -/
def fin2 (c : Dev nD) : (w : Fin cfg2.W) → Buf (Elt F) ((cfg2.win w).arr.view.loc (c.tc : Thread nD τ))
  | ⟨0, _⟩ => (dat2 V c).arrAt 0 cfg2.N
  | ⟨1, _⟩ => (dat2 V c).arrAt 1 cfg2.N
  | ⟨2, _⟩ => (dat2 V c).arrAt 2 cfg2.N
  | ⟨3, _⟩ => (dat2 V c).arrAt 3 cfg2.N
  | ⟨4, _⟩ => (dat2 V c).arrAt 4 cfg2.N
  | ⟨5, _⟩ => (dat2 V c).arrAt 5 cfg2.N
  | ⟨6, _⟩ => statsArr2 V c

/-- The statistics window is an output: no point fetches it. -/
theorem nofetch2_6 : ∀ t : Fin cfg2.N, (cfg2.win 6).fetch t = false :=
  (by decide +kernel : ∀ t : Fin grid2.N, win2_6.fetch t = false)

/-- The statistics block sits at block index 0 on both axes, at every point. -/
theorem index2_6 : ∀ (i : grid2.Coords) (a : Fin 2), cc2_transform_6 i a = 0 := by
  intro i a; fin_cases a <;> rfl

/-- The statistics block is the whole array, uncut: written back over the full mask, it replaces the array's
    contents, whatever they were. -/
theorem write2_6 (c : Dev nD) (t : Fin cfg2.N) (G₀ : Buf (Elt F) ((cfg2.win 6).arr.view.loc (c.tc : Thread nD τ)))
    (X : Vec F S25x2 .f32) :
    ((cfg2.win 6).blk t).view.write (Elt F) G₀ ((cfg2.win 6).cut (cfg2.grid.coords t) X) Finset.univ = X := by
  funext y
  have h := View.write_emb_of_mem (v := ((cfg2.win 6).blk t).view) G₀ ((cfg2.win 6).cut (cfg2.grid.coords t) X) (Finset.mem_univ y)
  have e : ((cfg2.win 6).blk t).view.emb y = y := by
    funext a; apply Fin.ext
    show cc2_transform_6 (cfg2.grid.coords t) a * S25x2.size a + 1 * (y a).val = (y a).val
    rw [index2_6]; omega
  rw [e] at h
  rw [h]; rfl

/-- The relation the body is held to at the statistics window. -/
theorem after2_6_eq (c : Dev nD) : (rd2 V c).after 6 = rel2 V c :=
  RDat.override_after_of_eq_some (rd := (dat2 V c).toR) (ovr := ovr2 V c) (w := 6) rfl

/-- What the body leaves in the statistics buffer at point `t` has every row up to `t` at its block's two sums:
    row `t` by the relation at `t`; a row below it by the relation's other branch and what was left at the point
    before, which did not write the buffer back. -/
theorem leaves2_6 (c : Dev nD) : ∀ (n : Nat) (t : Fin cfg2.N), t.val = n → ∀ (X : Vec F S25x2 .f32), (rd2 V c).Leaves 6 t X →
    ∀ (r : Fin 25) (k : Fin 2), r.val ≤ t.val → X (ix2 r k) = stats2At V c (Fin.cast N_2.symm r) (ix2 (0 : Fin 1) k) := by
  intro n
  induction n with
  | zero =>
    rintro t ht X ⟨Y, -, hR⟩ r k hr
    rw [after2_6_eq] at hR
    have e : r.val = t.val := by omega
    rw [hR r k, if_pos e]
    exact congrArg (fun u => stats2At V c u (ix2 (0 : Fin 1) k)) (Fin.ext e.symm)
  | succ n ih =>
    rintro t ht X ⟨Y, hY, hR⟩ r k hr
    rw [after2_6_eq] at hR
    by_cases e : r.val = t.val
    · rw [hR r k, if_pos e]
      exact congrArg (fun u => stats2At V c u (ix2 (0 : Fin 1) k)) (Fin.ext e.symm)
    · rw [hR r k, if_neg e]
      have h25 : cfg2.N = 25 := N_2
      have hlt := t.isLt
      rw [(rd2 V c).finds_of_pos (nofetch2_6 t) (by omega)] at hY
      rcases hY with hfl | hL
      · rw [flush2_6] at hfl; dsimp only at hfl; omega
      · exact ih ⟨t.val - 1, Nat.lt_of_le_of_lt (Nat.sub_le _ _) t.isLt⟩ (by dsimp only; omega) Y hL r k (by dsimp only; omega)

/-- A window the relation does not replace: its array holds what the exact data name. -/
theorem arrAt2_named (c : Dev nD) (w : Fin cfg2.W) (hw : ovr2 V c w = none)
    (G : Buf (Elt F) ((cfg2.win w).arr.view.loc (c.tc : Thread nD τ))) :
    (rd2 V c).ArrAt w cfg2.N G → G = (dat2 V c).arrAt w cfg2.N := fun h =>
  (dat2 V c).toR_arrAt w cfg2.N G ((RDat.override_arrAt (rd := (dat2 V c).toR) (ovr := ovr2 V c) (w := w) hw cfg2.N G).mp h)

/-- The statistics array after the last point: the one write-back, at the last point, replaces it by what the
    body left there, every row of which is its block's two sums. -/
theorem arrAt2_6 (c : Dev nD) (G : Buf (Elt F) ((cfg2.win 6).arr.view.loc (c.tc : Thread nD τ))) :
    (rd2 V c).ArrAt 6 cfg2.N G → G = statsArr2 V c := by
  intro h
  have h24 : 24 < cfg2.N := by rw [show cfg2.N = 25 from N_2]; omega
  have hs := (rd2 V c).ArrAt_succ 6 ⟨24, h24⟩
  have hN : (rd2 V c).ArrAt 6 cfg2.N = (rd2 V c).ArrAt 6 (24 + 1) := congrArg ((rd2 V c).ArrAt 6) N_2
  have hfl : (cfg2.win 6).flush ⟨24, h24⟩ = true := (flush2_6 ⟨24, h24⟩).mpr rfl
  dsimp only at hs
  rw [hN, hs, if_pos hfl] at h
  obtain ⟨G₀, X, -, hX, rfl⟩ := h
  rw [write2_6]
  funext y
  rw [eq_ix2 y]
  exact leaves2_6 V c 24 ⟨24, h24⟩ rfl X hX (y 0) (y 1) (Nat.le_of_lt_succ (y 0).isLt)

/-! Window by window: the named windows hold what the exact data name, the statistics window its rows of sums. -/

theorem arrAt2_fin_0 (c : Dev nD) (hk : 0 < cfg2.W) (G : Buf (Elt F) ((cfg2.win ⟨0, hk⟩).arr.view.loc (c.tc : Thread nD τ))) :
    (rd2 V c).ArrAt ⟨0, hk⟩ cfg2.N G → G = fin2 V c ⟨0, hk⟩ := by
  intro h; dsimp only [fin2]; exact arrAt2_named V c 0 rfl G h

theorem arrAt2_fin_1 (c : Dev nD) (hk : 1 < cfg2.W) (G : Buf (Elt F) ((cfg2.win ⟨1, hk⟩).arr.view.loc (c.tc : Thread nD τ))) :
    (rd2 V c).ArrAt ⟨1, hk⟩ cfg2.N G → G = fin2 V c ⟨1, hk⟩ := by
  intro h; dsimp only [fin2]; exact arrAt2_named V c 1 rfl G h

theorem arrAt2_fin_2 (c : Dev nD) (hk : 2 < cfg2.W) (G : Buf (Elt F) ((cfg2.win ⟨2, hk⟩).arr.view.loc (c.tc : Thread nD τ))) :
    (rd2 V c).ArrAt ⟨2, hk⟩ cfg2.N G → G = fin2 V c ⟨2, hk⟩ := by
  intro h; dsimp only [fin2]; exact arrAt2_named V c 2 rfl G h

theorem arrAt2_fin_3 (c : Dev nD) (hk : 3 < cfg2.W) (G : Buf (Elt F) ((cfg2.win ⟨3, hk⟩).arr.view.loc (c.tc : Thread nD τ))) :
    (rd2 V c).ArrAt ⟨3, hk⟩ cfg2.N G → G = fin2 V c ⟨3, hk⟩ := by
  intro h; dsimp only [fin2]; exact arrAt2_named V c 3 rfl G h

theorem arrAt2_fin_4 (c : Dev nD) (hk : 4 < cfg2.W) (G : Buf (Elt F) ((cfg2.win ⟨4, hk⟩).arr.view.loc (c.tc : Thread nD τ))) :
    (rd2 V c).ArrAt ⟨4, hk⟩ cfg2.N G → G = fin2 V c ⟨4, hk⟩ := by
  intro h; dsimp only [fin2]; exact arrAt2_named V c 4 rfl G h

theorem arrAt2_fin_5 (c : Dev nD) (hk : 5 < cfg2.W) (G : Buf (Elt F) ((cfg2.win ⟨5, hk⟩).arr.view.loc (c.tc : Thread nD τ))) :
    (rd2 V c).ArrAt ⟨5, hk⟩ cfg2.N G → G = fin2 V c ⟨5, hk⟩ := by
  intro h; dsimp only [fin2]; exact arrAt2_named V c 5 rfl G h

theorem arrAt2_fin_6 (c : Dev nD) (hk : 6 < cfg2.W) (G : Buf (Elt F) ((cfg2.win ⟨6, hk⟩).arr.view.loc (c.tc : Thread nD τ))) :
    (rd2 V c).ArrAt ⟨6, hk⟩ cfg2.N G → G = fin2 V c ⟨6, hk⟩ := by
  intro h; dsimp only [fin2]; exact arrAt2_6 V c G h

/-- The relational data pin every array after the last point. -/
theorem arrAt2_fin (c : Dev nD) (w : Fin cfg2.W) (G : Buf (Elt F) ((cfg2.win w).arr.view.loc (c.tc : Thread nD τ))) :
    (rd2 V c).ArrAt w cfg2.N G → G = fin2 V c w :=
  match w, G with
  | ⟨0, hk⟩, G => arrAt2_fin_0 V c hk G
  | ⟨1, hk⟩, G => arrAt2_fin_1 V c hk G
  | ⟨2, hk⟩, G => arrAt2_fin_2 V c hk G
  | ⟨3, hk⟩, G => arrAt2_fin_3 V c hk G
  | ⟨4, hk⟩, G => arrAt2_fin_4 V c hk G
  | ⟨5, hk⟩, G => arrAt2_fin_5 V c hk G
  | ⟨6, hk⟩, G => arrAt2_fin_6 V c hk G

end Regions

end Cert.Kernel.Hand
end
-- ==== Proof.BComb3.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import Idealize.ShloMosaic.Lib.ValueIdx
import Idealize.ShloMosaic.Lib.WritesUnit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: the combine kernel. Per block of 20000 rows it writes the new rows (window 5) and ONE row of the
    statistics buffer (window 6: the block's sum of squared updates and its count of rows with positive degree). The
    statistics block is the whole 25x2 array at every point, so its buffer is kept from point to point and written
    back once, after the last point. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S20000x64 := Rect.unit (s := S20000x64) ![0, 0] S20000x64.size inb_S20000x64_S20000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0
abbrev rD3 : Rect S20000x1 := Rect.unit (s := S20000x1) ![0, 0] S20000x1.size inb_S20000x1_S20000x1_0_0

/-- The new rows of a block, from the windows' blocks in WINDOW order: rows `x0`, self weight `x1`, bias `x2`,
    propagated sum `x3`, degree column `x4`. -/
def out3_5 (x0 : Vec F S20000x64 .f32) (x1 : Vec F S64x64 .f32) (x2 : Vec F S1x64 .f32) (x3 : Vec F S20000x64 .f32)
    (x4 : Vec F S20000x1 .f32) : Vec F S20000x64 .f32 :=
  View.canon [⟨rX3, k3_pay3 (View.ld x0 rX3) (View.ld x1 rW3) (View.ld x2 rB3) (View.ld x4 rD3) (View.ld x3 rX3)⟩]

/-- The block's two sums (squared updates; rows of positive degree), as the 1x2 row the body stores. -/
def stat3 (x0 : Vec F S20000x64 .f32) (x1 : Vec F S64x64 .f32) (x2 : Vec F S1x64 .f32) (x3 : Vec F S20000x64 .f32)
    (x4 : Vec F S20000x1 .f32) : Vec F S1x2 .f32 :=
  k3_pay4 (View.ld x0 rX3) (View.ld x1 rW3) (View.ld x2 rB3) (View.ld x4 rD3) (View.ld x3 rX3)

/-- The two sums of the block at point `t`. -/
def stats3At (c : Dev nD) (t : Fin cfg3.N) : Vec F S1x2 .f32 :=
  stat3 (iblk3 V c 0 t) (iblk3 V c 1 t) (iblk3 V c 2 t) (iblk3 V c 3 t) (iblk3 V c 4 t)

/-- Exact proof data for every window but the statistics one (its entry below is never consulted: the relation
    `rel3` replaces it). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => iblk3 V c 6 t
  Φ _ := Pipeline.ΦA spec3 c
  q _ := fullShare
  owed _ := 0

/-- What the body does to the statistics buffer at point `t`: row `t` becomes the block's two sums, every other
    row is left as found. -/
def rel3 (c : Dev nD) (t : Fin cfg3.N) (Y X : Vec F S15x2 .f32) : Prop :=
  ∀ (r : Fin 15) (k : Fin 2), X (ix2 r k) = if r.val = t.val then stats3At V c t (ix2 (0 : Fin 1) k) else Y (ix2 r k)

/-- Only the statistics window is constrained rather than named. -/
def ovr3 (c : Dev nD) : (w : Fin cfg3.W) → Option (Fin cfg3.N → (Y X : (cfg3.win w).block.Idx → Elt F (cfg3.win w).elt) → Prop)
  | ⟨0, _⟩ => none
  | ⟨1, _⟩ => none
  | ⟨2, _⟩ => none
  | ⟨3, _⟩ => none
  | ⟨4, _⟩ => none
  | ⟨5, _⟩ => none
  | ⟨6, _⟩ => some (rel3 V c)

/-- The region's relational proof data. -/
def rd3 (c : Dev nD) : RDat τ (Elt F) Unit ℕ (UR sig nD τ) ℕ cfg3 c := (dat3 V c).toR.override (ovr3 V c)

theorem rd3_A (c : Dev nD) (w : Fin cfg3.W) : (rd3 V c).A w = V c (Pipeline.arrRef spec3 w) := by
  unfold rd3; rw [RDat.override_A, Dat.toR_A]; dsimp only [dat3]

/-! ## The body's triple -/

/-- The one store of the new rows covers the block. -/
theorem cover3_5 (p0 : Vec F S20000x64 .f32) (y : S20000x64.Idx) :
    ∃ pc ∈ ([⟨rX3, p0⟩] : List (View.Piece (Elt F) S20000x64 .f32)), y ∈ pc.1.set :=
  View.cover_of_tiled [⟨rX3, p0⟩] S20000x64.size (by rfl) y

/-- Where the statistics row goes: the row of the grid coordinate, column 0. -/
theorem unitLocal3 (o : ℕ) (r : Fin 15) (k : Fin 2)
    (h : ∀ a : Fin 2, (![o, 0] : Fin 2 → ℕ) a ≤ ((ix2 r k : S15x2.Idx) a).val ∧ ((ix2 r k : S15x2.Idx) a).val < (![o, 0] : Fin 2 → ℕ) a + S1x2.size a) :
    (Rect.unitLocal (s := S15x2) (off := ![o, 0]) (size := S1x2.size) (ix2 r k) h) = (ix2 (0 : Fin 1) k : S1x2.Idx) := by
  funext a
  match a with
  | ⟨0, _⟩ =>
    have h0 : o ≤ r.val ∧ r.val < o + 1 := h 0
    exact Fin.ext (by show r.val - o = 0; omega)
  | ⟨1, _⟩ => exact Fin.ext (by show k.val - 0 = k.val; omega)

set_option maxHeartbeats 4000000 in
/-- The body on whole staging memrefs: the five inputs at read contents (window order), the new-rows buffer at anything,
    the statistics buffer at named contents y6. It gives the inputs back as they were, the new rows at their closed
    form, and the statistics buffer with row (i 0) replaced by the block's two sums and every other row as it was. -/
theorem sound_kernel3 (c : Dev nD) (E : Set ℕ) (i : grid3.Coords)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S20000x1 .f32) (harg5 : arg5.IsWhole) (arg6 : Memref sig .tc .vmem S20000x64 .f32) (harg6 : arg6.IsWhole)
    (arg7 : Memref sig .tc .vmem S15x2 .f32) (harg7 : arg7.IsWhole)
    (x0 : Vec F S20000x64 .f32) (x1 : Vec F S64x64 .f32) (x2 : Vec F S1x64 .f32) (x3 : Vec F S20000x64 .f32) (x4 : Vec F S20000x1 .f32)
    (y6 : Vec F S15x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare y6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)
            ∗ (∃ X : Vec F S15x2 .f32, ⌜∀ (r : Fin 15) (k : Fin 2), X (ix2 r k)
                  = if r.val = (i 0).val then stat3 x0 x1 x2 x3 x4 (ix2 (0 : Fin 1) k) else y6 (ix2 r k)⌝
                ∗ owns (c : Thread nD τ) arg7 fullShare X)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_5 _)
  iexists _; isplitr
  swap
  · iexists _; isplitr
    swap; · iexact H7
    ipureintro; rfl
  ipureintro
  intro r k
  rw [View.read_writes_cons_rows (o := (i 0).val) (W := 1) arg7.view f7 (k3_off1_inb i) _ [] (ix2 r k) (k3_off1_eq i) rfl rfl]
  by_cases hr : r.val = (i 0).val
  · rw [if_pos hr, dif_pos (by show (i 0).val ≤ r.val ∧ r.val < (i 0).val + 1; omega)]
    unfold stat3
    rw [unitLocal3]
    rfl
  · rw [if_neg hr, dif_neg (by show ¬ ((i 0).val ≤ r.val ∧ r.val < (i 0).val + 1); omega)]
    rfl

/-! ## The proof data, window by window -/

/-- The exact data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not: unfetched, the block
    index has not moved and the body left the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- What the body may find in a window whose relation is the exact one: what the exact data says it finds. -/
theorem finds3_of_none (c : Dev nD) (w : Fin cfg3.W) (h : ovr3 V c w = none) (t : Fin cfg3.N)
    (Y : (cfg3.win w).block.Idx → Elt F (cfg3.win w).elt) (hY : (rd3 V c).Finds w t Y) : ∃ d, Y = (dat3 V c).before w t d :=
  (dat3 V c).toR_finds w t Y (((dat3 V c).toR.override_finds h t Y).mp hY)

/-- For such a window the relation holds of the exact data's named contents, whatever was found. -/
theorem after3_of_none (c : Dev nD) (w : Fin cfg3.W) (h : ovr3 V c w = none) (t : Fin cfg3.N)
    (Y : (cfg3.win w).block.Idx → Elt F (cfg3.win w).elt) : (rd3 V c).after w t Y ((dat3 V c).after w t) := by
  unfold rd3
  rw [(dat3 V c).toR.override_after_of_eq_none h]
  exact (Dat.Leaves.live_iff (dat3 V c) (.inl rfl)).mpr rfl

/-- For the statistics window the relation is rel3. -/
theorem after3_6 (c : Dev nD) (t : Fin cfg3.N) (Y X : (cfg3.win 6).block.Idx → Elt F (cfg3.win 6).elt)
    (h : rel3 V c t Y X) : (rd3 V c).after 6 t Y X := by
  unfold rd3
  rw [(dat3 V c).toR.override_after_of_eq_some (R := rel3 V c) rfl]
  exact h

/-- The grid has one axis: a point's coordinate is its number. -/
theorem coords3_val : ∀ t : Fin grid3.N, (grid3.coords t 0).val = t.val := by decide +kernel

/-! ## The body obligation, at a generic point -/

set_option maxHeartbeats 1000000 in
/-- The body at any point, the windows one by one: the inputs' buffers hold their blocks, so the triple applies at the
    point's coordinate; each input comes back as found, the new rows at their closed form, the statistics buffer in the
    relation rel3 to what it held; the invariant and what the core owes pass through unread. -/
theorem sound_body3 (c : Dev nD) (t : Fin cfg3.N)
    (y0 : (cfg3.win 0).block.Idx → Elt F (cfg3.win 0).elt) (y1 : (cfg3.win 1).block.Idx → Elt F (cfg3.win 1).elt)
    (y2 : (cfg3.win 2).block.Idx → Elt F (cfg3.win 2).elt) (y3 : (cfg3.win 3).block.Idx → Elt F (cfg3.win 3).elt)
    (y4 : (cfg3.win 4).block.Idx → Elt F (cfg3.win 4).elt) (y5 : (cfg3.win 5).block.Idx → Elt F (cfg3.win 5).elt)
    (y6 : (cfg3.win 6).block.Idx → Elt F (cfg3.win 6).elt)
    (h0 : y0 = iblk3 V c 0 t) (h1 : y1 = iblk3 V c 1 t) (h2 : y2 = iblk3 V c 2 t) (h3 : y3 = iblk3 V c 3 t) (h4 : y4 = iblk3 V c 4 t) :
    iprop((rd3 V c).Φ t.castSucc ∗ (rd3 V c).owesAt () t.castSucc
        ∗ owns (c : Thread nD τ) (st3_0 t) fullShare y0 ∗ owns (c : Thread nD τ) (st3_1 t) fullShare y1
        ∗ owns (c : Thread nD τ) (st3_2 t) fullShare y2 ∗ owns (c : Thread nD τ) (st3_3 t) fullShare y3
        ∗ owns (c : Thread nD τ) (st3_4 t) fullShare y4 ∗ owns (c : Thread nD τ) (st3_5 t) fullShare y5
        ∗ owns (c : Thread nD τ) (st3_6 t) fullShare y6)
      ⊢ wp frame (wpE (defs₀ (F := F)) Variants.none c none) Set.univ (bodyAt3 t) (fun _ =>
          iprop((rd3 V c).Φ t.succ ∗ (rd3 V c).owesAt () t.succ
            ∗ (∃ X, ⌜(rd3 V c).after 0 t y0 X⌝ ∗ owns (c : Thread nD τ) (st3_0 t) fullShare X)
            ∗ (∃ X, ⌜(rd3 V c).after 1 t y1 X⌝ ∗ owns (c : Thread nD τ) (st3_1 t) fullShare X)
            ∗ (∃ X, ⌜(rd3 V c).after 2 t y2 X⌝ ∗ owns (c : Thread nD τ) (st3_2 t) fullShare X)
            ∗ (∃ X, ⌜(rd3 V c).after 3 t y3 X⌝ ∗ owns (c : Thread nD τ) (st3_3 t) fullShare X)
            ∗ (∃ X, ⌜(rd3 V c).after 4 t y4 X⌝ ∗ owns (c : Thread nD τ) (st3_4 t) fullShare X)
            ∗ (∃ X, ⌜(rd3 V c).after 5 t y5 X⌝ ∗ owns (c : Thread nD τ) (st3_5 t) fullShare X)
            ∗ (∃ X, ⌜(rd3 V c).after 6 t y6 X⌝ ∗ owns (c : Thread nD τ) (st3_6 t) fullShare X))) := by
  subst h0 h1 h2 h3 h4
  rw [show (rd3 V c).Φ t.succ = (rd3 V c).Φ t.castSucc from rfl,
    show (rd3 V c).owesAt () t.succ = (rd3 V c).owesAt () t.castSucc from rfl]
  unfold bodyAt3
  iintro ⟨HΦ, Ho, H0, H1, H2, H3, H4, H5, H6⟩
  iapply (sound_kernel3 c Set.univ _ _ _ _ _ _ _ _ _ _ _ _ _ _ _
    (iblk3 V c 0 t) (iblk3 V c 1 t) (iblk3 V c 2 t) (iblk3 V c 3 t) (iblk3 V c 4 t) y6 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact (after3_0 V c t) ▸ after3_of_none V c 0 rfl t _
    iexact H0
  isplitl [H1]
  · iexists _; isplitr; · ipureintro; exact (after3_1 V c t) ▸ after3_of_none V c 1 rfl t _
    iexact H1
  isplitl [H2]
  · iexists _; isplitr; · ipureintro; exact (after3_2 V c t) ▸ after3_of_none V c 2 rfl t _
    iexact H2
  isplitl [H3]
  · iexists _; isplitr; · ipureintro; exact (after3_3 V c t) ▸ after3_of_none V c 3 rfl t _
    iexact H3
  isplitl [H4]
  · iexists _; isplitr; · ipureintro; exact (after3_4 V c t) ▸ after3_of_none V c 4 rfl t _
    iexact H4
  isplitl [H5]
  · iexists _; isplitr; · ipureintro; exact (after3_5 V c t) ▸ after3_of_none V c 5 rfl t _
    iexact H5
  iexists X; isplitr
  · ipureintro
    refine after3_6 V c t y6 X fun r k => ?_
    rw [hX r k, coords3_val t]
    rfl
  iexact H6

/-- The body obligation of region 2 over the relational data, at every point. -/
theorem body_obligation3 (c : Dev nD) : (rd3 (F := F) V c).BodyObligation (defs₀ (F := F)) Variants.none () Set.univ := by
  intro t Y hY
  obtain ⟨d0, h0⟩ := finds3_of_none V c 0 rfl t (Y 0) (hY 0)
  obtain ⟨d1, h1⟩ := finds3_of_none V c 1 rfl t (Y 1) (hY 1)
  obtain ⟨d2, h2⟩ := finds3_of_none V c 2 rfl t (Y 2) (hY 2)
  obtain ⟨d3, h3⟩ := finds3_of_none V c 3 rfl t (Y 3) (hY 3)
  obtain ⟨d4, h4⟩ := finds3_of_none V c 4 rfl t (Y 4) (hY 4)
  rw [before3_0] at h0; rw [before3_1] at h1; rw [before3_2] at h2; rw [before3_3] at h3; rw [before3_4] at h4
  rw [bigSep_W3, bigSep_W3]
  exact sound_body3 V c t (Y 0) (Y 1) (Y 2) (Y 3) (Y 4) (Y 5) (Y 6) h0 h1 h2 h3 h4

end Regions

end Cert.Kernel.Hand
end
-- ==== Proof.BComb3Arr.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import proofs.«427575_j39067022524700_2_alg».proof.Proof.BComb3
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.ValueIdx

section Regions
variable (V : (c : Dev nD) → (b : Ref sig .tc) → Buf (Elt F) ((c : Thread nD τ).loc b))

/-! ## Region 2: what its arrays hold after the last point -/

/-- The statistics array after the region: row `t` holds block `t`'s two sums. -/
def statsArr3 (c : Dev nD) : Vec F S15x2 .f32 :=
  fun y => stats3At V c (Fin.cast N_3.symm (y 0)) (ix2 (0 : Fin 1) (y 1))

/-- Each windowed array's contents after the region. -/
def fin3 (c : Dev nD) : (w : Fin cfg3.W) → Buf (Elt F) ((cfg3.win w).arr.view.loc (c.tc : Thread nD τ))
  | ⟨0, _⟩ => (dat3 V c).arrAt 0 cfg3.N
  | ⟨1, _⟩ => (dat3 V c).arrAt 1 cfg3.N
  | ⟨2, _⟩ => (dat3 V c).arrAt 2 cfg3.N
  | ⟨3, _⟩ => (dat3 V c).arrAt 3 cfg3.N
  | ⟨4, _⟩ => (dat3 V c).arrAt 4 cfg3.N
  | ⟨5, _⟩ => (dat3 V c).arrAt 5 cfg3.N
  | ⟨6, _⟩ => statsArr3 V c

/-- The statistics window is an output: no point fetches it. -/
theorem nofetch3_6 : ∀ t : Fin cfg3.N, (cfg3.win 6).fetch t = false :=
  (by decide +kernel : ∀ t : Fin grid3.N, win3_6.fetch t = false)

/-- The statistics block sits at block index 0 on both axes, at every point. -/
theorem index3_6 : ∀ (i : grid3.Coords) (a : Fin 2), cc3_transform_6 i a = 0 := by
  intro i a; fin_cases a <;> rfl

/-- The statistics block is the whole array, uncut: written back over the full mask, it replaces the array's
    contents, whatever they were. -/
theorem write3_6 (c : Dev nD) (t : Fin cfg3.N) (G₀ : Buf (Elt F) ((cfg3.win 6).arr.view.loc (c.tc : Thread nD τ)))
    (X : Vec F S15x2 .f32) :
    ((cfg3.win 6).blk t).view.write (Elt F) G₀ ((cfg3.win 6).cut (cfg3.grid.coords t) X) Finset.univ = X := by
  funext y
  have h := View.write_emb_of_mem (v := ((cfg3.win 6).blk t).view) G₀ ((cfg3.win 6).cut (cfg3.grid.coords t) X) (Finset.mem_univ y)
  have e : ((cfg3.win 6).blk t).view.emb y = y := by
    funext a; apply Fin.ext
    show cc3_transform_6 (cfg3.grid.coords t) a * S15x2.size a + 1 * (y a).val = (y a).val
    rw [index3_6]; omega
  rw [e] at h
  rw [h]; rfl

/-- The relation the body is held to at the statistics window. -/
theorem after3_6_eq (c : Dev nD) : (rd3 V c).after 6 = rel3 V c :=
  RDat.override_after_of_eq_some (rd := (dat3 V c).toR) (ovr := ovr3 V c) (w := 6) rfl

/-- What the body leaves in the statistics buffer at point `t` has every row up to `t` at its block's two sums:
    row `t` by the relation at `t`; a row below it by the relation's other branch and what was left at the point
    before, which did not write the buffer back. -/
theorem leaves3_6 (c : Dev nD) : ∀ (n : Nat) (t : Fin cfg3.N), t.val = n → ∀ (X : Vec F S15x2 .f32), (rd3 V c).Leaves 6 t X →
    ∀ (r : Fin 15) (k : Fin 2), r.val ≤ t.val → X (ix2 r k) = stats3At V c (Fin.cast N_3.symm r) (ix2 (0 : Fin 1) k) := by
  intro n
  induction n with
  | zero =>
    rintro t ht X ⟨Y, -, hR⟩ r k hr
    rw [after3_6_eq] at hR
    have e : r.val = t.val := by omega
    rw [hR r k, if_pos e]
    exact congrArg (fun u => stats3At V c u (ix2 (0 : Fin 1) k)) (Fin.ext e.symm)
  | succ n ih =>
    rintro t ht X ⟨Y, hY, hR⟩ r k hr
    rw [after3_6_eq] at hR
    by_cases e : r.val = t.val
    · rw [hR r k, if_pos e]
      exact congrArg (fun u => stats3At V c u (ix2 (0 : Fin 1) k)) (Fin.ext e.symm)
    · rw [hR r k, if_neg e]
      have h25 : cfg3.N = 15 := N_3
      have hlt := t.isLt
      rw [(rd3 V c).finds_of_pos (nofetch3_6 t) (by omega)] at hY
      rcases hY with hfl | hL
      · rw [flush3_6] at hfl; dsimp only at hfl; omega
      · exact ih ⟨t.val - 1, Nat.lt_of_le_of_lt (Nat.sub_le _ _) t.isLt⟩ (by dsimp only; omega) Y hL r k (by dsimp only; omega)

/-- A window the relation does not replace: its array holds what the exact data name. -/
theorem arrAt3_named (c : Dev nD) (w : Fin cfg3.W) (hw : ovr3 V c w = none)
    (G : Buf (Elt F) ((cfg3.win w).arr.view.loc (c.tc : Thread nD τ))) :
    (rd3 V c).ArrAt w cfg3.N G → G = (dat3 V c).arrAt w cfg3.N := fun h =>
  (dat3 V c).toR_arrAt w cfg3.N G ((RDat.override_arrAt (rd := (dat3 V c).toR) (ovr := ovr3 V c) (w := w) hw cfg3.N G).mp h)

/-- The statistics array after the last point: the one write-back, at the last point, replaces it by what the
    body left there, every row of which is its block's two sums. -/
theorem arrAt3_6 (c : Dev nD) (G : Buf (Elt F) ((cfg3.win 6).arr.view.loc (c.tc : Thread nD τ))) :
    (rd3 V c).ArrAt 6 cfg3.N G → G = statsArr3 V c := by
  intro h
  have h24 : 14 < cfg3.N := by rw [show cfg3.N = 15 from N_3]; omega
  have hs := (rd3 V c).ArrAt_succ 6 ⟨14, h24⟩
  have hN : (rd3 V c).ArrAt 6 cfg3.N = (rd3 V c).ArrAt 6 (14 + 1) := congrArg ((rd3 V c).ArrAt 6) N_3
  have hfl : (cfg3.win 6).flush ⟨14, h24⟩ = true := (flush3_6 ⟨14, h24⟩).mpr rfl
  dsimp only at hs
  rw [hN, hs, if_pos hfl] at h
  obtain ⟨G₀, X, -, hX, rfl⟩ := h
  rw [write3_6]
  funext y
  rw [eq_ix2 y]
  exact leaves3_6 V c 14 ⟨14, h24⟩ rfl X hX (y 0) (y 1) (Nat.le_of_lt_succ (y 0).isLt)

/-! Window by window: the named windows hold what the exact data name, the statistics window its rows of sums. -/

theorem arrAt3_fin_0 (c : Dev nD) (hk : 0 < cfg3.W) (G : Buf (Elt F) ((cfg3.win ⟨0, hk⟩).arr.view.loc (c.tc : Thread nD τ))) :
    (rd3 V c).ArrAt ⟨0, hk⟩ cfg3.N G → G = fin3 V c ⟨0, hk⟩ := by
  intro h; dsimp only [fin3]; exact arrAt3_named V c 0 rfl G h

theorem arrAt3_fin_1 (c : Dev nD) (hk : 1 < cfg3.W) (G : Buf (Elt F) ((cfg3.win ⟨1, hk⟩).arr.view.loc (c.tc : Thread nD τ))) :
    (rd3 V c).ArrAt ⟨1, hk⟩ cfg3.N G → G = fin3 V c ⟨1, hk⟩ := by
  intro h; dsimp only [fin3]; exact arrAt3_named V c 1 rfl G h

theorem arrAt3_fin_2 (c : Dev nD) (hk : 2 < cfg3.W) (G : Buf (Elt F) ((cfg3.win ⟨2, hk⟩).arr.view.loc (c.tc : Thread nD τ))) :
    (rd3 V c).ArrAt ⟨2, hk⟩ cfg3.N G → G = fin3 V c ⟨2, hk⟩ := by
  intro h; dsimp only [fin3]; exact arrAt3_named V c 2 rfl G h

theorem arrAt3_fin_3 (c : Dev nD) (hk : 3 < cfg3.W) (G : Buf (Elt F) ((cfg3.win ⟨3, hk⟩).arr.view.loc (c.tc : Thread nD τ))) :
    (rd3 V c).ArrAt ⟨3, hk⟩ cfg3.N G → G = fin3 V c ⟨3, hk⟩ := by
  intro h; dsimp only [fin3]; exact arrAt3_named V c 3 rfl G h

theorem arrAt3_fin_4 (c : Dev nD) (hk : 4 < cfg3.W) (G : Buf (Elt F) ((cfg3.win ⟨4, hk⟩).arr.view.loc (c.tc : Thread nD τ))) :
    (rd3 V c).ArrAt ⟨4, hk⟩ cfg3.N G → G = fin3 V c ⟨4, hk⟩ := by
  intro h; dsimp only [fin3]; exact arrAt3_named V c 4 rfl G h

theorem arrAt3_fin_5 (c : Dev nD) (hk : 5 < cfg3.W) (G : Buf (Elt F) ((cfg3.win ⟨5, hk⟩).arr.view.loc (c.tc : Thread nD τ))) :
    (rd3 V c).ArrAt ⟨5, hk⟩ cfg3.N G → G = fin3 V c ⟨5, hk⟩ := by
  intro h; dsimp only [fin3]; exact arrAt3_named V c 5 rfl G h

theorem arrAt3_fin_6 (c : Dev nD) (hk : 6 < cfg3.W) (G : Buf (Elt F) ((cfg3.win ⟨6, hk⟩).arr.view.loc (c.tc : Thread nD τ))) :
    (rd3 V c).ArrAt ⟨6, hk⟩ cfg3.N G → G = fin3 V c ⟨6, hk⟩ := by
  intro h; dsimp only [fin3]; exact arrAt3_6 V c G h

/-- The relational data pin every array after the last point. -/
theorem arrAt3_fin (c : Dev nD) (w : Fin cfg3.W) (G : Buf (Elt F) ((cfg3.win w).arr.view.loc (c.tc : Thread nD τ))) :
    (rd3 V c).ArrAt w cfg3.N G → G = fin3 V c w :=
  match w, G with
  | ⟨0, hk⟩, G => arrAt3_fin_0 V c hk G
  | ⟨1, hk⟩, G => arrAt3_fin_1 V c hk G
  | ⟨2, hk⟩, G => arrAt3_fin_2 V c hk G
  | ⟨3, hk⟩, G => arrAt3_fin_3 V c hk G
  | ⟨4, hk⟩, G => arrAt3_fin_4 V c hk G
  | ⟨5, hk⟩, G => arrAt3_fin_5 V c hk G
  | ⟨6, hk⟩, G => arrAt3_fin_6 V c hk G

end Regions

end Cert.Kernel.Hand
end
-- ==== Proof.BFold.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import proofs.«427575_j39067022524700_2_alg».proof.Proof.Gen.Kernel.Regions
import proofs.«427575_j39067022524700_2_alg».proof.Proof.BLin
import proofs.«427575_j39067022524700_2_alg».proof.Proof.BComb2Arr
import proofs.«427575_j39067022524700_2_alg».proof.Proof.BComb3Arr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents at each boundary of the host program

The host program is five stretches of host operations around the four kernel regions. Core `c`'s unscoped buffers are
followed through it: a stretch applies its operations; a region leaves its windowed arrays at what its write-backs make
of them and every other buffer as it was. -/

/-- At launch. -/
abbrev W0 : Dev nD → Valuation τ sig (Elt F) := fun c b => m ((c : Dev nD), b)
/-- After the first stretch (the transposed cross weight for the item projection). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: the projected item rows. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second stretch (the other transposed cross weight). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: the projected user rows. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the third stretch: both sparse propagations and both degree columns, the self weight and bias of the users. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After region 2: the new user rows and the users' per-block statistics. -/
def W6 (c : Dev nD) : Valuation τ sig (Elt F) :=
  Pipeline.withArrays spec2 c (W5 m c) (fin2 (V5 m) c)
theorem W6_arr (c : Dev nD) (w : Fin cfg2.W) :
    W6 m c (Proc.devRef .tc (Pipeline.arrRef spec2 w)) = fin2 (V5 m) c w := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- After the fourth stretch: the self weight and bias of the items. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- After region 3: the new item rows and the items' per-block statistics. -/
def W8 (c : Dev nD) : Valuation τ sig (Elt F) :=
  Pipeline.withArrays spec3 c (W7 m c) (fin3 (V7 m) c)
theorem W8_arr (c : Dev nD) (w : Fin cfg3.W) :
    W8 m c (Proc.devRef .tc (Pipeline.arrRef spec3 w)) = fin3 (V7 m) c w := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
/-- After the last stretch: the statistics summed over the blocks, the two quotients and their sum. -/
abbrev W9 : Dev nD → Valuation τ sig (Elt F) := fun c => StableHlo.after hostOps4 (W8 m c)

/-! ## The proof data family -/

abbrev adm : (p : Fin 4) → (pcfgs (F := F) p).Adm := fun p => (cfgs p).toPCfg_adm

/-- Every pipeline's relational proof data, each at its region's entry contents: the two projections' exact data read
    relationally, the two combine regions' data with the statistics window constrained. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => rd2 (V5 m) c
  | ⟨3, _⟩ => fun c => rd3 (V7 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand
end
-- ==== Proof.BAssembly.lean ====
import proofs.«427575_j39067022524700_2_alg».proof.Proof.Gen.Kernel.Launch
import proofs.«427575_j39067022524700_2_alg».proof.Proof.Gen.Kernel.Skeleton
import proofs.«427575_j39067022524700_2_alg».proof.Proof.Gen.Kernel.Points
import proofs.«427575_j39067022524700_2_alg».proof.Proof.BFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # A region's arrays back among the core's unscoped buffers

After a region the relational data know each windowed array only as "some contents the write-backs may have left". When
those contents are pinned to one array `Ffin w` per window, the arrays beside the untouched rest are the core's unscoped
buffers at any valuation that holds `Ffin` at the arrays and agrees with the entry valuation elsewhere. -/

theorem bufs_of_arraysAt (p : Fin 4) (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (Ffin : (w : Fin (Pipeline.pin (pcfgs (F := F)) adm p).W) → Buf (Elt F) (((Pipeline.pin (pcfgs (F := F)) adm p).spec w).arr.view.loc (c.tc : Thread nD τ)))
    (hfin : ∀ w G, (rdats m p c).ArrAt w (Pipeline.pin (pcfgs (F := F)) adm p).N G → G = Ffin w)
    (hF : ∀ w, Ffin w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arraysAt (Pipeline.pin (pcfgs (F := F)) adm p).N ∗ Pipeline.unscopedRest (Pipeline.pin (pcfgs (F := F)) adm p).spec c V)
      ⊢ (unscopedBufs c V' : sProp 𝕄) := by
  have h1 : (rdats m p c).arraysAt (Pipeline.pin (pcfgs (F := F)) adm p).N ⊢ ((rdats m p c).arrays Ffin : sProp 𝕄) := by
    unfold RDat.arraysAt RDat.arrays
    exact BI.bigSep_mono fun w _ =>
      show iprop(∃ G, ⌜(rdats m p c).ArrAt w (Pipeline.pin (pcfgs (F := F)) adm p).N G⌝
            ∗ ((Pipeline.pin (pcfgs (F := F)) adm p).win w).arr.view.loc (c.tc : Thread nD τ) ↦[((Pipeline.pin (pcfgs (F := F)) adm p).win w).arr.view.set]{(rdats m p c).share w} G)
          ⊢ (((Pipeline.pin (pcfgs (F := F)) adm p).win w).arr.view.loc (c.tc : Thread nD τ) ↦[((Pipeline.pin (pcfgs (F := F)) adm p).win w).arr.view.set]{(rdats m p c).share w} Ffin w : sProp 𝕄) from by
        iintro ⟨%G, %hG, H⟩; rw [hfin w G hG]; iexact H
  rw [Pipeline.unscopedBufs_split (Pipeline.pin (pcfgs (F := F)) adm) p hw.arr_unscoped hw.arr_inj c V']
  refine (sep_mono h1 .rfl).trans ?_
  rw [Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! # The regions as segments of the host program -/

set_option backward.isDefEq.respectTransparency.types false in
/-- Region 0 over the thread state: entered with every unscoped buffer at `W1`, left with them at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_of_arraysAt m 0 launch0.win launch0.arr_whole c ((rdats m 0 c).share_full fun _ => rfl)
      (V1 m c) (V2 m c) (fun w => (dat0 (V1 m) c).arrAt w cfg0.N)
      (fun w G hG => (dat0 (V1 m) c).toR_arrAt w _ G hG) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered with every unscoped buffer at `W3`, left with them at `W4`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V3 m) c).loose).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arraysAt m 1 launch1.win launch1.arr_whole c ((rdats m 1 c).share_full fun _ => rfl)
      (V3 m c) (V4 m c) (fun w => (dat1 (V3 m) c).arrAt w cfg1.N)
      (fun w G hG => (dat1 (V3 m) c).toR_arrAt w _ G hG) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 2 over the thread state: entered with every unscoped buffer at `W5`, left with them at `W6`. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m) c
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := bufs_of_arraysAt m 2 launch2.win launch2.arr_whole c ((rdats m 2 c).share_full fun _ => rfl)
      (V5 m c) (V6 m c) (fin2 (V5 m) c)
      (fun w G hG => arrAt2_fin (V5 m) c w G hG) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 3 over the thread state: entered with every unscoped buffer at `W7`, left with them at `W8`. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (V7 m) c
  hwaits := Pipeline.RDat.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := bufs_of_arraysAt m 3 launch3.win launch3.arr_whole c ((rdats m 3 c).share_full fun _ => rfl)
      (V7 m c) (V8 m c) (fin3 (V7 m) c)
      (fun w G hG => arrAt3_fin (V7 m) c w G hG) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! # The host program as segments, and the launch -/

/-- The nine segments in order: a host segment per stretch from its boundary's contents, a region per kernel call. -/
abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

/-- The host program IS the run of the segments. -/
theorem main_run (c : Dev nD) : main (F := F) c = Pipeline.RDat.Seg.run (segs m) := (main_chain c).trans (by chain_rfl)

set_option backward.isDefEq.respectTransparency.types false in
/-- From any memory with zero counters every weakly fair execution of the host program terminates, nothing faulting, and
    every unscoped buffer of every core ends at the last boundary's contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl,
      fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Hand
end
-- ==== Proof.BKeep.lean ====
import proofs.«427575_j39067022524700_2_alg».proof.Proof.BFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ)

/-! # What each step of the host program leaves unchanged

A stretch of host operations changes only the buffers its operations write. A kernel region changes only its output
windows' arrays: an input window's array is read, never written back, and a buffer that is no array of the region is not
touched at all. -/

/-! ## The host stretches -/

theorem W1_keep (c : Dev nD) (b : Ref sig .tc) (h : b ∉ hostOps0_W) :
    W1 m c (Proc.devRef .tc b) = W0 m c (Proc.devRef .tc b) :=
  StableHlo.after_of_writes_sub hostOps0 _ hostOps0_writes h
theorem W3_keep (c : Dev nD) (b : Ref sig .tc) (h : b ∉ hostOps1_W) :
    W3 m c (Proc.devRef .tc b) = W2 m c (Proc.devRef .tc b) :=
  StableHlo.after_of_writes_sub hostOps1 _ hostOps1_writes h
theorem W5_keep (c : Dev nD) (b : Ref sig .tc) (h : b ∉ hostOps2_W) :
    W5 m c (Proc.devRef .tc b) = W4 m c (Proc.devRef .tc b) :=
  StableHlo.after_of_writes_sub hostOps2 _ hostOps2_writes h
theorem W7_keep (c : Dev nD) (b : Ref sig .tc) (h : b ∉ hostOps3_W) :
    W7 m c (Proc.devRef .tc b) = W6 m c (Proc.devRef .tc b) :=
  StableHlo.after_of_writes_sub hostOps3 _ hostOps3_writes h
theorem W9_keep_step (c : Dev nD) (b : Ref sig .tc) (h : b ∉ hostOps4_W) :
    W9 m c (Proc.devRef .tc b) = W8 m c (Proc.devRef .tc b) :=
  StableHlo.after_of_writes_sub hostOps4 _ hostOps4_writes h

/-! ## The regions -/

/-- Region 0 changes the projected item rows only: both its input arrays are as entered. -/
theorem W2_keep (c : Dev nD) (b : Ref sig .tc) (hb : b ∉ ([main_v1] : List (Ref sig .tc))) :
    W2 m c (Proc.devRef .tc b) = W1 m c (Proc.devRef .tc b) := by
  by_cases h : ∀ w, Pipeline.arrRef spec0 w ≠ b
  · exact W2_of_ne m c b h
  · obtain ⟨w, hw⟩ := not_forall.mp h
    have e : Pipeline.arrRef spec0 w = b := not_not.mp hw
    subst e
    refine (W2_arr m c w).trans ?_
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, hb => exact absurd (List.mem_singleton.mpr rfl) hb

/-- Region 1 changes the projected user rows only. -/
theorem W4_keep (c : Dev nD) (b : Ref sig .tc) (hb : b ∉ ([main_v3] : List (Ref sig .tc))) :
    W4 m c (Proc.devRef .tc b) = W3 m c (Proc.devRef .tc b) := by
  by_cases h : ∀ w, Pipeline.arrRef spec1 w ≠ b
  · exact W4_of_ne m c b h
  · obtain ⟨w, hw⟩ := not_forall.mp h
    have e : Pipeline.arrRef spec1 w = b := not_not.mp hw
    subst e
    refine (W4_arr m c w).trans ?_
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, hb => exact absurd (List.mem_singleton.mpr rfl) hb

/-- Region 2 changes the new user rows and the users' statistics only: its five input arrays are as entered. -/
theorem W6_keep (c : Dev nD) (b : Ref sig .tc) (hb : b ∉ ([main_v40_0, main_v40_1] : List (Ref sig .tc))) :
    W6 m c (Proc.devRef .tc b) = W5 m c (Proc.devRef .tc b) := by
  by_cases h : ∀ w, Pipeline.arrRef spec2 w ≠ b
  · exact W6_of_ne m c b h
  · obtain ⟨w, hw⟩ := not_forall.mp h
    have e : Pipeline.arrRef spec2 w = b := not_not.mp hw
    subst e
    refine (W6_arr m c w).trans ?_
    match w, hb with
    | ⟨0, _⟩, _ => dsimp only [fin2]; exact ((dat2 (V5 m) c).arrAt_in 0 rfl _).trans (A_eq2 (V5 m) c 0)
    | ⟨1, _⟩, _ => dsimp only [fin2]; exact ((dat2 (V5 m) c).arrAt_in 1 rfl _).trans (A_eq2 (V5 m) c 1)
    | ⟨2, _⟩, _ => dsimp only [fin2]; exact ((dat2 (V5 m) c).arrAt_in 2 rfl _).trans (A_eq2 (V5 m) c 2)
    | ⟨3, _⟩, _ => dsimp only [fin2]; exact ((dat2 (V5 m) c).arrAt_in 3 rfl _).trans (A_eq2 (V5 m) c 3)
    | ⟨4, _⟩, _ => dsimp only [fin2]; exact ((dat2 (V5 m) c).arrAt_in 4 rfl _).trans (A_eq2 (V5 m) c 4)
    | ⟨5, _⟩, hb => exact absurd (List.mem_cons_self) hb
    | ⟨6, _⟩, hb => exact absurd (List.mem_cons_of_mem _ List.mem_cons_self) hb

/-- Region 3 changes the new item rows and the items' statistics only. -/
theorem W8_keep (c : Dev nD) (b : Ref sig .tc) (hb : b ∉ ([main_v43_0, main_v43_1] : List (Ref sig .tc))) :
    W8 m c (Proc.devRef .tc b) = W7 m c (Proc.devRef .tc b) := by
  by_cases h : ∀ w, Pipeline.arrRef spec3 w ≠ b
  · exact W8_of_ne m c b h
  · obtain ⟨w, hw⟩ := not_forall.mp h
    have e : Pipeline.arrRef spec3 w = b := not_not.mp hw
    subst e
    refine (W8_arr m c w).trans ?_
    match w, hb with
    | ⟨0, _⟩, _ => dsimp only [fin3]; exact ((dat3 (V7 m) c).arrAt_in 0 rfl _).trans (A_eq3 (V7 m) c 0)
    | ⟨1, _⟩, _ => dsimp only [fin3]; exact ((dat3 (V7 m) c).arrAt_in 1 rfl _).trans (A_eq3 (V7 m) c 1)
    | ⟨2, _⟩, _ => dsimp only [fin3]; exact ((dat3 (V7 m) c).arrAt_in 2 rfl _).trans (A_eq3 (V7 m) c 2)
    | ⟨3, _⟩, _ => dsimp only [fin3]; exact ((dat3 (V7 m) c).arrAt_in 3 rfl _).trans (A_eq3 (V7 m) c 3)
    | ⟨4, _⟩, _ => dsimp only [fin3]; exact ((dat3 (V7 m) c).arrAt_in 4 rfl _).trans (A_eq3 (V7 m) c 4)
    | ⟨5, _⟩, hb => exact absurd (List.mem_cons_self) hb
    | ⟨6, _⟩, hb => exact absurd (List.mem_cons_of_mem _ List.mem_cons_self) hb

/-! ## From each boundary back to the launch -/

section Launch
variable (c : Dev nD) (b : Ref sig .tc)
  (h0 : b ∉ hostOps0_W) (h1 : b ∉ ([main_v1] : List (Ref sig .tc)))
  (h2 : b ∉ hostOps1_W) (h3 : b ∉ ([main_v3] : List (Ref sig .tc)))
  (h4 : b ∉ hostOps2_W) (h5 : b ∉ ([main_v40_0, main_v40_1] : List (Ref sig .tc)))
  (h6 : b ∉ hostOps3_W) (h7 : b ∉ ([main_v43_0, main_v43_1] : List (Ref sig .tc)))
  (h8 : b ∉ hostOps4_W)
include h0 in
theorem W1_launch : W1 m c b = m ((c.tc : Thread nD τ).loc b) := W1_keep m c b h0
include h0 h1 in
theorem W2_launch : W2 m c b = m ((c.tc : Thread nD τ).loc b) := (W2_keep m c b h1).trans (W1_launch m c b h0)
include h0 h1 h2 in
theorem W3_launch : W3 m c b = m ((c.tc : Thread nD τ).loc b) := (W3_keep m c b h2).trans (W2_launch m c b h0 h1)
include h0 h1 h2 h3 in
theorem W4_launch : W4 m c b = m ((c.tc : Thread nD τ).loc b) := (W4_keep m c b h3).trans (W3_launch m c b h0 h1 h2)
include h0 h1 h2 h3 h4 in
theorem W5_launch : W5 m c b = m ((c.tc : Thread nD τ).loc b) := (W5_keep m c b h4).trans (W4_launch m c b h0 h1 h2 h3)
include h0 h1 h2 h3 h4 h5 in
theorem W6_launch : W6 m c b = m ((c.tc : Thread nD τ).loc b) := (W6_keep m c b h5).trans (W5_launch m c b h0 h1 h2 h3 h4)
include h0 h1 h2 h3 h4 h5 h6 in
theorem W7_launch : W7 m c b = m ((c.tc : Thread nD τ).loc b) :=
  (W7_keep m c b h6).trans (W6_launch m c b h0 h1 h2 h3 h4 h5)
include h0 h1 h2 h3 h4 h5 h6 h7 in
theorem W8_launch : W8 m c b = m ((c.tc : Thread nD τ).loc b) :=
  (W8_keep m c b h7).trans (W7_launch m c b h0 h1 h2 h3 h4 h5 h6)
include h0 h1 h2 h3 h4 h5 h6 h7 h8 in
/-- A buffer that no stretch writes and that is no output array of a region ends as launched. -/
theorem W9_keep : W9 m c b = m ((c.tc : Thread nD τ).loc b) :=
  (W9_keep_step m c b h8).trans (W8_launch m c b h0 h1 h2 h3 h4 h5 h6 h7)
end Launch

end Cert.Kernel.Hand
end
-- ==== Proof.RefValue.lean ====
import proofs.«427575_j39067022524700_2_alg».proof.Proof.Gen.ReferenceIdeal.Run
import Idealize.ShloMosaic.Lib.StableHlo.Run

noncomputable section

/-! # The reference's three results as functions of explicit arrays

The reference updates two embedding tables from each other through a weighted bipartite graph given as edge lists.
For the 500000-row table: project the rows by a transposed weight and add a bias (`projU`); project the other table's
rows, gather them along one end of the edges, weigh each by its edge value and add them up at the other end of the
edges (`spmmU`); add the two, clamp below at zero, and keep only the rows at which the edge values add up to more than
zero (`degU` is that indicator, `deltaU` the masked update); the result is the table plus the update (`out0`). The
300000-row table is treated the same way with the roles exchanged (`projI`, `spmmI`, `degI`, `deltaI`, `out1`). The
scalar result is the sum of squares of each update divided by the number of rows kept, the two quotients added
(`out2`). Each definition is the composed term of the program's operations with the argument arrays as variables. -/

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The 500000-row side -/

/-- The rows projected by the transposed weight, plus the bias on every row. -/
def projU (a0 : (⟨S500000x64, .f32⟩ : BufTy).Contents (Elt F)) (a8 : (⟨S64x64, .f32⟩ : BufTy).Contents (Elt F)) (a9 : (⟨S64, .f32⟩ : BufTy).Contents (Elt F)) : (⟨S500000x64, .f32⟩ : BufTy).Contents (Elt F) :=
  addf (Host.dotGeneral dot_S500000x64_S64x64_S500000x64_1_0_0_1_n_n none a0 (transpose S64x64 [1, 0] a8 transposes_S64x64_S64x64_1_0)) (broadcastInDim S500000x64 ![0, 1] bcast_S1x64_S500000x64_0_1 (broadcastInDim S1x64 ![1] bcast_S64_S1x64_1 a9))

/-- The other table's projected rows gathered along the edges' far ends (a negative end counted from the table's
    end), each weighed by its edge's value, added up at the edges' near ends. -/
def spmmU (a1 : (⟨S300000x64, .f32⟩ : BufTy).Contents (Elt F)) (a2 : (⟨S1000000, .i32⟩ : BufTy).Contents (Elt F)) (a3 : (⟨S1000000, .i32⟩ : BufTy).Contents (Elt F)) (a4 : (⟨S1000000, .f32⟩ : BufTy).Contents (Elt F)) (a13 : (⟨S64x64, .f32⟩ : BufTy).Contents (Elt F)) : (⟨S500000x64, .f32⟩ : BufTy).Contents (Elt F) :=
  Host.scatterAdd scatter_S500000x64_S1000000x1_S1000000x64_1_0_0_1 (broadcastInDim S500000x64 ![] bcast_S_S500000x64 (constant S_ .f32 0x00000000#32)) (broadcastInDim S1000000x1 ![0] bcast_S1000000_S1000000x1_0 a2) (mulf (broadcastInDim S1000000x64 ![0, 1] bcast_S1000000x1_S1000000x64_0_1 (broadcastInDim S1000000x1 ![0] bcast_S1000000_S1000000x1_0 a4)) (Host.gather gather_S300000x64_S1000000x1_S1000000x64_1_0_n_n_0_1_164 (Host.dotGeneral dot_S300000x64_S64x64_S300000x64_1_0_0_1_n_n none a1 (transpose S64x64 [1, 0] a13 transposes_S64x64_S64x64_1_0)) (broadcastInDim S1000000x1 ![0] bcast_S1000000_S1000000x1_0 (select (cmpi .slt a3 (broadcastInDim S1000000 ![] bcast_S_S1000000 (constantI S_ 32 0#32))) (addi a3 (broadcastInDim S1000000 ![] bcast_S_S1000000 (constantI S_ 32 300000#32))) a3))))

/-- One where the edge values at a row add up to more than zero, zero elsewhere. -/
def degU (a2 : (⟨S1000000, .i32⟩ : BufTy).Contents (Elt F)) (a4 : (⟨S1000000, .f32⟩ : BufTy).Contents (Elt F)) : (⟨S500000, .f32⟩ : BufTy).Contents (Elt F) :=
  uitofp .f32 (cmpf .ogt (Host.scatterAdd scatter_S500000_S1000000x1_S1000000_n_0_0_1 (broadcastInDim S500000 ![] bcast_S_S500000 (constant S_ .f32 0x00000000#32)) (broadcastInDim S1000000x1 ![0] bcast_S1000000_S1000000x1_0 a2) a4) (broadcastInDim S500000 ![] bcast_S_S500000 (constant S_ .f32 0x00000000#32)))

/-- The update of the 500000-row table: the two contributions added, clamped below at zero, masked by `degU`. -/
def deltaU (a0 : (⟨S500000x64, .f32⟩ : BufTy).Contents (Elt F)) (a1 : (⟨S300000x64, .f32⟩ : BufTy).Contents (Elt F)) (a2 : (⟨S1000000, .i32⟩ : BufTy).Contents (Elt F)) (a3 : (⟨S1000000, .i32⟩ : BufTy).Contents (Elt F)) (a4 : (⟨S1000000, .f32⟩ : BufTy).Contents (Elt F)) (a8 : (⟨S64x64, .f32⟩ : BufTy).Contents (Elt F)) (a9 : (⟨S64, .f32⟩ : BufTy).Contents (Elt F)) (a13 : (⟨S64x64, .f32⟩ : BufTy).Contents (Elt F)) : (⟨S500000x64, .f32⟩ : BufTy).Contents (Elt F) :=
  mulf (maximumf (addf (projU a0 a8 a9) (spmmU a1 a2 a3 a4 a13)) (broadcastInDim S500000x64 ![] bcast_S_S500000x64 (constant S_ .f32 0x00000000#32))) (broadcastInDim S500000x64 ![0, 1] bcast_S500000x1_S500000x64_0_1 (broadcastInDim S500000x1 ![0] bcast_S500000_S500000x1_0 (degU a2 a4)))

/-! ## The 300000-row side -/

/-- The rows projected by the transposed weight, plus the bias on every row. -/
def projI (a1 : (⟨S300000x64, .f32⟩ : BufTy).Contents (Elt F)) (a10 : (⟨S64x64, .f32⟩ : BufTy).Contents (Elt F)) (a11 : (⟨S64, .f32⟩ : BufTy).Contents (Elt F)) : (⟨S300000x64, .f32⟩ : BufTy).Contents (Elt F) :=
  addf (Host.dotGeneral dot_S300000x64_S64x64_S300000x64_1_0_0_1_n_n none a1 (transpose S64x64 [1, 0] a10 transposes_S64x64_S64x64_1_0)) (broadcastInDim S300000x64 ![0, 1] bcast_S1x64_S300000x64_0_1 (broadcastInDim S1x64 ![1] bcast_S64_S1x64_1 a11))

/-- The other table's projected rows gathered along the edges' far ends (a negative end counted from the table's
    end), each weighed by its edge's value, added up at the edges' near ends. -/
def spmmI (a0 : (⟨S500000x64, .f32⟩ : BufTy).Contents (Elt F)) (a5 : (⟨S1000000, .i32⟩ : BufTy).Contents (Elt F)) (a6 : (⟨S1000000, .i32⟩ : BufTy).Contents (Elt F)) (a7 : (⟨S1000000, .f32⟩ : BufTy).Contents (Elt F)) (a12 : (⟨S64x64, .f32⟩ : BufTy).Contents (Elt F)) : (⟨S300000x64, .f32⟩ : BufTy).Contents (Elt F) :=
  Host.scatterAdd scatter_S300000x64_S1000000x1_S1000000x64_1_0_0_1 (broadcastInDim S300000x64 ![] bcast_S_S300000x64 (constant S_ .f32 0x00000000#32)) (broadcastInDim S1000000x1 ![0] bcast_S1000000_S1000000x1_0 a5) (mulf (broadcastInDim S1000000x64 ![0, 1] bcast_S1000000x1_S1000000x64_0_1 (broadcastInDim S1000000x1 ![0] bcast_S1000000_S1000000x1_0 a7)) (Host.gather gather_S500000x64_S1000000x1_S1000000x64_1_0_n_n_0_1_164 (Host.dotGeneral dot_S500000x64_S64x64_S500000x64_1_0_0_1_n_n none a0 (transpose S64x64 [1, 0] a12 transposes_S64x64_S64x64_1_0)) (broadcastInDim S1000000x1 ![0] bcast_S1000000_S1000000x1_0 (select (cmpi .slt a6 (broadcastInDim S1000000 ![] bcast_S_S1000000 (constantI S_ 32 0#32))) (addi a6 (broadcastInDim S1000000 ![] bcast_S_S1000000 (constantI S_ 32 500000#32))) a6))))

/-- One where the edge values at a row add up to more than zero, zero elsewhere. -/
def degI (a5 : (⟨S1000000, .i32⟩ : BufTy).Contents (Elt F)) (a7 : (⟨S1000000, .f32⟩ : BufTy).Contents (Elt F)) : (⟨S300000, .f32⟩ : BufTy).Contents (Elt F) :=
  uitofp .f32 (cmpf .ogt (Host.scatterAdd scatter_S300000_S1000000x1_S1000000_n_0_0_1 (broadcastInDim S300000 ![] bcast_S_S300000 (constant S_ .f32 0x00000000#32)) (broadcastInDim S1000000x1 ![0] bcast_S1000000_S1000000x1_0 a5) a7) (broadcastInDim S300000 ![] bcast_S_S300000 (constant S_ .f32 0x00000000#32)))

/-- The update of the 300000-row table: the two contributions added, clamped below at zero, masked by `degI`. -/
def deltaI (a0 : (⟨S500000x64, .f32⟩ : BufTy).Contents (Elt F)) (a1 : (⟨S300000x64, .f32⟩ : BufTy).Contents (Elt F)) (a5 : (⟨S1000000, .i32⟩ : BufTy).Contents (Elt F)) (a6 : (⟨S1000000, .i32⟩ : BufTy).Contents (Elt F)) (a7 : (⟨S1000000, .f32⟩ : BufTy).Contents (Elt F)) (a10 : (⟨S64x64, .f32⟩ : BufTy).Contents (Elt F)) (a11 : (⟨S64, .f32⟩ : BufTy).Contents (Elt F)) (a12 : (⟨S64x64, .f32⟩ : BufTy).Contents (Elt F)) : (⟨S300000x64, .f32⟩ : BufTy).Contents (Elt F) :=
  mulf (maximumf (addf (projI a1 a10 a11) (spmmI a0 a5 a6 a7 a12)) (broadcastInDim S300000x64 ![] bcast_S_S300000x64 (constant S_ .f32 0x00000000#32))) (broadcastInDim S300000x64 ![0, 1] bcast_S300000x1_S300000x64_0_1 (broadcastInDim S300000x1 ![0] bcast_S300000_S300000x1_0 (degI a5 a7)))

/-! ## The three results -/

/-- The first result: the 500000-row table plus its update. -/
def out0 (a0 : (⟨S500000x64, .f32⟩ : BufTy).Contents (Elt F)) (a1 : (⟨S300000x64, .f32⟩ : BufTy).Contents (Elt F)) (a2 : (⟨S1000000, .i32⟩ : BufTy).Contents (Elt F)) (a3 : (⟨S1000000, .i32⟩ : BufTy).Contents (Elt F)) (a4 : (⟨S1000000, .f32⟩ : BufTy).Contents (Elt F)) (a5 : (⟨S1000000, .i32⟩ : BufTy).Contents (Elt F)) (a6 : (⟨S1000000, .i32⟩ : BufTy).Contents (Elt F)) (a7 : (⟨S1000000, .f32⟩ : BufTy).Contents (Elt F)) (a8 : (⟨S64x64, .f32⟩ : BufTy).Contents (Elt F)) (a9 : (⟨S64, .f32⟩ : BufTy).Contents (Elt F)) (a10 : (⟨S64x64, .f32⟩ : BufTy).Contents (Elt F)) (a11 : (⟨S64, .f32⟩ : BufTy).Contents (Elt F)) (a12 : (⟨S64x64, .f32⟩ : BufTy).Contents (Elt F)) (a13 : (⟨S64x64, .f32⟩ : BufTy).Contents (Elt F)) : (⟨S500000x64, .f32⟩ : BufTy).Contents (Elt F) :=
  addf a0 (deltaU a0 a1 a2 a3 a4 a8 a9 a13)

/-- The second result: the 300000-row table plus its update. -/
def out1 (a0 : (⟨S500000x64, .f32⟩ : BufTy).Contents (Elt F)) (a1 : (⟨S300000x64, .f32⟩ : BufTy).Contents (Elt F)) (a2 : (⟨S1000000, .i32⟩ : BufTy).Contents (Elt F)) (a3 : (⟨S1000000, .i32⟩ : BufTy).Contents (Elt F)) (a4 : (⟨S1000000, .f32⟩ : BufTy).Contents (Elt F)) (a5 : (⟨S1000000, .i32⟩ : BufTy).Contents (Elt F)) (a6 : (⟨S1000000, .i32⟩ : BufTy).Contents (Elt F)) (a7 : (⟨S1000000, .f32⟩ : BufTy).Contents (Elt F)) (a8 : (⟨S64x64, .f32⟩ : BufTy).Contents (Elt F)) (a9 : (⟨S64, .f32⟩ : BufTy).Contents (Elt F)) (a10 : (⟨S64x64, .f32⟩ : BufTy).Contents (Elt F)) (a11 : (⟨S64, .f32⟩ : BufTy).Contents (Elt F)) (a12 : (⟨S64x64, .f32⟩ : BufTy).Contents (Elt F)) (a13 : (⟨S64x64, .f32⟩ : BufTy).Contents (Elt F)) : (⟨S300000x64, .f32⟩ : BufTy).Contents (Elt F) :=
  addf a1 (deltaI a0 a1 a5 a6 a7 a10 a11 a12)

/-- The third result: each update's sum of squares over the number of rows kept, the two quotients added. -/
def out2 (a0 : (⟨S500000x64, .f32⟩ : BufTy).Contents (Elt F)) (a1 : (⟨S300000x64, .f32⟩ : BufTy).Contents (Elt F)) (a2 : (⟨S1000000, .i32⟩ : BufTy).Contents (Elt F)) (a3 : (⟨S1000000, .i32⟩ : BufTy).Contents (Elt F)) (a4 : (⟨S1000000, .f32⟩ : BufTy).Contents (Elt F)) (a5 : (⟨S1000000, .i32⟩ : BufTy).Contents (Elt F)) (a6 : (⟨S1000000, .i32⟩ : BufTy).Contents (Elt F)) (a7 : (⟨S1000000, .f32⟩ : BufTy).Contents (Elt F)) (a8 : (⟨S64x64, .f32⟩ : BufTy).Contents (Elt F)) (a9 : (⟨S64, .f32⟩ : BufTy).Contents (Elt F)) (a10 : (⟨S64x64, .f32⟩ : BufTy).Contents (Elt F)) (a11 : (⟨S64, .f32⟩ : BufTy).Contents (Elt F)) (a12 : (⟨S64x64, .f32⟩ : BufTy).Contents (Elt F)) (a13 : (⟨S64x64, .f32⟩ : BufTy).Contents (Elt F)) : (⟨S_, .f32⟩ : BufTy).Contents (Elt F) :=
  addf (Host.divf (Host.reduceAdd (mulf (deltaU a0 a1 a2 a3 a4 a8 a9 a13) (deltaU a0 a1 a2 a3 a4 a8 a9 a13)) (constant S_ .f32 0x00000000#32) reducesTo_S500000x64_S_d0_1 h_S_) (Host.reduceAdd (degU a2 a4) (constant S_ .f32 0x00000000#32) reducesTo_S500000_S_d0 h_S_)) (Host.divf (Host.reduceAdd (mulf (deltaI a0 a1 a5 a6 a7 a10 a11 a12) (deltaI a0 a1 a5 a6 a7 a10 a11 a12)) (constant S_ .f32 0x00000000#32) reducesTo_S300000x64_S_d0_1 h_S_) (Host.reduceAdd (degI a5 a7) (constant S_ .f32 0x00000000#32) reducesTo_S300000_S_d0 h_S_))

/-! ## The run, restated over them -/

/-- The reference's run with its three results as `out0`, `out1`, `out2` of the launch contents of the fourteen
    arguments, which end unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v63) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (by unfold out0 deltaU projU spmmU degU; rfl),
      (h c).2.1.trans (by unfold out1 deltaI projI spmmI degI; rfl),
      (h c).2.2.1.trans (by unfold Cert.ReferenceIdeal.Value.res_main_v72 out2 deltaU projU spmmU degU deltaI projI spmmI degI; rfl),
      (h c).2.2.2⟩)
    (Cert.ReferenceIdeal.Value.run m ρ)

/-- The same run with the three results dropped: the fourteen arguments end unchanged. -/
theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => (h c).2.2.2) (Cert.ReferenceIdeal.Value.run m ρ)

end Cert.ReferenceIdeal.RefValue

end
-- ==== Proof.HostStages.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Gen.KernelIdeal.Regions
import proofs.«427575_j39067022524700_2_alg».proof.Proof.Lin
import proofs.«427575_j39067022524700_2_alg».proof.Proof.Comb2Arr
import proofs.«427575_j39067022524700_2_alg».proof.Proof.Comb3Arr
import proofs.«427575_j39067022524700_2_alg».proof.Proof.Fold
import proofs.«427575_j39067022524700_2_alg».proof.Proof.Keep
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # What the host stretches compute

Each region's operands, and the program's results, as terms of the launch contents and of what the earlier regions
left. A stretch's value at a buffer is its operations composed; every argument it reads is still as launched, since no
stretch writes an argument and a region reads its arguments through input windows only. -/

/-! ## The first two stretches: the transposed cross weights -/

theorem V1_v0 (c : Dev nD) :
    V1 m c main_v0 = transpose S64x64 [1, 0] (m ((c.tc : Thread nD τ).loc main_arg13)) transposes_S64x64_S64x64_1_0 := by
  show StableHlo.after hostOps0 (W0 m c) (Proc.devRef .tc main_v0) = _
  after_results
theorem V1_arg1 (c : Dev nD) : V1 m c main_arg1 = (m ((c.tc : Thread nD τ).loc main_arg1)) :=
  W1_launch m c main_arg1 (by decide)
theorem V3_v2 (c : Dev nD) :
    V3 m c main_v2 = transpose S64x64 [1, 0] (m ((c.tc : Thread nD τ).loc main_arg12)) transposes_S64x64_S64x64_1_0 := by
  show StableHlo.after hostOps1 (W2 m c) (Proc.devRef .tc main_v2) = _
  after_results
  rw [W2_launch m c main_arg12 (by decide) (by decide)]
theorem V3_arg0 (c : Dev nD) : V3 m c main_arg0 = (m ((c.tc : Thread nD τ).loc main_arg0)) :=
  W3_launch m c main_arg0 (by decide) (by decide) (by decide)

/-! ## What regions 0 and 1 left, as the third stretch finds it -/

theorem V4_v1 (c : Dev nD) : V4 m c main_v1 = (dat0 (V1 m) c).arrAt 2 cfg0.N :=
  ((W4_keep m c main_v1 (by decide)).trans (W3_keep m c main_v1 (by decide))).trans (W2_arr m c 2)
theorem V4_v3 (c : Dev nD) : V4 m c main_v3 = (dat1 (V3 m) c).arrAt 2 cfg1.N :=
  W4_arr m c 2

/-! ## The third stretch: region 2's operands

The propagated sum over the projected item rows, the users' degree column, the users' self weight transposed and bias
row. -/

theorem V5_arg0 (c : Dev nD) : V5 m c main_arg0 = (m ((c.tc : Thread nD τ).loc main_arg0)) :=
  W5_launch m c main_arg0 (by decide) (by decide) (by decide) (by decide) (by decide)
theorem V5_v38 (c : Dev nD) :
    V5 m c main_v38 = transpose S64x64 [1, 0] (m ((c.tc : Thread nD τ).loc main_arg8)) transposes_S64x64_S64x64_1_0 := by
  show StableHlo.after hostOps2 (W4 m c) (Proc.devRef .tc main_v38) = _
  after_results_simp
  rw [W4_launch m c main_arg8 (by decide) (by decide) (by decide) (by decide)]
theorem V5_v39 (c : Dev nD) :
    V5 m c main_v39 = shapeCast S1x64 (m ((c.tc : Thread nD τ).loc main_arg9)) shapeCasts_S64_S1x64 := by
  show StableHlo.after hostOps2 (W4 m c) (Proc.devRef .tc main_v39) = _
  after_results_simp
  rw [W4_launch m c main_arg9 (by decide) (by decide) (by decide) (by decide)]
  rfl
theorem V5_v16 (c : Dev nD) :
    V5 m c main_v16 = Host.scatterAdd scatter_S500000x64_S1000000x1_S1000000x64_1_0_0_1 (broadcastInDim S500000x64 ![] bcast_S_S500000x64 (constant (F := F) S_ .f32 0x00000000#32)) (broadcastInDim S1000000x1 ![0] bcast_S1000000_S1000000x1_0 (m ((c.tc : Thread nD τ).loc main_arg2))) (mulf (broadcastInDim S1000000x64 ![0, 1] bcast_S1000000x1_S1000000x64_0_1 (broadcastInDim S1000000x1 ![0] bcast_S1000000_S1000000x1_0 (m ((c.tc : Thread nD τ).loc main_arg4)))) (Host.gather gather_S300000x64_S1000000x1_S1000000x64_1_0_n_n_0_1_164 (V4 m c main_v1) (broadcastInDim S1000000x1 ![0] bcast_S1000000_S1000000x1_0 (select (cmpi .slt (m ((c.tc : Thread nD τ).loc main_arg3)) (broadcastInDim S1000000 ![] bcast_S_S1000000 (constantI S_ 32 0#32))) (addi (m ((c.tc : Thread nD τ).loc main_arg3)) (broadcastInDim S1000000 ![] bcast_S_S1000000 (constantI S_ 32 300000#32))) (m ((c.tc : Thread nD τ).loc main_arg3)))))) := by
  show StableHlo.after hostOps2 (W4 m c) (Proc.devRef .tc main_v16) = _
  after_results_simp
  rw [W4_launch m c main_arg2 (by decide) (by decide) (by decide) (by decide), W4_launch m c main_arg3 (by decide) (by decide) (by decide) (by decide), W4_launch m c main_arg4 (by decide) (by decide) (by decide) (by decide)]
theorem V5_v20 (c : Dev nD) :
    V5 m c main_v20 = shapeCast S500000x1 (Host.scatterAdd scatter_S500000_S1000000x1_S1000000_n_0_0_1 (broadcastInDim S500000 ![] bcast_S_S500000 (constant (F := F) S_ .f32 0x00000000#32)) (broadcastInDim S1000000x1 ![0] bcast_S1000000_S1000000x1_0 (m ((c.tc : Thread nD τ).loc main_arg2))) (m ((c.tc : Thread nD τ).loc main_arg4))) shapeCasts_S500000_S500000x1 := by
  show StableHlo.after hostOps2 (W4 m c) (Proc.devRef .tc main_v20) = _
  after_results_simp
  rw [W4_launch m c main_arg2 (by decide) (by decide) (by decide) (by decide), W4_launch m c main_arg4 (by decide) (by decide) (by decide) (by decide)]
  rfl

/-! ## Region 3's operands

The propagated sum over the projected user rows and the items' degree column are computed in the third stretch and kept
through region 2 and the fourth stretch, which adds the items' self weight transposed and bias row. -/

/-- A buffer of the third stretch that region 2 and the fourth stretch leave alone. -/
theorem V7_of_V5 (c : Dev nD) (b : Ref sig .tc) (h5 : b ∉ ([main_v40_0, main_v40_1] : List (Ref sig .tc)))
    (h6 : b ∉ hostOps3_W) : V7 m c b = V5 m c b :=
  (W7_keep m c b h6).trans (W6_keep m c b h5)

theorem V7_arg1 (c : Dev nD) : V7 m c main_arg1 = (m ((c.tc : Thread nD τ).loc main_arg1)) :=
  W7_launch m c main_arg1 (by decide) (by decide) (by decide) (by decide) (by decide) (by decide) (by decide)
theorem V7_v41 (c : Dev nD) :
    V7 m c main_v41 = transpose S64x64 [1, 0] (m ((c.tc : Thread nD τ).loc main_arg10)) transposes_S64x64_S64x64_1_0 := by
  show StableHlo.after hostOps3 (W6 m c) (Proc.devRef .tc main_v41) = _
  after_results
  rw [W6_launch m c main_arg10 (by decide) (by decide) (by decide) (by decide) (by decide) (by decide)]
theorem V7_v42 (c : Dev nD) :
    V7 m c main_v42 = shapeCast S1x64 (m ((c.tc : Thread nD τ).loc main_arg11)) shapeCasts_S64_S1x64 := by
  show StableHlo.after hostOps3 (W6 m c) (Proc.devRef .tc main_v42) = _
  after_results
  rw [W6_launch m c main_arg11 (by decide) (by decide) (by decide) (by decide) (by decide) (by decide)]
  rfl
theorem V7_v33 (c : Dev nD) :
    V7 m c main_v33 = Host.scatterAdd scatter_S300000x64_S1000000x1_S1000000x64_1_0_0_1 (broadcastInDim S300000x64 ![] bcast_S_S300000x64 (constant (F := F) S_ .f32 0x00000000#32)) (broadcastInDim S1000000x1 ![0] bcast_S1000000_S1000000x1_0 (m ((c.tc : Thread nD τ).loc main_arg5))) (mulf (broadcastInDim S1000000x64 ![0, 1] bcast_S1000000x1_S1000000x64_0_1 (broadcastInDim S1000000x1 ![0] bcast_S1000000_S1000000x1_0 (m ((c.tc : Thread nD τ).loc main_arg7)))) (Host.gather gather_S500000x64_S1000000x1_S1000000x64_1_0_n_n_0_1_164 (V4 m c main_v3) (broadcastInDim S1000000x1 ![0] bcast_S1000000_S1000000x1_0 (select (cmpi .slt (m ((c.tc : Thread nD τ).loc main_arg6)) (broadcastInDim S1000000 ![] bcast_S_S1000000 (constantI S_ 32 0#32))) (addi (m ((c.tc : Thread nD τ).loc main_arg6)) (broadcastInDim S1000000 ![] bcast_S_S1000000 (constantI S_ 32 500000#32))) (m ((c.tc : Thread nD τ).loc main_arg6)))))) := by
  rw [V7_of_V5 m c main_v33 (by decide) (by decide)]
  show StableHlo.after hostOps2 (W4 m c) (Proc.devRef .tc main_v33) = _
  after_results_simp
  rw [W4_launch m c main_arg5 (by decide) (by decide) (by decide) (by decide), W4_launch m c main_arg6 (by decide) (by decide) (by decide) (by decide), W4_launch m c main_arg7 (by decide) (by decide) (by decide) (by decide)]
theorem V7_v37 (c : Dev nD) :
    V7 m c main_v37 = shapeCast S300000x1 (Host.scatterAdd scatter_S300000_S1000000x1_S1000000_n_0_0_1 (broadcastInDim S300000 ![] bcast_S_S300000 (constant (F := F) S_ .f32 0x00000000#32)) (broadcastInDim S1000000x1 ![0] bcast_S1000000_S1000000x1_0 (m ((c.tc : Thread nD τ).loc main_arg5))) (m ((c.tc : Thread nD τ).loc main_arg7))) shapeCasts_S300000_S300000x1 := by
  rw [V7_of_V5 m c main_v37 (by decide) (by decide)]
  show StableHlo.after hostOps2 (W4 m c) (Proc.devRef .tc main_v37) = _
  after_results_simp
  rw [W4_launch m c main_arg5 (by decide) (by decide) (by decide) (by decide), W4_launch m c main_arg7 (by decide) (by decide) (by decide) (by decide)]
  rfl

/-! ## The results -/

theorem W9_v40_0 (c : Dev nD) : W9 m c main_v40_0 = fin2 (V5 m) c 5 :=
  ((W9_keep_step m c main_v40_0 (by decide)).trans ((W8_keep m c main_v40_0 (by decide)).trans
    (W7_keep m c main_v40_0 (by decide)))).trans (W6_arr m c 5)
theorem W9_v43_0 (c : Dev nD) : W9 m c main_v43_0 = fin3 (V7 m) c 5 :=
  (W9_keep_step m c main_v43_0 (by decide)).trans (W8_arr m c 5)
theorem W8_v40_1 (c : Dev nD) : W8 m c main_v40_1 = fin2 (V5 m) c 6 :=
  ((W8_keep m c main_v40_1 (by decide)).trans (W7_keep m c main_v40_1 (by decide))).trans (W6_arr m c 6)
theorem W8_v43_1 (c : Dev nD) : W8 m c main_v43_1 = fin3 (V7 m) c 6 :=
  W8_arr m c 6

/-- The last stretch: each statistics array's two columns summed over the blocks, the two quotients, their sum. -/
theorem W9_v58 (c : Dev nD) :
    W9 m c main_v58 = addf (Host.divf (Host.reduceAdd (shapeCast S25 (extractStridedSlice S25x1 ![0, 0] (W8 m c main_v40_1) slices_S25x2_S25x1_0_0) shapeCasts_S25x1_S25) (constant (F := F) S_ .f32 0x00000000#32) reducesTo_S25_S_d0 h_S_) (Host.reduceAdd (shapeCast S25 (extractStridedSlice S25x1 ![0, 1] (W8 m c main_v40_1) slices_S25x2_S25x1_0_1) shapeCasts_S25x1_S25) (constant (F := F) S_ .f32 0x00000000#32) reducesTo_S25_S_d0 h_S_)) (Host.divf (Host.reduceAdd (shapeCast S15 (extractStridedSlice S15x1 ![0, 0] (W8 m c main_v43_1) slices_S15x2_S15x1_0_0) shapeCasts_S15x1_S15) (constant (F := F) S_ .f32 0x00000000#32) reducesTo_S15_S_d0 h_S_) (Host.reduceAdd (shapeCast S15 (extractStridedSlice S15x1 ![0, 1] (W8 m c main_v43_1) slices_S15x2_S15x1_0_1) shapeCasts_S15x1_S15) (constant (F := F) S_ .f32 0x00000000#32) reducesTo_S15_S_d0 h_S_)) := by
  show StableHlo.after hostOps4 (W8 m c) (Proc.devRef .tc main_v58) = _
  after_results_simp
  rfl

end Cert.KernelIdeal.Hand
end
-- ==== Proof.LinValue.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Lin
import proofs.«427575_j39067022524700_2_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

/-! # The two projections, read as whole-array products

Each of the two regions multiplies an array of rows (300000x64, 500000x64) by a 64x64 weight, one block of 20000 rows
per grid point, and writes block `t` of the product back at point `t`. Here: a block's product at an index is the sum
over the 64 contracted coordinates (`pay0_apply`, `pay1_apply`); the whole product as one function of the two arrays,
index by index (`prod0`, `prod1`); the host's one product of the whole arrays is that function (`host0_apply`,
`host1_apply`); block `t` of the rows is rows 20000 t … 20000 t + 19999 of the array and the weight's block is the
weight, so what point `t` writes back is block `t` of the whole product (`flushed0_eq`, `flushed1_eq`); row `r` is
covered by point `r / 20000` (`cover0`, `cover1`); hence the output array after the region is the host's product
(`lin0_value`, `lin1_value`). -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! ## One block's product at an index

The body multiplies a block of 20000 rows by the 64x64 weight block: entry (r, j) of the result is the sum over the
contracted coordinate k of the row block's entry (r, k) times the weight's entry (k, j). -/

/-- The left factor's index for output index `j` and contracted coordinate `k`: row of `j`, column `k`. -/
abbrev lblk (j : S20000x64.Idx) (k : Fin 64) : S20000x64.Idx := fun a => match a with
  | ⟨0, _⟩ => ⟨(j 0).val, (j 0).isLt⟩
  | ⟨1, _⟩ => ⟨k.val, k.isLt⟩
/-- The right factor's index: row `k`, column of `j`. -/
abbrev rblk (j : S20000x64.Idx) (k : Fin 64) : S64x64.Idx := fun a => match a with
  | ⟨0, _⟩ => ⟨k.val, k.isLt⟩
  | ⟨1, _⟩ => ⟨(j 1).val, (j 1).isLt⟩

/-- The left operand's row is the output's row, -/
theorem lhs_blk_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- its column the contracted coordinate; -/
theorem lhs_blk_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- the right operand's row is the contracted coordinate, -/
theorem rhs_blk_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- its column the output's column. -/
theorem rhs_blk_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- The block product into the zero accumulator, at an index: the sum over the 64 contracted coordinates. -/
theorem blockProduct_apply (x : FVec Ideal S20000x64 .f32) (w : FVec Ideal S64x64 .f32) (j : S20000x64.Idx) :
    matmul dot_S20000x64_S64x64_S20000x64_1_0_0_1_n_n (some .fp32) x w (constant (F := Ideal) S20000x64 .f32 0x00000000#32) j
      = ∑ k : Fin 64, x (lblk j k) * w (rblk j k) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx j ((ValueIdx.contrEquiv1 dot_S20000x64_S64x64_S20000x64_1_0_0_1_n_n 64 rfl rfl).symm k) = lblk j k := funext fun a => Fin.ext (by
    match a with
    | ⟨0, _⟩ => exact lhs_blk_0 _ _
    | ⟨1, _⟩ => exact (lhs_blk_1 _ _).trans hk)
  have er : dot_S20000x64_S64x64_S20000x64_1_0_0_1_n_n.rhsIdx j ((ValueIdx.contrEquiv1 dot_S20000x64_S64x64_S20000x64_1_0_0_1_n_n 64 rfl rfl).symm k) = rblk j k := funext fun a => Fin.ext (by
    match a with
    | ⟨0, _⟩ => exact (rhs_blk_0 _ _).trans hk
    | ⟨1, _⟩ => exact rhs_blk_1 _ _)
  rw [el, er]

/-- Region 0's payload at an index. -/
theorem pay0_apply (x : Vec Ideal S20000x64 .f32) (w : Vec Ideal S64x64 .f32) (j : S20000x64.Idx) :
    k0_pay1 (F := Ideal) x w j = ∑ k : Fin 64, x (lblk j k) * w (rblk j k) := by
  unfold k0_pay1
  rw [shapeCast_self]
  exact blockProduct_apply x w j

/-- Region 1's payload at an index. -/
theorem pay1_apply (x : Vec Ideal S20000x64 .f32) (w : Vec Ideal S64x64 .f32) (j : S20000x64.Idx) :
    k1_pay1 (F := Ideal) x w j = ∑ k : Fin 64, x (lblk j k) * w (rblk j k) := by
  unfold k1_pay1
  rw [shapeCast_self]
  exact blockProduct_apply x w j

/-- The offsets of the whole-block rectangles are zero on every axis. -/
theorem linOffs_zero : (![0, 0] : Fin 2 → Nat) = fun _ => 0 := by
  funext a; fin_cases a <;> rfl

/-! ## Region 0: the 300000x64 product, index by index -/

/-- The left factor's index in the whole array for output index `i` and contracted coordinate `k`: row of `i`, column `k`. -/
abbrev lrow0 (i : S300000x64.Idx) (k : Fin 64) : S300000x64.Idx := fun a => match a with
  | ⟨0, _⟩ => ⟨(i 0).val, (i 0).isLt⟩
  | ⟨1, _⟩ => ⟨k.val, k.isLt⟩
/-- The right factor's index: row `k`, column of `i`. -/
abbrev rcol0 (i : S300000x64.Idx) (k : Fin 64) : S64x64.Idx := fun a => match a with
  | ⟨0, _⟩ => ⟨k.val, k.isLt⟩
  | ⟨1, _⟩ => ⟨(i 1).val, (i 1).isLt⟩

/-- The product of a 300000x64 array of rows with a 64x64 weight: entry (r, j) is the sum over k of entry (r, k) of the
    rows times entry (k, j) of the weight. -/
def prod0 (X : Vec Ideal S300000x64 .f32) (W : Vec Ideal S64x64 .f32) : Vec Ideal S300000x64 .f32 :=
  fun i => ∑ k : Fin 64, X (lrow0 i k) * W (rcol0 i k)

theorem prod0_apply (X : Vec Ideal S300000x64 .f32) (W : Vec Ideal S64x64 .f32) (i : S300000x64.Idx) :
    prod0 X W i = ∑ k : Fin 64, X (lrow0 i k) * W (rcol0 i k) := rfl

/-! ### The host's product is that function -/

/-- The left operand's row is the output's row, -/
theorem lhs_host0_0 (i : Cert.ReferenceIdeal.S300000x64.Idx) (q : Cert.ReferenceIdeal.dot_S300000x64_S64x64_S300000x64_1_0_0_1_n_n.contr.Idx) :
    (Cert.ReferenceIdeal.dot_S300000x64_S64x64_S300000x64_1_0_0_1_n_n.lhsIdx i q 0).val = (i 0).val := by
  unfold DotDims.lhsIdx
  rw [dif_neg (show ¬(0 : Fin Cert.ReferenceIdeal.S300000x64.rank) ∈ Cert.ReferenceIdeal.dot_S300000x64_S64x64_S300000x64_1_0_0_1_n_n.lhsBatch by decide), dif_pos (show (0 : Fin Cert.ReferenceIdeal.S300000x64.rank) ∈ Cert.ReferenceIdeal.dot_S300000x64_S64x64_S300000x64_1_0_0_1_n_n.lhsNonContracting by decide)]
  rfl
/-- its column the contracted coordinate; -/
theorem lhs_host0_1 (i : Cert.ReferenceIdeal.S300000x64.Idx) (q : Cert.ReferenceIdeal.dot_S300000x64_S64x64_S300000x64_1_0_0_1_n_n.contr.Idx) :
    (Cert.ReferenceIdeal.dot_S300000x64_S64x64_S300000x64_1_0_0_1_n_n.lhsIdx i q 1).val = (q ⟨0, by decide⟩).val :=
  Cert.ReferenceIdeal.dot_S300000x64_S64x64_S300000x64_1_0_0_1_n_n.lhsIdx_val_of_single rfl i q
/-- the right operand's row is the contracted coordinate, -/
theorem rhs_host0_0 (i : Cert.ReferenceIdeal.S300000x64.Idx) (q : Cert.ReferenceIdeal.dot_S300000x64_S64x64_S300000x64_1_0_0_1_n_n.contr.Idx) :
    (Cert.ReferenceIdeal.dot_S300000x64_S64x64_S300000x64_1_0_0_1_n_n.rhsIdx i q 0).val = (q ⟨0, by decide⟩).val :=
  Cert.ReferenceIdeal.dot_S300000x64_S64x64_S300000x64_1_0_0_1_n_n.rhsIdx_val_of_single rfl i q
/-- its column the output's column. -/
theorem rhs_host0_1 (i : Cert.ReferenceIdeal.S300000x64.Idx) (q : Cert.ReferenceIdeal.dot_S300000x64_S64x64_S300000x64_1_0_0_1_n_n.contr.Idx) :
    (Cert.ReferenceIdeal.dot_S300000x64_S64x64_S300000x64_1_0_0_1_n_n.rhsIdx i q 1).val = (i 1).val := by
  unfold DotDims.rhsIdx
  rw [dif_neg (show ¬(1 : Fin Cert.ReferenceIdeal.S64x64.rank) ∈ Cert.ReferenceIdeal.dot_S300000x64_S64x64_S300000x64_1_0_0_1_n_n.rhsBatch by decide), dif_pos (show (1 : Fin Cert.ReferenceIdeal.S64x64.rank) ∈ Cert.ReferenceIdeal.dot_S300000x64_S64x64_S300000x64_1_0_0_1_n_n.rhsNonContracting by decide)]
  rfl

/-- The host's one product of the whole arrays, at an index: the same sum over the 64 contracted coordinates. -/
theorem host0_apply (X : FVec Ideal Cert.ReferenceIdeal.S300000x64 .f32) (W : FVec Ideal Cert.ReferenceIdeal.S64x64 .f32) (i : S300000x64.Idx) :
    Host.dotGeneral (F := Ideal) Cert.ReferenceIdeal.dot_S300000x64_S64x64_S300000x64_1_0_0_1_n_n none X W i = ∑ k : Fin 64, X (lrow0 i k) * W (rcol0 i k) := by
  simp only [Host.dotGeneral]
  rw [Ideal.dotGeneral_apply, ← Equiv.sum_comp (ValueIdx.contrEquiv1 Cert.ReferenceIdeal.dot_S300000x64_S64x64_S300000x64_1_0_0_1_n_n 64 rfl rfl).symm]
  refine Finset.sum_congr rfl fun k _ => ?_
  have hk := ValueIdx.contrEquiv1_symm_val Cert.ReferenceIdeal.dot_S300000x64_S64x64_S300000x64_1_0_0_1_n_n 64 rfl rfl k
  have el : Cert.ReferenceIdeal.dot_S300000x64_S64x64_S300000x64_1_0_0_1_n_n.lhsIdx i ((ValueIdx.contrEquiv1 Cert.ReferenceIdeal.dot_S300000x64_S64x64_S300000x64_1_0_0_1_n_n 64 rfl rfl).symm k) = lrow0 i k := funext fun a => Fin.ext (by
    match a with
    | ⟨0, _⟩ => exact lhs_host0_0 _ _
    | ⟨1, _⟩ => exact (lhs_host0_1 _ _).trans hk)
  have er : Cert.ReferenceIdeal.dot_S300000x64_S64x64_S300000x64_1_0_0_1_n_n.rhsIdx i ((ValueIdx.contrEquiv1 Cert.ReferenceIdeal.dot_S300000x64_S64x64_S300000x64_1_0_0_1_n_n 64 rfl rfl).symm k) = rcol0 i k := funext fun a => Fin.ext (by
    match a with
    | ⟨0, _⟩ => exact (rhs_host0_0 _ _).trans hk
    | ⟨1, _⟩ => exact rhs_host0_1 _ _)
  rw [el, er]

/-! ### From the blocks to the array -/

section Region0
variable (V : (c : Dev nD) → (b : Ref sig .tc) → Buf (Elt Ideal) ((c : Thread nD τ).loc b))

/-- The array of rows as the region finds it, -/
abbrev rows0 (c : Dev nD) : Vec Ideal S300000x64 .f32 := V c main_arg1
/-- the weight, -/
abbrev wt0 (c : Dev nD) : Vec Ideal S64x64 .f32 := V c main_v0
/-- the block of rows the body reads at point `t`, -/
abbrev rowsBlk0 (c : Dev nD) (t : Fin cfg0.N) : Vec Ideal S20000x64 .f32 := iblk0 V c 0 t
/-- and the weight's block there. -/
abbrev wtBlk0 (c : Dev nD) (t : Fin cfg0.N) : Vec Ideal S64x64 .f32 := iblk0 V c 1 t

/-- The index maps over the grid: the rows' block and the output's block are block `t` of their arrays, the weight's
    the one whole block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the block of rows at point `t` is entry (20000 t + r, k) of the array. -/
theorem rowsBlk0_apply (c : Dev nD) (t : Fin cfg0.N) (x : S20000x64.Idx) (i : S300000x64.Idx)
    (h0 : (i 0).val = 20000 * t.val + (x 0).val) (h1 : (i 1).val = (x 1).val) :
    rowsBlk0 V c t x = rows0 V c i := by
  obtain ⟨e00, e01, -, -, -, -⟩ := idx0 t
  unfold rowsBlk0 iblk0
  rw [View.read_apply]
  show V c main_arg1 _ = V c main_arg1 _
  congr 1
  funext a
  apply Fin.ext
  match a with
  | ⟨0, _⟩ => show win0_0.index t (0 : Fin 2) * 20000 + 1 * (x 0).val = (i 0).val; rw [e00, h0]; omega
  | ⟨1, _⟩ => show win0_0.index t (1 : Fin 2) * 64 + 1 * (x 1).val = (i 1).val; rw [e01, h1]; omega

/-- The weight's block at every point is the weight. -/
theorem wtBlk0_apply (c : Dev nD) (t : Fin cfg0.N) (x : S64x64.Idx) (i : S64x64.Idx)
    (h0 : (i 0).val = (x 0).val) (h1 : (i 1).val = (x 1).val) :
    wtBlk0 V c t x = wt0 V c i := by
  obtain ⟨-, -, e10, e11, -, -⟩ := idx0 t
  unfold wtBlk0 iblk0
  rw [View.read_apply]
  show V c main_v0 _ = V c main_v0 _
  congr 1
  funext a
  apply Fin.ext
  match a with
  | ⟨0, _⟩ => show win0_1.index t (0 : Fin 2) * 64 + 1 * (x 0).val = (i 0).val; rw [e10, h0]; omega
  | ⟨1, _⟩ => show win0_1.index t (1 : Fin 2) * 64 + 1 * (x 1).val = (i 1).val; rw [e11, h1]; omega

/-- What point `t` writes back is block `t` of the product of the whole arrays. -/
theorem flushed0_eq (c : Dev nD) (t : Fin cfg0.N) :
    (dat0 (F := Ideal) V c).flushed 2 t
      = ((cfg0.win 2).blk t).view.read (Elt Ideal) (prod0 (rows0 V c) (wt0 V c)) := by
  show (cfg0.win 2).cut (grid0.coords t) ((dat0 V c).after 2 t) = _
  rw [after0_2]
  unfold out0_2
  rw [View.canon_unit_zero linOffs_zero]
  simp only [View.ld_unit_zero (S := S20000x64) linOffs_zero, View.ld_unit_zero (S := S64x64) linOffs_zero]
  obtain ⟨-, -, -, -, e20, e21⟩ := idx0 t
  funext j
  rw [View.read_apply, prod0_apply]
  show k0_pay1 (F := Ideal) (rowsBlk0 V c t) (wtBlk0 V c t) ((cfg0.win 2).xinj (grid0.coords t) j) = _
  rw [pay0_apply]
  refine Finset.sum_congr rfl fun k _ => ?_
  refine congrArg₂ (· * ·) (rowsBlk0_apply V c t _ _ ?_ ?_) (wtBlk0_apply V c t _ _ ?_ ?_)
  · show win0_2.index t (0 : Fin 2) * 20000 + 1 * (j 0).val = 20000 * t.val + (j 0).val
    rw [e20]; omega
  · rfl
  · rfl
  · show win0_2.index t (1 : Fin 2) * 64 + 1 * (j 1).val = (j 1).val
    rw [e21]; omega

/-- An index of the array is in point `t`'s block iff each coordinate is in the block's range on its axis. -/
theorem mem_blk0 (t : Fin cfg0.N) (i : S300000x64.Idx) :
    i ∈ ((cfg0.win 2).blk t).view.set ↔ ∀ a : Fin 2, win0_2.index t a * S20000x64.size a ≤ (i a).val
      ∧ (i a).val < win0_2.index t a * S20000x64.size a + S20000x64.size a := by
  show i ∈ ((View.whole main_v1).slice (win0_2.rect t)).set ↔ _
  rw [View.set_slice_whole, Rect.mem_set_unit]
  exact Iff.rfl

/-- Row `r` of the output lies in the block of point `r / 20000`, which writes it back. -/
theorem cover0 (i : S300000x64.Idx) :
    ∃ t : Fin cfg0.N, (cfg0.win 2).flush t = true ∧ i ∈ ((cfg0.win 2).blk t).view.set := by
  have hi0 : (i 0).val < 300000 := (i 0).isLt
  have hi1 : (i 1).val < 64 := (i 1).isLt
  have hN : cfg0.N = 15 := N_0
  have ht : (i 0).val / 20000 < cfg0.N := by rw [hN]; omega
  obtain ⟨-, -, -, -, e20, e21⟩ := idx0 ⟨(i 0).val / 20000, ht⟩
  refine ⟨⟨(i 0).val / 20000, ht⟩, flush0_2 _, ?_⟩
  rw [mem_blk0]
  intro a
  match a with
  | ⟨0, _⟩ =>
    show win0_2.index ⟨(i 0).val / 20000, ht⟩ (0 : Fin 2) * 20000 ≤ (i 0).val
      ∧ (i 0).val < win0_2.index ⟨(i 0).val / 20000, ht⟩ (0 : Fin 2) * 20000 + 20000
    rw [e20]
    show (i 0).val / 20000 * 20000 ≤ (i 0).val ∧ (i 0).val < (i 0).val / 20000 * 20000 + 20000
    omega
  | ⟨1, _⟩ =>
    show win0_2.index ⟨(i 0).val / 20000, ht⟩ (1 : Fin 2) * 64 ≤ (i 1).val
      ∧ (i 1).val < win0_2.index ⟨(i 0).val / 20000, ht⟩ (1 : Fin 2) * 64 + 64
    rw [e21]
    omega

/-- The output array after the region: the product of the arrays as the region found them. -/
theorem lin0_prod (c : Dev nD) : (dat0 (F := Ideal) V c).arrAt 2 cfg0.N = prod0 (rows0 V c) (wt0 V c) :=
  (dat0 (F := Ideal) V c).arrAt_eq_of_cover 2 (prod0 (rows0 V c) (wt0 V c)) (fun t _ => flushed0_eq V c t) cover0

/-- The output array after the region is the host's one product of the two arrays. -/
theorem lin0_value (c : Dev nD) :
    (dat0 (F := Ideal) V c).arrAt 2 cfg0.N
      = Host.dotGeneral (F := Ideal) (φ₁ := .f32) (φ₂ := .f32) Cert.ReferenceIdeal.dot_S300000x64_S64x64_S300000x64_1_0_0_1_n_n none (V c main_arg1) (V c main_v0) := by
  rw [lin0_prod]
  funext i
  exact (host0_apply (rows0 V c) (wt0 V c) i).symm

end Region0

/-! ## Region 1: the 500000x64 product, index by index -/

/-- The left factor's index in the whole array for output index `i` and contracted coordinate `k`: row of `i`, column `k`. -/
abbrev lrow1 (i : S500000x64.Idx) (k : Fin 64) : S500000x64.Idx := fun a => match a with
  | ⟨0, _⟩ => ⟨(i 0).val, (i 0).isLt⟩
  | ⟨1, _⟩ => ⟨k.val, k.isLt⟩
/-- The right factor's index: row `k`, column of `i`. -/
abbrev rcol1 (i : S500000x64.Idx) (k : Fin 64) : S64x64.Idx := fun a => match a with
  | ⟨0, _⟩ => ⟨k.val, k.isLt⟩
  | ⟨1, _⟩ => ⟨(i 1).val, (i 1).isLt⟩

/-- The product of a 500000x64 array of rows with a 64x64 weight: entry (r, j) is the sum over k of entry (r, k) of the
    rows times entry (k, j) of the weight. -/
def prod1 (X : Vec Ideal S500000x64 .f32) (W : Vec Ideal S64x64 .f32) : Vec Ideal S500000x64 .f32 :=
  fun i => ∑ k : Fin 64, X (lrow1 i k) * W (rcol1 i k)

theorem prod1_apply (X : Vec Ideal S500000x64 .f32) (W : Vec Ideal S64x64 .f32) (i : S500000x64.Idx) :
    prod1 X W i = ∑ k : Fin 64, X (lrow1 i k) * W (rcol1 i k) := rfl

/-! ### The host's product is that function -/

/-- The left operand's row is the output's row, -/
theorem lhs_host1_0 (i : Cert.ReferenceIdeal.S500000x64.Idx) (q : Cert.ReferenceIdeal.dot_S500000x64_S64x64_S500000x64_1_0_0_1_n_n.contr.Idx) :
    (Cert.ReferenceIdeal.dot_S500000x64_S64x64_S500000x64_1_0_0_1_n_n.lhsIdx i q 0).val = (i 0).val := by
  unfold DotDims.lhsIdx
  rw [dif_neg (show ¬(0 : Fin Cert.ReferenceIdeal.S500000x64.rank) ∈ Cert.ReferenceIdeal.dot_S500000x64_S64x64_S500000x64_1_0_0_1_n_n.lhsBatch by decide), dif_pos (show (0 : Fin Cert.ReferenceIdeal.S500000x64.rank) ∈ Cert.ReferenceIdeal.dot_S500000x64_S64x64_S500000x64_1_0_0_1_n_n.lhsNonContracting by decide)]
  rfl
/-- its column the contracted coordinate; -/
theorem lhs_host1_1 (i : Cert.ReferenceIdeal.S500000x64.Idx) (q : Cert.ReferenceIdeal.dot_S500000x64_S64x64_S500000x64_1_0_0_1_n_n.contr.Idx) :
    (Cert.ReferenceIdeal.dot_S500000x64_S64x64_S500000x64_1_0_0_1_n_n.lhsIdx i q 1).val = (q ⟨0, by decide⟩).val :=
  Cert.ReferenceIdeal.dot_S500000x64_S64x64_S500000x64_1_0_0_1_n_n.lhsIdx_val_of_single rfl i q
/-- the right operand's row is the contracted coordinate, -/
theorem rhs_host1_0 (i : Cert.ReferenceIdeal.S500000x64.Idx) (q : Cert.ReferenceIdeal.dot_S500000x64_S64x64_S500000x64_1_0_0_1_n_n.contr.Idx) :
    (Cert.ReferenceIdeal.dot_S500000x64_S64x64_S500000x64_1_0_0_1_n_n.rhsIdx i q 0).val = (q ⟨0, by decide⟩).val :=
  Cert.ReferenceIdeal.dot_S500000x64_S64x64_S500000x64_1_0_0_1_n_n.rhsIdx_val_of_single rfl i q
/-- its column the output's column. -/
theorem rhs_host1_1 (i : Cert.ReferenceIdeal.S500000x64.Idx) (q : Cert.ReferenceIdeal.dot_S500000x64_S64x64_S500000x64_1_0_0_1_n_n.contr.Idx) :
    (Cert.ReferenceIdeal.dot_S500000x64_S64x64_S500000x64_1_0_0_1_n_n.rhsIdx i q 1).val = (i 1).val := by
  unfold DotDims.rhsIdx
  rw [dif_neg (show ¬(1 : Fin Cert.ReferenceIdeal.S64x64.rank) ∈ Cert.ReferenceIdeal.dot_S500000x64_S64x64_S500000x64_1_0_0_1_n_n.rhsBatch by decide), dif_pos (show (1 : Fin Cert.ReferenceIdeal.S64x64.rank) ∈ Cert.ReferenceIdeal.dot_S500000x64_S64x64_S500000x64_1_0_0_1_n_n.rhsNonContracting by decide)]
  rfl

/-- The host's one product of the whole arrays, at an index: the same sum over the 64 contracted coordinates. -/
theorem host1_apply (X : FVec Ideal Cert.ReferenceIdeal.S500000x64 .f32) (W : FVec Ideal Cert.ReferenceIdeal.S64x64 .f32) (i : S500000x64.Idx) :
    Host.dotGeneral (F := Ideal) Cert.ReferenceIdeal.dot_S500000x64_S64x64_S500000x64_1_0_0_1_n_n none X W i = ∑ k : Fin 64, X (lrow1 i k) * W (rcol1 i k) := by
  simp only [Host.dotGeneral]
  rw [Ideal.dotGeneral_apply, ← Equiv.sum_comp (ValueIdx.contrEquiv1 Cert.ReferenceIdeal.dot_S500000x64_S64x64_S500000x64_1_0_0_1_n_n 64 rfl rfl).symm]
  refine Finset.sum_congr rfl fun k _ => ?_
  have hk := ValueIdx.contrEquiv1_symm_val Cert.ReferenceIdeal.dot_S500000x64_S64x64_S500000x64_1_0_0_1_n_n 64 rfl rfl k
  have el : Cert.ReferenceIdeal.dot_S500000x64_S64x64_S500000x64_1_0_0_1_n_n.lhsIdx i ((ValueIdx.contrEquiv1 Cert.ReferenceIdeal.dot_S500000x64_S64x64_S500000x64_1_0_0_1_n_n 64 rfl rfl).symm k) = lrow1 i k := funext fun a => Fin.ext (by
    match a with
    | ⟨0, _⟩ => exact lhs_host1_0 _ _
    | ⟨1, _⟩ => exact (lhs_host1_1 _ _).trans hk)
  have er : Cert.ReferenceIdeal.dot_S500000x64_S64x64_S500000x64_1_0_0_1_n_n.rhsIdx i ((ValueIdx.contrEquiv1 Cert.ReferenceIdeal.dot_S500000x64_S64x64_S500000x64_1_0_0_1_n_n 64 rfl rfl).symm k) = rcol1 i k := funext fun a => Fin.ext (by
    match a with
    | ⟨0, _⟩ => exact (rhs_host1_0 _ _).trans hk
    | ⟨1, _⟩ => exact rhs_host1_1 _ _)
  rw [el, er]

/-! ### From the blocks to the array -/

section Region1
variable (V : (c : Dev nD) → (b : Ref sig .tc) → Buf (Elt Ideal) ((c : Thread nD τ).loc b))

/-- The array of rows as the region finds it, -/
abbrev rows1 (c : Dev nD) : Vec Ideal S500000x64 .f32 := V c main_arg0
/-- the weight, -/
abbrev wt1 (c : Dev nD) : Vec Ideal S64x64 .f32 := V c main_v2
/-- the block of rows the body reads at point `t`, -/
abbrev rowsBlk1 (c : Dev nD) (t : Fin cfg1.N) : Vec Ideal S20000x64 .f32 := iblk1 V c 0 t
/-- and the weight's block there. -/
abbrev wtBlk1 (c : Dev nD) (t : Fin cfg1.N) : Vec Ideal S64x64 .f32 := iblk1 V c 1 t

/-- The index maps over the grid: the rows' block and the output's block are block `t` of their arrays, the weight's
    the one whole block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, k) of the block of rows at point `t` is entry (20000 t + r, k) of the array. -/
theorem rowsBlk1_apply (c : Dev nD) (t : Fin cfg1.N) (x : S20000x64.Idx) (i : S500000x64.Idx)
    (h0 : (i 0).val = 20000 * t.val + (x 0).val) (h1 : (i 1).val = (x 1).val) :
    rowsBlk1 V c t x = rows1 V c i := by
  obtain ⟨e00, e01, -, -, -, -⟩ := idx1 t
  unfold rowsBlk1 iblk1
  rw [View.read_apply]
  show V c main_arg0 _ = V c main_arg0 _
  congr 1
  funext a
  apply Fin.ext
  match a with
  | ⟨0, _⟩ => show win1_0.index t (0 : Fin 2) * 20000 + 1 * (x 0).val = (i 0).val; rw [e00, h0]; omega
  | ⟨1, _⟩ => show win1_0.index t (1 : Fin 2) * 64 + 1 * (x 1).val = (i 1).val; rw [e01, h1]; omega

/-- The weight's block at every point is the weight. -/
theorem wtBlk1_apply (c : Dev nD) (t : Fin cfg1.N) (x : S64x64.Idx) (i : S64x64.Idx)
    (h0 : (i 0).val = (x 0).val) (h1 : (i 1).val = (x 1).val) :
    wtBlk1 V c t x = wt1 V c i := by
  obtain ⟨-, -, e10, e11, -, -⟩ := idx1 t
  unfold wtBlk1 iblk1
  rw [View.read_apply]
  show V c main_v2 _ = V c main_v2 _
  congr 1
  funext a
  apply Fin.ext
  match a with
  | ⟨0, _⟩ => show win1_1.index t (0 : Fin 2) * 64 + 1 * (x 0).val = (i 0).val; rw [e10, h0]; omega
  | ⟨1, _⟩ => show win1_1.index t (1 : Fin 2) * 64 + 1 * (x 1).val = (i 1).val; rw [e11, h1]; omega

/-- What point `t` writes back is block `t` of the product of the whole arrays. -/
theorem flushed1_eq (c : Dev nD) (t : Fin cfg1.N) :
    (dat1 (F := Ideal) V c).flushed 2 t
      = ((cfg1.win 2).blk t).view.read (Elt Ideal) (prod1 (rows1 V c) (wt1 V c)) := by
  show (cfg1.win 2).cut (grid1.coords t) ((dat1 V c).after 2 t) = _
  rw [after1_2]
  unfold out1_2
  rw [View.canon_unit_zero linOffs_zero]
  simp only [View.ld_unit_zero (S := S20000x64) linOffs_zero, View.ld_unit_zero (S := S64x64) linOffs_zero]
  obtain ⟨-, -, -, -, e20, e21⟩ := idx1 t
  funext j
  rw [View.read_apply, prod1_apply]
  show k1_pay1 (F := Ideal) (rowsBlk1 V c t) (wtBlk1 V c t) ((cfg1.win 2).xinj (grid1.coords t) j) = _
  rw [pay1_apply]
  refine Finset.sum_congr rfl fun k _ => ?_
  refine congrArg₂ (· * ·) (rowsBlk1_apply V c t _ _ ?_ ?_) (wtBlk1_apply V c t _ _ ?_ ?_)
  · show win1_2.index t (0 : Fin 2) * 20000 + 1 * (j 0).val = 20000 * t.val + (j 0).val
    rw [e20]; omega
  · rfl
  · rfl
  · show win1_2.index t (1 : Fin 2) * 64 + 1 * (j 1).val = (j 1).val
    rw [e21]; omega

/-- An index of the array is in point `t`'s block iff each coordinate is in the block's range on its axis. -/
theorem mem_blk1 (t : Fin cfg1.N) (i : S500000x64.Idx) :
    i ∈ ((cfg1.win 2).blk t).view.set ↔ ∀ a : Fin 2, win1_2.index t a * S20000x64.size a ≤ (i a).val
      ∧ (i a).val < win1_2.index t a * S20000x64.size a + S20000x64.size a := by
  show i ∈ ((View.whole main_v3).slice (win1_2.rect t)).set ↔ _
  rw [View.set_slice_whole, Rect.mem_set_unit]
  exact Iff.rfl

/-- Row `r` of the output lies in the block of point `r / 20000`, which writes it back. -/
theorem cover1 (i : S500000x64.Idx) :
    ∃ t : Fin cfg1.N, (cfg1.win 2).flush t = true ∧ i ∈ ((cfg1.win 2).blk t).view.set := by
  have hi0 : (i 0).val < 500000 := (i 0).isLt
  have hi1 : (i 1).val < 64 := (i 1).isLt
  have hN : cfg1.N = 25 := N_1
  have ht : (i 0).val / 20000 < cfg1.N := by rw [hN]; omega
  obtain ⟨-, -, -, -, e20, e21⟩ := idx1 ⟨(i 0).val / 20000, ht⟩
  refine ⟨⟨(i 0).val / 20000, ht⟩, flush1_2 _, ?_⟩
  rw [mem_blk1]
  intro a
  match a with
  | ⟨0, _⟩ =>
    show win1_2.index ⟨(i 0).val / 20000, ht⟩ (0 : Fin 2) * 20000 ≤ (i 0).val
      ∧ (i 0).val < win1_2.index ⟨(i 0).val / 20000, ht⟩ (0 : Fin 2) * 20000 + 20000
    rw [e20]
    show (i 0).val / 20000 * 20000 ≤ (i 0).val ∧ (i 0).val < (i 0).val / 20000 * 20000 + 20000
    omega
  | ⟨1, _⟩ =>
    show win1_2.index ⟨(i 0).val / 20000, ht⟩ (1 : Fin 2) * 64 ≤ (i 1).val
      ∧ (i 1).val < win1_2.index ⟨(i 0).val / 20000, ht⟩ (1 : Fin 2) * 64 + 64
    rw [e21]
    omega

/-- The output array after the region: the product of the arrays as the region found them. -/
theorem lin1_prod (c : Dev nD) : (dat1 (F := Ideal) V c).arrAt 2 cfg1.N = prod1 (rows1 V c) (wt1 V c) :=
  (dat1 (F := Ideal) V c).arrAt_eq_of_cover 2 (prod1 (rows1 V c) (wt1 V c)) (fun t _ => flushed1_eq V c t) cover1

/-- The output array after the region is the host's one product of the two arrays. -/
theorem lin1_value (c : Dev nD) :
    (dat1 (F := Ideal) V c).arrAt 2 cfg1.N
      = Host.dotGeneral (F := Ideal) (φ₁ := .f32) (φ₂ := .f32) Cert.ReferenceIdeal.dot_S500000x64_S64x64_S500000x64_1_0_0_1_n_n none (V c main_arg0) (V c main_v2) := by
  rw [lin1_prod]
  funext i
  exact (host1_apply (rows1 V c) (wt1 V c) i).symm

end Region1

end Cert.KernelIdeal.Hand
end
-- ==== Proof.CombValue2.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Comb2
import proofs.«427575_j39067022524700_2_alg».proof.Proof.LinValue
import proofs.«427575_j39067022524700_2_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

/-! ## A combine region, values: the new rows as one function of the arrays the region finds

Per block of 20000 rows (25 points; the block of point `t` is rows 20000·t … 20000·t + 19999), entry (r, j) of the
new rows is X[r,j] + max((Σ_k X[r,k]·Wt[k,j] + b[0,j]) + S[r,j], 0) · ind(D[r,0] > 0). -/

section Value
variable (V : (c : Dev nD) → (b : Ref sig .tc) → Buf (Elt Ideal) ((c : Thread nD τ).loc b))

/-! ### Where the blocks sit -/

/-- The block index of every window over the 25 points: the row-blocked windows (rows, propagated sum, degree
    column, new rows) sit at block row `t`, block column 0; the weight and the bias at block (0, 0). -/
theorem comb2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `r'` of block `t` is a row of the array. -/
theorem comb2_row_lt (t : Fin cfg2.N) (r' : Fin 20000) : 20000 * t.val + r'.val < 500000 := by
  have h := t.isLt; have e : cfg2.N = 25 := N_2; have := r'.isLt; omega

/-- The row block at point `t`, at an entry: row 20000·t + r' of the rows array. -/
theorem comb2_blk0_apply (c : Dev nD) (t : Fin cfg2.N) (r' : Fin 20000) (j : Fin 64) :
    iblk2 V c 0 t (ix2 r' j) = V c main_arg0 (ix2 ⟨20000 * t.val + r'.val, comb2_row_lt t r'⟩ j) := by
  show V c main_arg0 (((cfg2.win 0).blk t).view.emb (ix2 r' j)) = _
  refine congrArg (V c main_arg0) (funext fun a => Fin.ext ?_)
  obtain ⟨e0, e1, -⟩ := comb2_idx t
  match a with
  | ⟨0, _⟩ => show win2_0.index t (0 : Fin 2) * 20000 + 1 * r'.val = 20000 * t.val + r'.val; omega
  | ⟨1, _⟩ => show win2_0.index t (1 : Fin 2) * 64 + 1 * j.val = j.val; omega

/-- The weight block is the whole weight array, at every point. -/
theorem comb2_blk1_apply (c : Dev nD) (t : Fin cfg2.N) (k : Fin 64) (j : Fin 64) :
    iblk2 V c 1 t (ix2 k j) = V c main_v38 (ix2 k j) := by
  show V c main_v38 (((cfg2.win 1).blk t).view.emb (ix2 k j)) = _
  refine congrArg (V c main_v38) (funext fun a => Fin.ext ?_)
  obtain ⟨-, -, e0, e1, -⟩ := comb2_idx t
  match a with
  | ⟨0, _⟩ => show win2_1.index t (0 : Fin 2) * 64 + 1 * k.val = k.val; omega
  | ⟨1, _⟩ => show win2_1.index t (1 : Fin 2) * 64 + 1 * j.val = j.val; omega

/-- The bias block is the whole bias row, at every point. -/
theorem comb2_blk2_apply (c : Dev nD) (t : Fin cfg2.N) (u : Fin 1) (j : Fin 64) :
    iblk2 V c 2 t (ix2 u j) = V c main_v39 (ix2 u j) := by
  show V c main_v39 (((cfg2.win 2).blk t).view.emb (ix2 u j)) = _
  refine congrArg (V c main_v39) (funext fun a => Fin.ext ?_)
  obtain ⟨-, -, -, -, e0, e1, -⟩ := comb2_idx t
  match a with
  | ⟨0, _⟩ => show win2_2.index t (0 : Fin 2) * 1 + 1 * u.val = u.val; omega
  | ⟨1, _⟩ => show win2_2.index t (1 : Fin 2) * 64 + 1 * j.val = j.val; omega

/-- The propagated-sum block at point `t`, at an entry. -/
theorem comb2_blk3_apply (c : Dev nD) (t : Fin cfg2.N) (r' : Fin 20000) (j : Fin 64) :
    iblk2 V c 3 t (ix2 r' j) = V c main_v16 (ix2 ⟨20000 * t.val + r'.val, comb2_row_lt t r'⟩ j) := by
  show V c main_v16 (((cfg2.win 3).blk t).view.emb (ix2 r' j)) = _
  refine congrArg (V c main_v16) (funext fun a => Fin.ext ?_)
  obtain ⟨-, -, -, -, -, -, e0, e1, -⟩ := comb2_idx t
  match a with
  | ⟨0, _⟩ => show win2_3.index t (0 : Fin 2) * 20000 + 1 * r'.val = 20000 * t.val + r'.val; omega
  | ⟨1, _⟩ => show win2_3.index t (1 : Fin 2) * 64 + 1 * j.val = j.val; omega

/-- The degree-column block at point `t`, at an entry. -/
theorem comb2_blk4_apply (c : Dev nD) (t : Fin cfg2.N) (r' : Fin 20000) (u : Fin 1) :
    iblk2 V c 4 t (ix2 r' u) = V c main_v20 (ix2 ⟨20000 * t.val + r'.val, comb2_row_lt t r'⟩ u) := by
  show V c main_v20 (((cfg2.win 4).blk t).view.emb (ix2 r' u)) = _
  refine congrArg (V c main_v20) (funext fun a => Fin.ext ?_)
  obtain ⟨-, -, -, -, -, -, -, -, e0, e1, -⟩ := comb2_idx t
  match a with
  | ⟨0, _⟩ => show win2_4.index t (0 : Fin 2) * 20000 + 1 * r'.val = 20000 * t.val + r'.val; omega
  | ⟨1, _⟩ => show win2_4.index t (1 : Fin 2) * 1 + 1 * u.val = u.val; omega

/-! ### Layout: one column broadcast over many -/

/-- An `[a, 1]` array broadcast to `[a, b]` reads, at `(p, q)`, the operand's one column at row `p`. -/
theorem comb2_colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The indicator of a positive degree -/

/-- A bit widened to 32 bits and read signed is the bit read unsigned: both are 0 or 1. -/
theorem comb2_bit_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  have h : ∀ b : BitVec 1, (b.setWidth 32).toInt = (b.toNat : ℤ) := by decide
  rw [h b, Int.cast_natCast]

/-- The body's indicator column at an entry: 1 where the degree is positive, else 0. -/
theorem comb2_pay1_blk (d : Vec Ideal S20000x1 .f32) (r' : Fin 20000) (u : Fin 1) :
    k2_pay1 (F := Ideal) d (ix2 r' u)
      = FloatOps.uitofp (F := Ideal) .f32 (FloatOps.cmpf .ogt (d (ix2 r' u)) (Ideal.ofBits .f32 0x00000000#32)) := by
  unfold k2_pay1
  rw [shapeCast_self]
  exact comb2_bit_signed_eq_unsigned _

/-! ### The masked update at an entry of a block -/

/-- The body's masked update at entry (r', j) of its block, from the block contents: the positive part of
    (row r' of the rows block times column j of the weight, plus the bias at j, plus the propagated sum at (r', j)),
    times the indicator of row r'. -/
theorem comb2_pay2_blk (x0 : Vec Ideal S20000x64 .f32) (x1 : Vec Ideal S64x64 .f32) (x2 : Vec Ideal S1x64 .f32)
    (x4 : Vec Ideal S20000x1 .f32) (x3 : Vec Ideal S20000x64 .f32) (r' : Fin 20000) (j : Fin 64) :
    k2_pay2 (F := Ideal) x0 x1 x2 x4 x3 (ix2 r' j)
      = max (((∑ k : Fin 64, x0 (lblk (ix2 r' j) k) * x1 (rblk (ix2 r' j) k)) + x2 (ix2 (0 : Fin 1) j)) + x3 (ix2 r' j))
          (Ideal.ofBits .f32 0x00000000#32)
        * k2_pay1 (F := Ideal) x4 (ix2 r' (0 : Fin 1)) := by
  unfold k2_pay2
  rw [mulf_apply, maximumf_apply, addf_apply, addf_apply, shapeCast_self, shapeCast_self, shapeCast_self,
    blockProduct_apply, broadcastTo_1b_ab_apply, comb2_colBroadcast_apply]
  rfl

/-! ### Layout: a vector cast to a column -/

/-- An `[a]` array cast to `[a, 1]` reads, at `(i, u)`, the operand at `i`, whatever the unit coordinate `u`. -/
theorem comb2_colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The reference's masked update, entry by entry -/

/-- The indicator of a positive degree, row by row, as the reference computes it from the rank-1 degree. -/
def comb2_ind (deg : (⟨Cert.ReferenceIdeal.S500000, .f32⟩ : BufTy).Contents (Elt Ideal)) : FVec Ideal Cert.ReferenceIdeal.S500000 .f32 :=
  uitofp (F := Ideal) .f32 (cmpf (F := Ideal) .ogt deg (broadcastInDim Cert.ReferenceIdeal.S500000 ![] Cert.ReferenceIdeal.Gen.bcast_S_S500000 (constant Cert.ReferenceIdeal.S_ .f32 0x00000000#32)))

/-- The masked update of every row, as the reference computes it: the positive part of (rows times weight, plus the
    bias broadcast over the rows, plus the propagated sum), times the indicator broadcast over the columns. -/
def comb2_upd (c : Dev nD) (bias : (⟨Cert.ReferenceIdeal.S64, .f32⟩ : BufTy).Contents (Elt Ideal))
    (deg : (⟨Cert.ReferenceIdeal.S500000, .f32⟩ : BufTy).Contents (Elt Ideal)) : FVec Ideal Cert.ReferenceIdeal.S500000x64 .f32 :=
  mulf (maximumf (addf (addf (Host.dotGeneral (φ₁ := .f32) (φ₂ := .f32) Cert.ReferenceIdeal.dot_S500000x64_S64x64_S500000x64_1_0_0_1_n_n none (V c main_arg0) (V c main_v38))
          (broadcastInDim Cert.ReferenceIdeal.S500000x64 ![0, 1] Cert.ReferenceIdeal.Gen.bcast_S1x64_S500000x64_0_1 (broadcastInDim Cert.ReferenceIdeal.S1x64 ![1] Cert.ReferenceIdeal.Gen.bcast_S64_S1x64_1 bias)))
          (V c main_v16))
        (broadcastInDim Cert.ReferenceIdeal.S500000x64 ![] Cert.ReferenceIdeal.Gen.bcast_S_S500000x64 (constant Cert.ReferenceIdeal.S_ .f32 0x00000000#32)))
      (broadcastInDim Cert.ReferenceIdeal.S500000x64 ![0, 1] Cert.ReferenceIdeal.Gen.bcast_S500000x1_S500000x64_0_1 (broadcastInDim Cert.ReferenceIdeal.S500000x1 ![0] Cert.ReferenceIdeal.Gen.bcast_S500000_S500000x1_0
        (comb2_ind deg)))

/-- The rows as the region finds them, -/
abbrev comb2_rows (c : Dev nD) : Vec Ideal S500000x64 .f32 := V c main_arg0
/-- the self weight, -/
abbrev comb2_wt (c : Dev nD) : Vec Ideal S64x64 .f32 := V c main_v38
/-- and the propagated sum. -/
abbrev comb2_sum (c : Dev nD) : Vec Ideal S500000x64 .f32 := V c main_v16

/-- The reference's indicator at row `r`. -/
theorem comb2_ind_apply (deg : (⟨Cert.ReferenceIdeal.S500000, .f32⟩ : BufTy).Contents (Elt Ideal)) (r : Fin 500000) :
    comb2_ind deg (ix1 r)
      = FloatOps.uitofp (F := Ideal) .f32 (FloatOps.cmpf .ogt (deg (ix1 r)) (Ideal.ofBits .f32 0x00000000#32)) := by
  unfold comb2_ind
  have e : broadcastInDim Cert.ReferenceIdeal.S500000 ![] Cert.ReferenceIdeal.Gen.bcast_S_S500000 (constant (F := Ideal) Cert.ReferenceIdeal.S_ .f32 0x00000000#32) (ix1 r)
      = Ideal.ofBits .f32 0x00000000#32 :=
    broadcastInDim_apply _ Cert.ReferenceIdeal.Gen.bcast_S_S500000 _ (ix1 r) ix0 (fun a => a.elim0)
  show FloatOps.uitofp (F := Ideal) .f32 (FloatOps.cmpf .ogt (deg (ix1 r)) (broadcastInDim Cert.ReferenceIdeal.S500000 ![] Cert.ReferenceIdeal.Gen.bcast_S_S500000 (constant (F := Ideal) Cert.ReferenceIdeal.S_ .f32 0x00000000#32) (ix1 r))) = _
  rw [e]

/-- The reference's masked update at entry (r, j). -/
theorem comb2_upd_apply (c : Dev nD) (bias : (⟨Cert.ReferenceIdeal.S64, .f32⟩ : BufTy).Contents (Elt Ideal))
    (deg : (⟨Cert.ReferenceIdeal.S500000, .f32⟩ : BufTy).Contents (Elt Ideal)) (r : Fin 500000) (j : Fin 64) :
    comb2_upd V c bias deg (ix2 r j)
      = max (((∑ k : Fin 64, comb2_rows V c (lrow1 (ix2 r j) k) * comb2_wt V c (rcol1 (ix2 r j) k)) + bias (ix1 j))
            + comb2_sum V c (ix2 r j))
          (Ideal.ofBits .f32 0x00000000#32)
        * comb2_ind deg (ix1 r) := by
  unfold comb2_upd
  rw [mulf_apply, maximumf_apply, addf_apply, addf_apply, host1_apply]
  have eb : ∀ y : Cert.ReferenceIdeal.S1x64.Idx → Elt Ideal .f32,
      broadcastInDim Cert.ReferenceIdeal.S500000x64 ![0, 1] Cert.ReferenceIdeal.Gen.bcast_S1x64_S500000x64_0_1 y (ix2 r j) = y (ix2 (0 : Fin 1) j) := fun y =>
    broadcastInDim_apply _ Cert.ReferenceIdeal.Gen.bcast_S1x64_S500000x64_0_1 y (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])
  have eb' : broadcastInDim Cert.ReferenceIdeal.S1x64 ![1] Cert.ReferenceIdeal.Gen.bcast_S64_S1x64_1 bias (ix2 (0 : Fin 1) j) = bias (ix1 j) :=
    broadcastInDim_apply _ Cert.ReferenceIdeal.Gen.bcast_S64_S1x64_1 bias (ix2 (0 : Fin 1) j) (ix1 j) (fun a => match a with
      | ⟨0, _⟩ => by show j.val = if (64 : Nat) = 1 then 0 else j.val; rw [if_neg (by decide)])
  have ez : broadcastInDim Cert.ReferenceIdeal.S500000x64 ![] Cert.ReferenceIdeal.Gen.bcast_S_S500000x64 (constant (F := Ideal) Cert.ReferenceIdeal.S_ .f32 0x00000000#32) (ix2 r j)
      = Ideal.ofBits .f32 0x00000000#32 :=
    broadcastInDim_apply _ Cert.ReferenceIdeal.Gen.bcast_S_S500000x64 _ (ix2 r j) ix0 (fun a => a.elim0)
  have ed : ∀ y : Cert.ReferenceIdeal.S500000x1.Idx → Elt Ideal .f32,
      broadcastInDim Cert.ReferenceIdeal.S500000x64 ![0, 1] Cert.ReferenceIdeal.Gen.bcast_S500000x1_S500000x64_0_1 y (ix2 r j) = y (ix2 r (0 : Fin 1)) := fun y =>
    broadcastInDim_apply _ Cert.ReferenceIdeal.Gen.bcast_S500000x1_S500000x64_0_1 y (ix2 r j) (ix2 r (0 : Fin 1)) (fun a => match a with
      | ⟨0, _⟩ => by show r.val = if (500000 : Nat) = 1 then 0 else r.val; rw [if_neg (by decide)]
      | ⟨1, _⟩ => by show 0 = if (1 : Nat) = 1 then 0 else j.val; rw [if_pos rfl])
  have ed' : ∀ y : Cert.ReferenceIdeal.S500000.Idx → Elt Ideal .f32,
      broadcastInDim Cert.ReferenceIdeal.S500000x1 ![0] Cert.ReferenceIdeal.Gen.bcast_S500000_S500000x1_0 y (ix2 r (0 : Fin 1)) = y (ix1 r) := fun y =>
    broadcastInDim_apply _ Cert.ReferenceIdeal.Gen.bcast_S500000_S500000x1_0 y (ix2 r (0 : Fin 1)) (ix1 r) (fun a => match a with
      | ⟨0, _⟩ => by show r.val = if (500000 : Nat) = 1 then 0 else r.val; rw [if_neg (by decide)])
  rw [eb, eb', ez, ed, ed']

/-! ### The body's masked update is the reference's, entry by entry -/

/-- The offsets of the whole-block rectangles are zero on every axis. -/
theorem comb2_offs_zero : (![0, 0] : Fin 2 → Nat) = fun _ => 0 := funext fun a => by fin_cases a <;> rfl

/-- The body's indicator column at row r' of block `t` is the reference's indicator at row 20000·t + r'. -/
theorem comb2_pay1_apply (c : Dev nD) (deg : (⟨Cert.ReferenceIdeal.S500000, .f32⟩ : BufTy).Contents (Elt Ideal))
    (hdeg : V c main_v20 = shapeCast S500000x1 deg shapeCasts_S500000_S500000x1)
    (t : Fin cfg2.N) (r' : Fin 20000) (u : Fin 1) :
    k2_pay1 (F := Ideal) (View.ld (iblk2 V c 4 t) rD2) (ix2 r' u)
      = comb2_ind deg (ix1 ⟨20000 * t.val + r'.val, comb2_row_lt t r'⟩) := by
  rw [View.ld_unit_zero (S := S20000x1) comb2_offs_zero, comb2_pay1_blk, comb2_ind_apply, comb2_blk4_apply, hdeg, comb2_colCast_apply]

/-- The body's masked update at entry (r', j) of block `t` is the reference's masked update at entry
    (20000·t + r', j). -/
theorem comb2_pay2_apply (c : Dev nD) (bias : (⟨Cert.ReferenceIdeal.S64, .f32⟩ : BufTy).Contents (Elt Ideal))
    (deg : (⟨Cert.ReferenceIdeal.S500000, .f32⟩ : BufTy).Contents (Elt Ideal))
    (hbias : V c main_v39 = shapeCast S1x64 bias shapeCasts_S64_S1x64)
    (hdeg : V c main_v20 = shapeCast S500000x1 deg shapeCasts_S500000_S500000x1)
    (t : Fin cfg2.N) (r' : Fin 20000) (j : Fin 64) :
    k2_pay2 (F := Ideal) (View.ld (iblk2 V c 0 t) rX2) (View.ld (iblk2 V c 1 t) rW2) (View.ld (iblk2 V c 2 t) rB2)
        (View.ld (iblk2 V c 4 t) rD2) (View.ld (iblk2 V c 3 t) rX2) (ix2 r' j)
      = comb2_upd V c bias deg (ix2 ⟨20000 * t.val + r'.val, comb2_row_lt t r'⟩ j) := by
  simp only [View.ld_unit_zero (S := S20000x64) comb2_offs_zero, View.ld_unit_zero (S := S64x64) comb2_offs_zero,
    View.ld_unit_zero (S := S1x64) comb2_offs_zero, View.ld_unit_zero (S := S20000x1) comb2_offs_zero]
  rw [comb2_pay2_blk, comb2_pay1_blk, comb2_upd_apply, comb2_ind_apply]
  have el : ∀ k : Fin 64, lblk (ix2 r' j) k = ix2 r' k := fun k => funext fun a => by
    match a with
    | ⟨0, _⟩ => rfl
    | ⟨1, _⟩ => rfl
  have er : ∀ k : Fin 64, rblk (ix2 r' j) k = ix2 k j := fun k => funext fun a => by
    match a with
    | ⟨0, _⟩ => rfl
    | ⟨1, _⟩ => rfl
  have eL : ∀ k : Fin 64, lrow1 (ix2 (⟨20000 * t.val + r'.val, comb2_row_lt t r'⟩ : Fin 500000) j) k = ix2 ⟨20000 * t.val + r'.val, comb2_row_lt t r'⟩ k := fun k => funext fun a => by
    match a with
    | ⟨0, _⟩ => rfl
    | ⟨1, _⟩ => rfl
  have eR : ∀ k : Fin 64, rcol1 (ix2 (⟨20000 * t.val + r'.val, comb2_row_lt t r'⟩ : Fin 500000) j) k = ix2 k j := fun k => funext fun a => by
    match a with
    | ⟨0, _⟩ => rfl
    | ⟨1, _⟩ => rfl
  simp only [el, er, eL, eR, comb2_blk0_apply, comb2_blk1_apply, comb2_blk2_apply, comb2_blk3_apply, comb2_blk4_apply]
  rw [hbias, hdeg, shapeCast_a_1a_apply, comb2_colCast_apply]

/-! ### From the blocks to the array -/

/-- An entry of the new-rows block at point `t` sits in the array at row 20000·t + r', same column. -/
theorem comb2_blk5_emb (t : Fin cfg2.N) (r' : Fin 20000) (j : Fin 64) :
    ((cfg2.win 5).blk t).view.emb (ix2 r' j) = (ix2 ⟨20000 * t.val + r'.val, comb2_row_lt t r'⟩ j : S500000x64.Idx) := by
  funext a; apply Fin.ext
  obtain ⟨-, -, -, -, -, -, -, -, -, -, e0, e1⟩ := comb2_idx t
  match a with
  | ⟨0, _⟩ => show win2_5.index t (0 : Fin 2) * 20000 + 1 * r'.val = 20000 * t.val + r'.val; omega
  | ⟨1, _⟩ => show win2_5.index t (1 : Fin 2) * 64 + 1 * j.val = j.val; omega

/-- The whole array of new rows, as one function of what the region finds: the rows plus the masked update. -/
def comb2_new (c : Dev nD) (bias : (⟨Cert.ReferenceIdeal.S64, .f32⟩ : BufTy).Contents (Elt Ideal))
    (deg : (⟨Cert.ReferenceIdeal.S500000, .f32⟩ : BufTy).Contents (Elt Ideal)) : FVec Ideal Cert.ReferenceIdeal.S500000x64 .f32 :=
  addf (V c main_arg0) (comb2_upd V c bias deg)

/-- What point `t` writes back is block `t` of that array. -/
theorem comb2_flushed5_eq (c : Dev nD) (bias : (⟨Cert.ReferenceIdeal.S64, .f32⟩ : BufTy).Contents (Elt Ideal))
    (deg : (⟨Cert.ReferenceIdeal.S500000, .f32⟩ : BufTy).Contents (Elt Ideal))
    (hbias : V c main_v39 = shapeCast S1x64 bias shapeCasts_S64_S1x64)
    (hdeg : V c main_v20 = shapeCast S500000x1 deg shapeCasts_S500000_S500000x1) (t : Fin cfg2.N) :
    (dat2 (F := Ideal) V c).flushed 5 t = ((cfg2.win 5).blk t).view.read (Elt Ideal) (comb2_new V c bias deg) := by
  show (cfg2.win 5).cut (grid2.coords t) ((dat2 (F := Ideal) V c).after 5 t) = _
  rw [after2_5]
  unfold out2_5
  rw [View.canon_unit_zero comb2_offs_zero]
  funext y
  obtain ⟨r', j, rfl⟩ : ∃ (r' : Fin 20000) (j : Fin 64), y = ix2 r' j := ⟨y 0, y 1, eq_ix2 y⟩
  rw [View.read_apply]
  show k2_pay3 (F := Ideal) (View.ld (iblk2 V c 0 t) rX2) (View.ld (iblk2 V c 1 t) rW2) (View.ld (iblk2 V c 2 t) rB2)
      (View.ld (iblk2 V c 4 t) rD2) (View.ld (iblk2 V c 3 t) rX2) (ix2 r' j)
    = comb2_new V c bias deg (((cfg2.win 5).blk t).view.emb (ix2 r' j))
  rw [comb2_blk5_emb]
  unfold k2_pay3 comb2_new
  rw [addf_apply, addf_apply, comb2_pay2_apply V c bias deg hbias hdeg, View.ld_unit_zero (S := S20000x64) comb2_offs_zero,
    comb2_blk0_apply]

/-- An index of the array is in point `t`'s block iff each coordinate is in the block's range on its axis. -/
theorem comb2_mem_blk5 (t : Fin cfg2.N) (i : S500000x64.Idx) :
    i ∈ ((cfg2.win 5).blk t).view.set ↔ ∀ a : Fin 2, win2_5.index t a * S20000x64.size a ≤ (i a).val
      ∧ (i a).val < win2_5.index t a * S20000x64.size a + S20000x64.size a := by
  show i ∈ ((View.whole main_v40_0).slice (win2_5.rect t)).set ↔ _
  rw [View.set_slice_whole, Rect.mem_set_unit]
  exact Iff.rfl

/-- Row `r` of the new rows lies in the block of point `r / 20000`, which writes it back. -/
theorem comb2_cover5 (i : S500000x64.Idx) :
    ∃ t : Fin cfg2.N, (cfg2.win 5).flush t = true ∧ i ∈ ((cfg2.win 5).blk t).view.set := by
  have hi0 : (i 0).val < 500000 := (i 0).isLt
  have hi1 : (i 1).val < 64 := (i 1).isLt
  have hN : cfg2.N = 25 := N_2
  have ht : (i 0).val / 20000 < cfg2.N := by rw [hN]; omega
  obtain ⟨-, -, -, -, -, -, -, -, -, -, e0, e1⟩ := comb2_idx ⟨(i 0).val / 20000, ht⟩
  refine ⟨⟨(i 0).val / 20000, ht⟩, flush2_5 _, ?_⟩
  rw [comb2_mem_blk5]
  intro a
  match a with
  | ⟨0, _⟩ =>
    show win2_5.index ⟨(i 0).val / 20000, ht⟩ (0 : Fin 2) * 20000 ≤ (i 0).val
      ∧ (i 0).val < win2_5.index ⟨(i 0).val / 20000, ht⟩ (0 : Fin 2) * 20000 + 20000
    rw [e0]
    show (i 0).val / 20000 * 20000 ≤ (i 0).val ∧ (i 0).val < (i 0).val / 20000 * 20000 + 20000
    omega
  | ⟨1, _⟩ =>
    show win2_5.index ⟨(i 0).val / 20000, ht⟩ (1 : Fin 2) * 64 ≤ (i 1).val
      ∧ (i 1).val < win2_5.index ⟨(i 0).val / 20000, ht⟩ (1 : Fin 2) * 64 + 64
    rw [e1]
    omega

/-- The array of new rows after the region: the rows plus the reference's masked update. -/
theorem comb2_new_eq (c : Dev nD) (bias : (⟨Cert.ReferenceIdeal.S64, .f32⟩ : BufTy).Contents (Elt Ideal))
    (deg : (⟨Cert.ReferenceIdeal.S500000, .f32⟩ : BufTy).Contents (Elt Ideal))
    (hbias : V c main_v39 = shapeCast S1x64 bias shapeCasts_S64_S1x64)
    (hdeg : V c main_v20 = shapeCast S500000x1 deg shapeCasts_S500000_S500000x1) :
    (dat2 (F := Ideal) V c).arrAt 5 cfg2.N = comb2_new V c bias deg :=
  (dat2 (F := Ideal) V c).arrAt_eq_of_cover 5 (comb2_new V c bias deg)
    (fun t _ => comb2_flushed5_eq V c bias deg hbias hdeg t) comb2_cover5

end Value

/-- The region's new rows, as the whole array after the last point, are the reference's own term. -/
theorem comb2_value (V : (c : Dev nD) → (b : Ref sig .tc) → Buf (Elt Ideal) ((c : Thread nD τ).loc b)) (c : Dev nD)
    (bias : (⟨Cert.ReferenceIdeal.S64, .f32⟩ : BufTy).Contents (Elt Ideal)) (deg : (⟨Cert.ReferenceIdeal.S500000, .f32⟩ : BufTy).Contents (Elt Ideal))
    (hbias : V c main_v39 = shapeCast S1x64 bias shapeCasts_S64_S1x64)
    (hdeg : V c main_v20 = shapeCast S500000x1 deg shapeCasts_S500000_S500000x1) :
    @Eq (FVec Ideal Cert.ReferenceIdeal.S500000x64 .f32) ((dat2 (F := Ideal) V c).arrAt 5 cfg2.N)
      (addf (V c main_arg0) (mulf (maximumf (addf (addf (Host.dotGeneral (φ₁ := .f32) (φ₂ := .f32) Cert.ReferenceIdeal.dot_S500000x64_S64x64_S500000x64_1_0_0_1_n_n none (V c main_arg0) (V c main_v38))
            (broadcastInDim Cert.ReferenceIdeal.S500000x64 ![0, 1] Cert.ReferenceIdeal.Gen.bcast_S1x64_S500000x64_0_1 (broadcastInDim Cert.ReferenceIdeal.S1x64 ![1] Cert.ReferenceIdeal.Gen.bcast_S64_S1x64_1 bias)))
            (V c main_v16))
          (broadcastInDim Cert.ReferenceIdeal.S500000x64 ![] Cert.ReferenceIdeal.Gen.bcast_S_S500000x64 (constant Cert.ReferenceIdeal.S_ .f32 0x00000000#32)))
        (broadcastInDim Cert.ReferenceIdeal.S500000x64 ![0, 1] Cert.ReferenceIdeal.Gen.bcast_S500000x1_S500000x64_0_1 (broadcastInDim Cert.ReferenceIdeal.S500000x1 ![0] Cert.ReferenceIdeal.Gen.bcast_S500000_S500000x1_0
          (uitofp (F := Ideal) .f32 (cmpf (F := Ideal) .ogt deg (broadcastInDim Cert.ReferenceIdeal.S500000 ![] Cert.ReferenceIdeal.Gen.bcast_S_S500000 (constant Cert.ReferenceIdeal.S_ .f32 0x00000000#32)))))))) := by
  rw [comb2_new_eq V c bias deg hbias hdeg]
  unfold comb2_new comb2_upd comb2_ind
  rfl

end Cert.KernelIdeal.Hand
end
-- ==== Proof.CombValue3.lean ====
import proofs.«427575_j39067022524700_2_alg».proof.Proof.Gen.KernelIdeal.Launch
import proofs.«427575_j39067022524700_2_alg».proof.Proof.Gen.KernelIdeal.Skeleton
import proofs.«427575_j39067022524700_2_alg».proof.Proof.Gen.KernelIdeal.Points
import proofs.«427575_j39067022524700_2_alg».proof.Proof.Comb3
import proofs.«427575_j39067022524700_2_alg».proof.Proof.LinValue
import proofs.«427575_j39067022524700_2_alg».proof.Proof.Gen.ReferenceIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

/-! ## A combine region, values: the new rows as one function of the arrays the region finds

Per block of 20000 rows (15 points; the block of point `t` is rows 20000·t … 20000·t + 19999), entry (r, j) of the
new rows is X[r,j] + max((Σ_k X[r,k]·Wt[k,j] + b[0,j]) + S[r,j], 0) · ind(D[r,0] > 0). -/

section Value
variable (V : (c : Dev nD) → (b : Ref sig .tc) → Buf (Elt Ideal) ((c : Thread nD τ).loc b))

/-! ### Where the blocks sit -/

/-- The block index of every window over the 15 points: the row-blocked windows (rows, propagated sum, degree
    column, new rows) sit at block row `t`, block column 0; the weight and the bias at block (0, 0). -/
theorem comb3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row `r'` of block `t` is a row of the array. -/
theorem comb3_row_lt (t : Fin cfg3.N) (r' : Fin 20000) : 20000 * t.val + r'.val < 300000 := by
  have h := t.isLt; have e : cfg3.N = 15 := N_3; have := r'.isLt; omega

/-- The row block at point `t`, at an entry: row 20000·t + r' of the rows array. -/
theorem comb3_blk0_apply (c : Dev nD) (t : Fin cfg3.N) (r' : Fin 20000) (j : Fin 64) :
    iblk3 V c 0 t (ix2 r' j) = V c main_arg1 (ix2 ⟨20000 * t.val + r'.val, comb3_row_lt t r'⟩ j) := by
  show V c main_arg1 (((cfg3.win 0).blk t).view.emb (ix2 r' j)) = _
  refine congrArg (V c main_arg1) (funext fun a => Fin.ext ?_)
  obtain ⟨e0, e1, -⟩ := comb3_idx t
  match a with
  | ⟨0, _⟩ => show win3_0.index t (0 : Fin 2) * 20000 + 1 * r'.val = 20000 * t.val + r'.val; omega
  | ⟨1, _⟩ => show win3_0.index t (1 : Fin 2) * 64 + 1 * j.val = j.val; omega

/-- The weight block is the whole weight array, at every point. -/
theorem comb3_blk1_apply (c : Dev nD) (t : Fin cfg3.N) (k : Fin 64) (j : Fin 64) :
    iblk3 V c 1 t (ix2 k j) = V c main_v41 (ix2 k j) := by
  show V c main_v41 (((cfg3.win 1).blk t).view.emb (ix2 k j)) = _
  refine congrArg (V c main_v41) (funext fun a => Fin.ext ?_)
  obtain ⟨-, -, e0, e1, -⟩ := comb3_idx t
  match a with
  | ⟨0, _⟩ => show win3_1.index t (0 : Fin 2) * 64 + 1 * k.val = k.val; omega
  | ⟨1, _⟩ => show win3_1.index t (1 : Fin 2) * 64 + 1 * j.val = j.val; omega

/-- The bias block is the whole bias row, at every point. -/
theorem comb3_blk2_apply (c : Dev nD) (t : Fin cfg3.N) (u : Fin 1) (j : Fin 64) :
    iblk3 V c 2 t (ix2 u j) = V c main_v42 (ix2 u j) := by
  show V c main_v42 (((cfg3.win 2).blk t).view.emb (ix2 u j)) = _
  refine congrArg (V c main_v42) (funext fun a => Fin.ext ?_)
  obtain ⟨-, -, -, -, e0, e1, -⟩ := comb3_idx t
  match a with
  | ⟨0, _⟩ => show win3_2.index t (0 : Fin 2) * 1 + 1 * u.val = u.val; omega
  | ⟨1, _⟩ => show win3_2.index t (1 : Fin 2) * 64 + 1 * j.val = j.val; omega

/-- The propagated-sum block at point `t`, at an entry. -/
theorem comb3_blk3_apply (c : Dev nD) (t : Fin cfg3.N) (r' : Fin 20000) (j : Fin 64) :
    iblk3 V c 3 t (ix2 r' j) = V c main_v33 (ix2 ⟨20000 * t.val + r'.val, comb3_row_lt t r'⟩ j) := by
  show V c main_v33 (((cfg3.win 3).blk t).view.emb (ix2 r' j)) = _
  refine congrArg (V c main_v33) (funext fun a => Fin.ext ?_)
  obtain ⟨-, -, -, -, -, -, e0, e1, -⟩ := comb3_idx t
  match a with
  | ⟨0, _⟩ => show win3_3.index t (0 : Fin 2) * 20000 + 1 * r'.val = 20000 * t.val + r'.val; omega
  | ⟨1, _⟩ => show win3_3.index t (1 : Fin 2) * 64 + 1 * j.val = j.val; omega

/-- The degree-column block at point `t`, at an entry. -/
theorem comb3_blk4_apply (c : Dev nD) (t : Fin cfg3.N) (r' : Fin 20000) (u : Fin 1) :
    iblk3 V c 4 t (ix2 r' u) = V c main_v37 (ix2 ⟨20000 * t.val + r'.val, comb3_row_lt t r'⟩ u) := by
  show V c main_v37 (((cfg3.win 4).blk t).view.emb (ix2 r' u)) = _
  refine congrArg (V c main_v37) (funext fun a => Fin.ext ?_)
  obtain ⟨-, -, -, -, -, -, -, -, e0, e1, -⟩ := comb3_idx t
  match a with
  | ⟨0, _⟩ => show win3_4.index t (0 : Fin 2) * 20000 + 1 * r'.val = 20000 * t.val + r'.val; omega
  | ⟨1, _⟩ => show win3_4.index t (1 : Fin 2) * 1 + 1 * u.val = u.val; omega

/-! ### Layout: one column broadcast over many -/

/-- An `[a, 1]` array broadcast to `[a, b]` reads, at `(p, q)`, the operand's one column at row `p`. -/
theorem comb3_colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The indicator of a positive degree -/

/-- A bit widened to 32 bits and read signed is the bit read unsigned: both are 0 or 1. -/
theorem comb3_bit_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  have h : ∀ b : BitVec 1, (b.setWidth 32).toInt = (b.toNat : ℤ) := by decide
  rw [h b, Int.cast_natCast]

/-- The body's indicator column at an entry: 1 where the degree is positive, else 0. -/
theorem comb3_pay1_blk (d : Vec Ideal S20000x1 .f32) (r' : Fin 20000) (u : Fin 1) :
    k3_pay1 (F := Ideal) d (ix2 r' u)
      = FloatOps.uitofp (F := Ideal) .f32 (FloatOps.cmpf .ogt (d (ix2 r' u)) (Ideal.ofBits .f32 0x00000000#32)) := by
  unfold k3_pay1
  rw [shapeCast_self]
  exact comb3_bit_signed_eq_unsigned _

/-! ### The masked update at an entry of a block -/

/-- The body's masked update at entry (r', j) of its block, from the block contents: the positive part of
    (row r' of the rows block times column j of the weight, plus the bias at j, plus the propagated sum at (r', j)),
    times the indicator of row r'. -/
theorem comb3_pay2_blk (x0 : Vec Ideal S20000x64 .f32) (x1 : Vec Ideal S64x64 .f32) (x2 : Vec Ideal S1x64 .f32)
    (x4 : Vec Ideal S20000x1 .f32) (x3 : Vec Ideal S20000x64 .f32) (r' : Fin 20000) (j : Fin 64) :
    k3_pay2 (F := Ideal) x0 x1 x2 x4 x3 (ix2 r' j)
      = max (((∑ k : Fin 64, x0 (lblk (ix2 r' j) k) * x1 (rblk (ix2 r' j) k)) + x2 (ix2 (0 : Fin 1) j)) + x3 (ix2 r' j))
          (Ideal.ofBits .f32 0x00000000#32)
        * k3_pay1 (F := Ideal) x4 (ix2 r' (0 : Fin 1)) := by
  unfold k3_pay2
  rw [mulf_apply, maximumf_apply, addf_apply, addf_apply, shapeCast_self, shapeCast_self, shapeCast_self,
    blockProduct_apply, broadcastTo_1b_ab_apply, comb3_colBroadcast_apply]
  rfl

/-! ### Layout: a vector cast to a column -/

/-- An `[a]` array cast to `[a, 1]` reads, at `(i, u)`, the operand at `i`, whatever the unit coordinate `u`. -/
theorem comb3_colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The reference's masked update, entry by entry -/

/-- The indicator of a positive degree, row by row, as the reference computes it from the rank-1 degree. -/
def comb3_ind (deg : (⟨Cert.ReferenceIdeal.S300000, .f32⟩ : BufTy).Contents (Elt Ideal)) : FVec Ideal Cert.ReferenceIdeal.S300000 .f32 :=
  uitofp (F := Ideal) .f32 (cmpf (F := Ideal) .ogt deg (broadcastInDim Cert.ReferenceIdeal.S300000 ![] Cert.ReferenceIdeal.Gen.bcast_S_S300000 (constant Cert.ReferenceIdeal.S_ .f32 0x00000000#32)))

/-- The masked update of every row, as the reference computes it: the positive part of (rows times weight, plus the
    bias broadcast over the rows, plus the propagated sum), times the indicator broadcast over the columns. -/
def comb3_upd (c : Dev nD) (bias : (⟨Cert.ReferenceIdeal.S64, .f32⟩ : BufTy).Contents (Elt Ideal))
    (deg : (⟨Cert.ReferenceIdeal.S300000, .f32⟩ : BufTy).Contents (Elt Ideal)) : FVec Ideal Cert.ReferenceIdeal.S300000x64 .f32 :=
  mulf (maximumf (addf (addf (Host.dotGeneral (φ₁ := .f32) (φ₂ := .f32) Cert.ReferenceIdeal.dot_S300000x64_S64x64_S300000x64_1_0_0_1_n_n none (V c main_arg1) (V c main_v41))
          (broadcastInDim Cert.ReferenceIdeal.S300000x64 ![0, 1] Cert.ReferenceIdeal.Gen.bcast_S1x64_S300000x64_0_1 (broadcastInDim Cert.ReferenceIdeal.S1x64 ![1] Cert.ReferenceIdeal.Gen.bcast_S64_S1x64_1 bias)))
          (V c main_v33))
        (broadcastInDim Cert.ReferenceIdeal.S300000x64 ![] Cert.ReferenceIdeal.Gen.bcast_S_S300000x64 (constant Cert.ReferenceIdeal.S_ .f32 0x00000000#32)))
      (broadcastInDim Cert.ReferenceIdeal.S300000x64 ![0, 1] Cert.ReferenceIdeal.Gen.bcast_S300000x1_S300000x64_0_1 (broadcastInDim Cert.ReferenceIdeal.S300000x1 ![0] Cert.ReferenceIdeal.Gen.bcast_S300000_S300000x1_0
        (comb3_ind deg)))

/-- The rows as the region finds them, -/
abbrev comb3_rows (c : Dev nD) : Vec Ideal S300000x64 .f32 := V c main_arg1
/-- the self weight, -/
abbrev comb3_wt (c : Dev nD) : Vec Ideal S64x64 .f32 := V c main_v41
/-- and the propagated sum. -/
abbrev comb3_sum (c : Dev nD) : Vec Ideal S300000x64 .f32 := V c main_v33

/-- The reference's indicator at row `r`. -/
theorem comb3_ind_apply (deg : (⟨Cert.ReferenceIdeal.S300000, .f32⟩ : BufTy).Contents (Elt Ideal)) (r : Fin 300000) :
    comb3_ind deg (ix1 r)
      = FloatOps.uitofp (F := Ideal) .f32 (FloatOps.cmpf .ogt (deg (ix1 r)) (Ideal.ofBits .f32 0x00000000#32)) := by
  unfold comb3_ind
  have e : broadcastInDim Cert.ReferenceIdeal.S300000 ![] Cert.ReferenceIdeal.Gen.bcast_S_S300000 (constant (F := Ideal) Cert.ReferenceIdeal.S_ .f32 0x00000000#32) (ix1 r)
      = Ideal.ofBits .f32 0x00000000#32 :=
    broadcastInDim_apply _ Cert.ReferenceIdeal.Gen.bcast_S_S300000 _ (ix1 r) ix0 (fun a => a.elim0)
  show FloatOps.uitofp (F := Ideal) .f32 (FloatOps.cmpf .ogt (deg (ix1 r)) (broadcastInDim Cert.ReferenceIdeal.S300000 ![] Cert.ReferenceIdeal.Gen.bcast_S_S300000 (constant (F := Ideal) Cert.ReferenceIdeal.S_ .f32 0x00000000#32) (ix1 r))) = _
  rw [e]

/-- The reference's masked update at entry (r, j). -/
theorem comb3_upd_apply (c : Dev nD) (bias : (⟨Cert.ReferenceIdeal.S64, .f32⟩ : BufTy).Contents (Elt Ideal))
    (deg : (⟨Cert.ReferenceIdeal.S300000, .f32⟩ : BufTy).Contents (Elt Ideal)) (r : Fin 300000) (j : Fin 64) :
    comb3_upd V c bias deg (ix2 r j)
      = max (((∑ k : Fin 64, comb3_rows V c (lrow0 (ix2 r j) k) * comb3_wt V c (rcol0 (ix2 r j) k)) + bias (ix1 j))
            + comb3_sum V c (ix2 r j))
          (Ideal.ofBits .f32 0x00000000#32)
        * comb3_ind deg (ix1 r) := by
  unfold comb3_upd
  rw [mulf_apply, maximumf_apply, addf_apply, addf_apply, host0_apply]
  have eb : ∀ y : Cert.ReferenceIdeal.S1x64.Idx → Elt Ideal .f32,
      broadcastInDim Cert.ReferenceIdeal.S300000x64 ![0, 1] Cert.ReferenceIdeal.Gen.bcast_S1x64_S300000x64_0_1 y (ix2 r j) = y (ix2 (0 : Fin 1) j) := fun y =>
    broadcastInDim_apply _ Cert.ReferenceIdeal.Gen.bcast_S1x64_S300000x64_0_1 y (ix2 r j) (ix2 (0 : Fin 1) j) (fun a => match a with
      | ⟨0, _⟩ => by show 0 = if (1 : Nat) = 1 then 0 else r.val; rw [if_pos rfl]
      | ⟨1, _⟩ => by show j.val = if (64 : Nat) = 1 then 0 else j.val; rw [if_neg (by decide)])
  have eb' : broadcastInDim Cert.ReferenceIdeal.S1x64 ![1] Cert.ReferenceIdeal.Gen.bcast_S64_S1x64_1 bias (ix2 (0 : Fin 1) j) = bias (ix1 j) :=
    broadcastInDim_apply _ Cert.ReferenceIdeal.Gen.bcast_S64_S1x64_1 bias (ix2 (0 : Fin 1) j) (ix1 j) (fun a => match a with
      | ⟨0, _⟩ => by show j.val = if (64 : Nat) = 1 then 0 else j.val; rw [if_neg (by decide)])
  have ez : broadcastInDim Cert.ReferenceIdeal.S300000x64 ![] Cert.ReferenceIdeal.Gen.bcast_S_S300000x64 (constant (F := Ideal) Cert.ReferenceIdeal.S_ .f32 0x00000000#32) (ix2 r j)
      = Ideal.ofBits .f32 0x00000000#32 :=
    broadcastInDim_apply _ Cert.ReferenceIdeal.Gen.bcast_S_S300000x64 _ (ix2 r j) ix0 (fun a => a.elim0)
  have ed : ∀ y : Cert.ReferenceIdeal.S300000x1.Idx → Elt Ideal .f32,
      broadcastInDim Cert.ReferenceIdeal.S300000x64 ![0, 1] Cert.ReferenceIdeal.Gen.bcast_S300000x1_S300000x64_0_1 y (ix2 r j) = y (ix2 r (0 : Fin 1)) := fun y =>
    broadcastInDim_apply _ Cert.ReferenceIdeal.Gen.bcast_S300000x1_S300000x64_0_1 y (ix2 r j) (ix2 r (0 : Fin 1)) (fun a => match a with
      | ⟨0, _⟩ => by show r.val = if (300000 : Nat) = 1 then 0 else r.val; rw [if_neg (by decide)]
      | ⟨1, _⟩ => by show 0 = if (1 : Nat) = 1 then 0 else j.val; rw [if_pos rfl])
  have ed' : ∀ y : Cert.ReferenceIdeal.S300000.Idx → Elt Ideal .f32,
      broadcastInDim Cert.ReferenceIdeal.S300000x1 ![0] Cert.ReferenceIdeal.Gen.bcast_S300000_S300000x1_0 y (ix2 r (0 : Fin 1)) = y (ix1 r) := fun y =>
    broadcastInDim_apply _ Cert.ReferenceIdeal.Gen.bcast_S300000_S300000x1_0 y (ix2 r (0 : Fin 1)) (ix1 r) (fun a => match a with
      | ⟨0, _⟩ => by show r.val = if (300000 : Nat) = 1 then 0 else r.val; rw [if_neg (by decide)])
  rw [eb, eb', ez, ed, ed']

/-! ### The body's masked update is the reference's, entry by entry -/

/-- The offsets of the whole-block rectangles are zero on every axis. -/
theorem comb3_offs_zero : (![0, 0] : Fin 2 → Nat) = fun _ => 0 := funext fun a => by fin_cases a <;> rfl

/-- The body's indicator column at row r' of block `t` is the reference's indicator at row 20000·t + r'. -/
theorem comb3_pay1_apply (c : Dev nD) (deg : (⟨Cert.ReferenceIdeal.S300000, .f32⟩ : BufTy).Contents (Elt Ideal))
    (hdeg : V c main_v37 = shapeCast S300000x1 deg shapeCasts_S300000_S300000x1)
    (t : Fin cfg3.N) (r' : Fin 20000) (u : Fin 1) :
    k3_pay1 (F := Ideal) (View.ld (iblk3 V c 4 t) rD3) (ix2 r' u)
      = comb3_ind deg (ix1 ⟨20000 * t.val + r'.val, comb3_row_lt t r'⟩) := by
  rw [View.ld_unit_zero (S := S20000x1) comb3_offs_zero, comb3_pay1_blk, comb3_ind_apply, comb3_blk4_apply, hdeg, comb3_colCast_apply]

/-- The body's masked update at entry (r', j) of block `t` is the reference's masked update at entry
    (20000·t + r', j). -/
theorem comb3_pay2_apply (c : Dev nD) (bias : (⟨Cert.ReferenceIdeal.S64, .f32⟩ : BufTy).Contents (Elt Ideal))
    (deg : (⟨Cert.ReferenceIdeal.S300000, .f32⟩ : BufTy).Contents (Elt Ideal))
    (hbias : V c main_v42 = shapeCast S1x64 bias shapeCasts_S64_S1x64)
    (hdeg : V c main_v37 = shapeCast S300000x1 deg shapeCasts_S300000_S300000x1)
    (t : Fin cfg3.N) (r' : Fin 20000) (j : Fin 64) :
    k3_pay2 (F := Ideal) (View.ld (iblk3 V c 0 t) rX3) (View.ld (iblk3 V c 1 t) rW3) (View.ld (iblk3 V c 2 t) rB3)
        (View.ld (iblk3 V c 4 t) rD3) (View.ld (iblk3 V c 3 t) rX3) (ix2 r' j)
      = comb3_upd V c bias deg (ix2 ⟨20000 * t.val + r'.val, comb3_row_lt t r'⟩ j) := by
  simp only [View.ld_unit_zero (S := S20000x64) comb3_offs_zero, View.ld_unit_zero (S := S64x64) comb3_offs_zero,
    View.ld_unit_zero (S := S1x64) comb3_offs_zero, View.ld_unit_zero (S := S20000x1) comb3_offs_zero]
  rw [comb3_pay2_blk, comb3_pay1_blk, comb3_upd_apply, comb3_ind_apply]
  have el : ∀ k : Fin 64, lblk (ix2 r' j) k = ix2 r' k := fun k => funext fun a => by
    match a with
    | ⟨0, _⟩ => rfl
    | ⟨1, _⟩ => rfl
  have er : ∀ k : Fin 64, rblk (ix2 r' j) k = ix2 k j := fun k => funext fun a => by
    match a with
    | ⟨0, _⟩ => rfl
    | ⟨1, _⟩ => rfl
  have eL : ∀ k : Fin 64, lrow0 (ix2 (⟨20000 * t.val + r'.val, comb3_row_lt t r'⟩ : Fin 300000) j) k = ix2 ⟨20000 * t.val + r'.val, comb3_row_lt t r'⟩ k := fun k => funext fun a => by
    match a with
    | ⟨0, _⟩ => rfl
    | ⟨1, _⟩ => rfl
  have eR : ∀ k : Fin 64, rcol0 (ix2 (⟨20000 * t.val + r'.val, comb3_row_lt t r'⟩ : Fin 300000) j) k = ix2 k j := fun k => funext fun a => by
    match a with
    | ⟨0, _⟩ => rfl
    | ⟨1, _⟩ => rfl
  simp only [el, er, eL, eR, comb3_blk0_apply, comb3_blk1_apply, comb3_blk2_apply, comb3_blk3_apply, comb3_blk4_apply]
  rw [hbias, hdeg, shapeCast_a_1a_apply, comb3_colCast_apply]

/-! ### From the blocks to the array -/

/-- An entry of the new-rows block at point `t` sits in the array at row 20000·t + r', same column. -/
theorem comb3_blk5_emb (t : Fin cfg3.N) (r' : Fin 20000) (j : Fin 64) :
    ((cfg3.win 5).blk t).view.emb (ix2 r' j) = (ix2 ⟨20000 * t.val + r'.val, comb3_row_lt t r'⟩ j : S300000x64.Idx) := by
  funext a; apply Fin.ext
  obtain ⟨-, -, -, -, -, -, -, -, -, -, e0, e1⟩ := comb3_idx t
  match a with
  | ⟨0, _⟩ => show win3_5.index t (0 : Fin 2) * 20000 + 1 * r'.val = 20000 * t.val + r'.val; omega
  | ⟨1, _⟩ => show win3_5.index t (1 : Fin 2) * 64 + 1 * j.val = j.val; omega

/-- The whole array of new rows, as one function of what the region finds: the rows plus the masked update. -/
def comb3_new (c : Dev nD) (bias : (⟨Cert.ReferenceIdeal.S64, .f32⟩ : BufTy).Contents (Elt Ideal))
    (deg : (⟨Cert.ReferenceIdeal.S300000, .f32⟩ : BufTy).Contents (Elt Ideal)) : FVec Ideal Cert.ReferenceIdeal.S300000x64 .f32 :=
  addf (V c main_arg1) (comb3_upd V c bias deg)

/-- What point `t` writes back is block `t` of that array. -/
theorem comb3_flushed5_eq (c : Dev nD) (bias : (⟨Cert.ReferenceIdeal.S64, .f32⟩ : BufTy).Contents (Elt Ideal))
    (deg : (⟨Cert.ReferenceIdeal.S300000, .f32⟩ : BufTy).Contents (Elt Ideal))
    (hbias : V c main_v42 = shapeCast S1x64 bias shapeCasts_S64_S1x64)
    (hdeg : V c main_v37 = shapeCast S300000x1 deg shapeCasts_S300000_S300000x1) (t : Fin cfg3.N) :
    (dat3 (F := Ideal) V c).flushed 5 t = ((cfg3.win 5).blk t).view.read (Elt Ideal) (comb3_new V c bias deg) := by
  show (cfg3.win 5).cut (grid3.coords t) ((dat3 (F := Ideal) V c).after 5 t) = _
  rw [after3_5]
  unfold out3_5
  rw [View.canon_unit_zero comb3_offs_zero]
  funext y
  obtain ⟨r', j, rfl⟩ : ∃ (r' : Fin 20000) (j : Fin 64), y = ix2 r' j := ⟨y 0, y 1, eq_ix2 y⟩
  rw [View.read_apply]
  show k3_pay3 (F := Ideal) (View.ld (iblk3 V c 0 t) rX3) (View.ld (iblk3 V c 1 t) rW3) (View.ld (iblk3 V c 2 t) rB3)
      (View.ld (iblk3 V c 4 t) rD3) (View.ld (iblk3 V c 3 t) rX3) (ix2 r' j)
    = comb3_new V c bias deg (((cfg3.win 5).blk t).view.emb (ix2 r' j))
  rw [comb3_blk5_emb]
  unfold k3_pay3 comb3_new
  rw [addf_apply, addf_apply, comb3_pay2_apply V c bias deg hbias hdeg, View.ld_unit_zero (S := S20000x64) comb3_offs_zero,
    comb3_blk0_apply]

/-- An index of the array is in point `t`'s block iff each coordinate is in the block's range on its axis. -/
theorem comb3_mem_blk5 (t : Fin cfg3.N) (i : S300000x64.Idx) :
    i ∈ ((cfg3.win 5).blk t).view.set ↔ ∀ a : Fin 2, win3_5.index t a * S20000x64.size a ≤ (i a).val
      ∧ (i a).val < win3_5.index t a * S20000x64.size a + S20000x64.size a := by
  show i ∈ ((View.whole main_v43_0).slice (win3_5.rect t)).set ↔ _
  rw [View.set_slice_whole, Rect.mem_set_unit]
  exact Iff.rfl

/-- Row `r` of the new rows lies in the block of point `r / 20000`, which writes it back. -/
theorem comb3_cover5 (i : S300000x64.Idx) :
    ∃ t : Fin cfg3.N, (cfg3.win 5).flush t = true ∧ i ∈ ((cfg3.win 5).blk t).view.set := by
  have hi0 : (i 0).val < 300000 := (i 0).isLt
  have hi1 : (i 1).val < 64 := (i 1).isLt
  have hN : cfg3.N = 15 := N_3
  have ht : (i 0).val / 20000 < cfg3.N := by rw [hN]; omega
  obtain ⟨-, -, -, -, -, -, -, -, -, -, e0, e1⟩ := comb3_idx ⟨(i 0).val / 20000, ht⟩
  refine ⟨⟨(i 0).val / 20000, ht⟩, flush3_5 _, ?_⟩
  rw [comb3_mem_blk5]
  intro a
  match a with
  | ⟨0, _⟩ =>
    show win3_5.index ⟨(i 0).val / 20000, ht⟩ (0 : Fin 2) * 20000 ≤ (i 0).val
      ∧ (i 0).val < win3_5.index ⟨(i 0).val / 20000, ht⟩ (0 : Fin 2) * 20000 + 20000
    rw [e0]
    show (i 0).val / 20000 * 20000 ≤ (i 0).val ∧ (i 0).val < (i 0).val / 20000 * 20000 + 20000
    omega
  | ⟨1, _⟩ =>
    show win3_5.index ⟨(i 0).val / 20000, ht⟩ (1 : Fin 2) * 64 ≤ (i 1).val
      ∧ (i 1).val < win3_5.index ⟨(i 0).val / 20000, ht⟩ (1 : Fin 2) * 64 + 64
    rw [e1]
    omega

/-- The array of new rows after the region: the rows plus the reference's masked update. -/
theorem comb3_new_eq (c : Dev nD) (bias : (⟨Cert.ReferenceIdeal.S64, .f32⟩ : BufTy).Contents (Elt Ideal))
    (deg : (⟨Cert.ReferenceIdeal.S300000, .f32⟩ : BufTy).Contents (Elt Ideal))
    (hbias : V c main_v42 = shapeCast S1x64 bias shapeCasts_S64_S1x64)
    (hdeg : V c main_v37 = shapeCast S300000x1 deg shapeCasts_S300000_S300000x1) :
    (dat3 (F := Ideal) V c).arrAt 5 cfg3.N = comb3_new V c bias deg :=
  (dat3 (F := Ideal) V c).arrAt_eq_of_cover 5 (comb3_new V c bias deg)
    (fun t _ => comb3_flushed5_eq V c bias deg hbias hdeg t) comb3_cover5

end Value

/-- The region's new rows, as the whole array after the last point, are the reference's own term. -/
theorem comb3_value (V : (c : Dev nD) → (b : Ref sig .tc) → Buf (Elt Ideal) ((c : Thread nD τ).loc b)) (c : Dev nD)
    (bias : (⟨Cert.ReferenceIdeal.S64, .f32⟩ : BufTy).Contents (Elt Ideal)) (deg : (⟨Cert.ReferenceIdeal.S300000, .f32⟩ : BufTy).Contents (Elt Ideal))
    (hbias : V c main_v42 = shapeCast S1x64 bias shapeCasts_S64_S1x64)
    (hdeg : V c main_v37 = shapeCast S300000x1 deg shapeCasts_S300000_S300000x1) :
    @Eq (FVec Ideal Cert.ReferenceIdeal.S300000x64 .f32) ((dat3 (F := Ideal) V c).arrAt 5 cfg3.N)
      (addf (V c main_arg1) (mulf (maximumf (addf (addf (Host.dotGeneral (φ₁ := .f32) (φ₂ := .f32) Cert.ReferenceIdeal.dot_S300000x64_S64x64_S300000x64_1_0_0_1_n_n none (V c main_arg1) (V c main_v41))
            (broadcastInDim Cert.ReferenceIdeal.S300000x64 ![0, 1] Cert.ReferenceIdeal.Gen.bcast_S1x64_S300000x64_0_1 (broadcastInDim Cert.ReferenceIdeal.S1x64 ![1] Cert.ReferenceIdeal.Gen.bcast_S64_S1x64_1 bias)))
            (V c main_v33))
          (broadcastInDim Cert.ReferenceIdeal.S300000x64 ![] Cert.ReferenceIdeal.Gen.bcast_S_S300000x64 (constant Cert.ReferenceIdeal.S_ .f32 0x00000000#32)))
        (broadcastInDim Cert.ReferenceIdeal.S300000x64 ![0, 1] Cert.ReferenceIdeal.Gen.bcast_S300000x1_S300000x64_0_1 (broadcastInDim Cert.ReferenceIdeal.S300000x1 ![0] Cert.ReferenceIdeal.Gen.bcast_S300000_S300000x1_0
          (uitofp (F := Ideal) .f32 (cmpf (F := Ideal) .ogt deg (broadcastInDim Cert.ReferenceIdeal.S300000 ![] Cert.ReferenceIdeal.Gen.bcast_S_S300000 (constant Cert.ReferenceIdeal.S_ .f32 0x00000000#32)))))))) := by
  rw [comb3_new_eq V c bias deg hbias hdeg]
  unfold comb3_new comb3_upd comb3_ind
  rfl

end Cert.KernelIdeal.Hand
end
-- ==== Proof.LibSumRegroup.lean ====
/-
  Finite sums regrouped, over any additive commutative monoid (the extended reals among them: no finiteness is asked).

  * An array of `N = T * B` rows cut into `T` blocks of `B` consecutive rows: the sum over all rows is the sum, over the
    blocks, of each block's sum over its own rows (`sum_blocks`; row `r'` of block `t` is row `B * t + r'`).
  * A sum read through a reshape is the sum of the operand: a reshape matches the two index sets one to one
    (`sum_shapeCast`).
  * A sum over a rank-1 index set is the sum over its coordinate (`sum_idx1`); over a rank-2 index set whose second axis
    has one coordinate, the sum over the first coordinate (`sum_idx2_unit`).
-/
import Mathlib.Logic.Equiv.Fin.Basic
import Mathlib.Algebra.BigOperators.Fin
import Idealize.ShloMosaic.Lib.ValueIdx
import Idealize.ShloMosaic.Lib.ValueIdxRank1

namespace Cert.KernelIdeal.Hand

open Idealize.ShloMosaic Idealize.ShloMosaic.ValueIdx

section SumRegroup
variable {α : Type} [AddCommMonoid α]

/-- Row `r'` of block `t`, among `T` blocks of `B` rows, is a row of the `N = T * B`. -/
theorem blockRow_lt {T B N : ℕ} (hN : T * B = N) (t : Fin T) (r' : Fin B) : B * t.val + r'.val < N := by
  have h1 : B * t.val + r'.val < B * (t.val + 1) := by
    rw [Nat.mul_succ]; exact Nat.add_lt_add_left r'.isLt _
  have h2 : B * (t.val + 1) ≤ B * T := Nat.mul_le_mul_left _ t.isLt
  rw [← hN, Nat.mul_comm T B]
  exact Nat.lt_of_lt_of_le h1 h2

/-- The row of the whole array that is row `r'` of block `t`. -/
def blockRow {T B N : ℕ} (hN : T * B = N) (t : Fin T) (r' : Fin B) : Fin N :=
  ⟨B * t.val + r'.val, blockRow_lt hN t r'⟩

/-- The sum over all `N = T * B` rows, block by block: the pairs (block, row of the block) are the rows, each once
    (`row` names row `r'` of block `t` in whatever spelling the caller has, its number being `B * t + r'`). -/
theorem sum_blocks_of {T B N : ℕ} (hN : T * B = N) (g : Fin N → α) (row : Fin T → Fin B → Fin N)
    (hrow : ∀ t r', (row t r').val = B * t.val + r'.val) :
    ∑ r : Fin N, g r = ∑ t : Fin T, ∑ r' : Fin B, g (row t r') := by
  subst hN
  rw [← Equiv.sum_comp finProdFinEquiv g, Fintype.sum_prod_type]
  refine Finset.sum_congr rfl fun t _ => Finset.sum_congr rfl fun r' _ => congrArg g (Fin.ext ?_)
  rw [hrow]
  show r'.val + B * t.val = B * t.val + r'.val
  exact Nat.add_comm _ _

/-- The same with the row named by `blockRow`. -/
theorem sum_blocks {T B N : ℕ} (hN : T * B = N) (g : Fin N → α) :
    ∑ r : Fin N, g r = ∑ t : Fin T, ∑ r' : Fin B, g (blockRow hN t r') :=
  sum_blocks_of hN g (blockRow hN) fun _ _ => rfl

/-- A sum read through a reshape is the sum of the operand. -/
theorem sum_shapeCast {s t : Shape} (x : s.Idx → α) (h : s.ShapeCasts t) :
    ∑ j : t.Idx, shapeCast t x h j = ∑ k : s.Idx, x k :=
  Equiv.sum_comp (Shape.reshapeEquiv h) x

/-- A sum over a rank-1 index set is the sum over its coordinate. -/
theorem sum_idx1 {n : ℕ} (f : (⟨1, ![n]⟩ : Shape).Idx → α) : ∑ i, f i = ∑ a : Fin n, f (ix1 a) :=
  (Equiv.sum_comp (idxEquiv1 (n := n)).symm f).symm

/-- A sum over a rank-2 index set whose second axis has one coordinate is the sum over the first coordinate. -/
theorem sum_idx2_unit {n : ℕ} (f : (⟨2, ![n, 1]⟩ : Shape).Idx → α) : ∑ i, f i = ∑ a : Fin n, f (ix2 a (0 : Fin 1)) := by
  rw [sum_idx2]
  exact Finset.sum_congr rfl fun a _ => Fin.sum_univ_one _

end SumRegroup

end Cert.KernelIdeal.Hand
-- ==== Proof.StatsValue2.lean ====
import proofs.«427575_j39067022524700_2_alg».proof.Proof.Comb2Arr
import proofs.«427575_j39067022524700_2_alg».proof.Proof.CombValue2
import proofs.«427575_j39067022524700_2_alg».proof.Proof.Gen.ReferenceIdeal
import Idealize.ShloMosaic.Lib.Pipeline.Value
import Idealize.ShloMosaic.Lib.ValueLayout
import Idealize.ShloMosaic.Lib.ValueIdxRank1
import Idealize.ShloMosaic.Lib.ReduceAll
import Idealize.ShloMosaic.Lib.IdealHost
import Idealize.ShloMosaic.PureOps.Ideal.Laws
import proofs.«427575_j39067022524700_2_alg».proof.Proof.LibSumRegroup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

/-! ## A combine region's statistics: the two column sums of the per-block array are the reference's two whole-array sums

Block `t` of 20000 rows leaves in row `t` of the statistics array the sum over its rows and columns of the squared masked
update and the sum over its rows of the indicator of a positive degree. The host then sums each column over the 25
blocks, from zero. The reference sums the squared update over all 500000 rows and 64 columns at once, and the indicator
over all 500000 rows, from zero. Row `a` of block `t` is row `20000 t + a` of the array, so the two are one finite sum,
grouped by blocks on one side: addition of extended reals is commutative and associative, and nothing else is used. -/

/-! ### The statistics payload read at its two entries -/

section Pay

/-- A one-entry vector, recast to one entry on three unit axes and read there, is read at its one index. -/
theorem unitRead2 (w : FVec Ideal S1 .f32) :
    extractAt ![0, 0, 0] (shapeCast S1x1x1 w shapeCasts_S1_S1x1x1) inpos_S1x1x1_p0_0_0 = w (ix1 (0 : Fin 1)) :=
  shapeCast_apply w shapeCasts_S1_S1x1x1 _ (ix1 (0 : Fin 1)) (by decide)

/-- The two-entry row built from two scalars, recast to one row, read at its first entry. -/
theorem rowFst2 (p q : Ideal .f32) :
    shapeCast S1x2 (concatenate S2 0 [⟨S1, broadcast S1 p⟩, ⟨S1, broadcast S1 q⟩] concatenates_S1_S1_S2_d0) shapeCasts_S2_S1x2
      (ix2 (0 : Fin 1) (0 : Fin 2)) = p := by
  refine (shapeCast_apply _ shapeCasts_S2_S1x2 (ix2 (0 : Fin 1) (0 : Fin 2)) (ix1 (0 : Fin 2)) (by decide)).trans ?_
  exact concatenate_pair_apply_left (0 : Fin S2.rank) _ _ concatenates_S1_S1_S2_d0 (ix1 (0 : Fin 2)) rfl (ix1 (0 : Fin 1))
    (fun b => match b with | ⟨0, _⟩ => rfl)

/-- … and at its second. -/
theorem rowSnd2 (p q : Ideal .f32) :
    shapeCast S1x2 (concatenate S2 0 [⟨S1, broadcast S1 p⟩, ⟨S1, broadcast S1 q⟩] concatenates_S1_S1_S2_d0) shapeCasts_S2_S1x2
      (ix2 (0 : Fin 1) (1 : Fin 2)) = q := by
  refine (shapeCast_apply _ shapeCasts_S2_S1x2 (ix2 (0 : Fin 1) (1 : Fin 2)) (ix1 (1 : Fin 2)) (by decide)).trans ?_
  exact concatenate_pair_apply_right (0 : Fin S2.rank) _ _ concatenates_S1_S1_S2_d0 (ix1 (1 : Fin 2)) rfl rfl (ix1 (0 : Fin 1))
    (fun b hb => match b with | ⟨0, _⟩ => (hb rfl).elim) rfl

variable (v0 : Vec Ideal S20000x64 .f32) (v1 : Vec Ideal S64x64 .f32) (v4 : Vec Ideal S1x64 .f32)
  (v8 : Vec Ideal S20000x1 .f32) (v14 : Vec Ideal S20000x64 .f32)

/-- Entry 0 of the block's statistics row: the sum over the block's rows and columns of the squared update. -/
theorem pay4_sq2 : k2_pay4 (F := Ideal) v0 v1 v4 v8 v14 (ix2 (0 : Fin 1) (0 : Fin 2))
    = ∑ a : Fin 20000, ∑ b : Fin 64,
        k2_pay2 (F := Ideal) v0 v1 v4 v8 v14 (ix2 a b) * k2_pay2 (F := Ideal) v0 v1 v4 v8 v14 (ix2 a b) := by
  unfold k2_pay4
  dsimp only
  rw [rowFst2, unitRead2]
  refine (Ideal.multiReduction_add_total _ _ reduces_S1x20000x64_S1 (by decide) _ _ _).trans ?_
  rw [sum_shapeCast, sum_idx2]
  exact Finset.sum_congr rfl fun a _ => Finset.sum_congr rfl fun b _ => rfl

/-- Entry 1 of the block's statistics row: the sum over the block's rows of the indicator column. -/
theorem pay4_cnt2 : k2_pay4 (F := Ideal) v0 v1 v4 v8 v14 (ix2 (0 : Fin 1) (1 : Fin 2))
    = ∑ a : Fin 20000, k2_pay1 (F := Ideal) v8 (ix2 a (0 : Fin 1)) := by
  unfold k2_pay4
  dsimp only
  rw [rowSnd2, unitRead2]
  refine (Ideal.multiReduction_add_total _ _ reduces_S1x20000x1_S1 (by decide) _ _ _).trans ?_
  rw [sum_shapeCast, sum_idx2_unit]

end Pay

/-! ### The statistics array row by row, and its two column sums -/

section Regions
variable (V : (c : Dev nD) → (b : Ref sig .tc) → Buf (Elt Ideal) ((c : Thread nD τ).loc b)) (c : Dev nD)

/-- The masked update of a block, from the windows' blocks in window order (rows, self weight, bias, propagated sum,
    degree column). -/
def updOf2 (x0 : Vec Ideal S20000x64 .f32) (x1 : Vec Ideal S64x64 .f32) (x2 : Vec Ideal S1x64 .f32) (x3 : Vec Ideal S20000x64 .f32)
    (x4 : Vec Ideal S20000x1 .f32) : FVec Ideal S20000x64 .f32 :=
  k2_pay2 (View.ld x0 rX2) (View.ld x1 rW2) (View.ld x2 rB2) (View.ld x4 rD2) (View.ld x3 rX2)

/-- The indicator column of a block (1 where the degree is positive, else 0), from the degree column's block. -/
def indOf2 (x4 : Vec Ideal S20000x1 .f32) : FVec Ideal S20000x1 .f32 := k2_pay1 (View.ld x4 rD2)

/-- The masked update of the block at point `t`. -/
def upd2 (t : Fin cfg2.N) : FVec Ideal S20000x64 .f32 :=
  updOf2 (iblk2 V c 0 t) (iblk2 V c 1 t) (iblk2 V c 2 t) (iblk2 V c 3 t) (iblk2 V c 4 t)

/-- The indicator column of the block at point `t`. -/
def ind2 (t : Fin cfg2.N) : FVec Ideal S20000x1 .f32 := indOf2 (iblk2 V c 4 t)

/-- The array's rows are the blocks' rows laid end to end. -/
theorem rows2 : 25 * 20000 = 500000 := by decide

/-- Row `r` of the statistics array, entry 0: the sum over block `r`'s rows and columns of the squared update. -/
theorem statsArr2_sq (r : Fin 25) : statsArr2 (F := Ideal) V c (ix2 r (0 : Fin 2))
    = ∑ a : Fin 20000, ∑ b : Fin 64,
        upd2 V c (Fin.cast N_2.symm r) (ix2 a b) * upd2 V c (Fin.cast N_2.symm r) (ix2 a b) := by
  unfold statsArr2 stats2At stat2 upd2 updOf2
  exact pay4_sq2 _ _ _ _ _

/-- Row `r` of the statistics array, entry 1: the sum over block `r`'s rows of the indicator column. -/
theorem statsArr2_cnt (r : Fin 25) : statsArr2 (F := Ideal) V c (ix2 r (1 : Fin 2))
    = ∑ a : Fin 20000, ind2 V c (Fin.cast N_2.symm r) (ix2 a (0 : Fin 1)) := by
  unfold statsArr2 stats2At stat2 ind2 indOf2
  exact pay4_cnt2 _ _ _ _ _

/-- Column 0 of the statistics array summed from zero is the sum from zero of the squares of any 500000x64 array `D`
    whose row `20000 t + a` is row `a` of block `t`'s update: the same finite sum, grouped by blocks on one side. -/
theorem stats2_sq_of (D : FVec Ideal Cert.ReferenceIdeal.S500000x64 .f32)
    (hD : ∀ (t : Fin 25) (a : Fin 20000) (b : Fin 64),
      upd2 V c (Fin.cast N_2.symm t) (ix2 a b) = D (ix2 (blockRow rows2 t a) b)) :
    Host.reduceAdd (shapeCast S25 (extractStridedSlice S25x1 ![0, 0] (statsArr2 (F := Ideal) V c) slices_S25x2_S25x1_0_0) shapeCasts_S25x1_S25)
        (constant S_ .f32 0x00000000#32) reducesTo_S25_S_d0 h_S_
      = Host.reduceAdd (mulf D D) (constant Cert.ReferenceIdeal.S_ .f32 0x00000000#32)
          Cert.ReferenceIdeal.Gen.reducesTo_S500000x64_S_d0_1 Cert.ReferenceIdeal.Gen.h_S_ := by
  funext i
  rw [hostReduceAdd_apply, hostReduceAdd_apply,
    Ideal.hostReduceAdd_total reducesTo_S25_S_d0 (fun b => b.elim0),
    Ideal.hostReduceAdd_total Cert.ReferenceIdeal.Gen.reducesTo_S500000x64_S_d0_1 (fun b => b.elim0)]
  rw [sum_shapeCast, sum_idx2_unit, sum_idx2 (mulf D D), sum_blocks rows2]
  refine congrArg₂ (· + ·) rfl ?_
  refine Finset.sum_congr rfl fun t _ => ?_
  rw [slice2_axis1_apply 0 (statsArr2 (F := Ideal) V c) slices_S25x2_S25x1_0_0 t (0 : Fin 1) (0 : Fin 2) rfl, statsArr2_sq]
  exact Finset.sum_congr rfl fun a _ => Finset.sum_congr rfl fun b _ => by rw [hD]; rfl

/-- Column 1 of the statistics array summed from zero is the sum from zero of any 500000-vector `I` whose entry
    `20000 t + a` is entry `a` of block `t`'s indicator column. -/
theorem stats2_cnt_of (I : FVec Ideal Cert.ReferenceIdeal.S500000 .f32)
    (hI : ∀ (t : Fin 25) (a : Fin 20000),
      ind2 V c (Fin.cast N_2.symm t) (ix2 a (0 : Fin 1)) = I (ix1 (blockRow rows2 t a))) :
    Host.reduceAdd (shapeCast S25 (extractStridedSlice S25x1 ![0, 1] (statsArr2 (F := Ideal) V c) slices_S25x2_S25x1_0_1) shapeCasts_S25x1_S25)
        (constant S_ .f32 0x00000000#32) reducesTo_S25_S_d0 h_S_
      = Host.reduceAdd I (constant Cert.ReferenceIdeal.S_ .f32 0x00000000#32)
          Cert.ReferenceIdeal.Gen.reducesTo_S500000_S_d0 Cert.ReferenceIdeal.Gen.h_S_ := by
  funext i
  rw [hostReduceAdd_apply, hostReduceAdd_apply,
    Ideal.hostReduceAdd_total reducesTo_S25_S_d0 (fun b => b.elim0),
    Ideal.hostReduceAdd_total Cert.ReferenceIdeal.Gen.reducesTo_S500000_S_d0 (fun b => b.elim0)]
  rw [sum_shapeCast, sum_idx2_unit, sum_idx1 I, sum_blocks rows2]
  refine congrArg₂ (· + ·) rfl ?_
  refine Finset.sum_congr rfl fun t _ => ?_
  rw [slice2_axis1_apply 1 (statsArr2 (F := Ideal) V c) slices_S25x2_S25x1_0_1 t (0 : Fin 1) (1 : Fin 2) rfl, statsArr2_cnt]
  exact Finset.sum_congr rfl fun a _ => hI t a

variable (bias : (⟨Cert.ReferenceIdeal.S64, .f32⟩ : BufTy).Contents (Elt Ideal))
  (deg : (⟨Cert.ReferenceIdeal.S500000, .f32⟩ : BufTy).Contents (Elt Ideal))

/-- Column 0 of the statistics array, summed from zero by the host, is the reference's sum from zero of the squared
    masked update over the whole array. -/
theorem stats2_sq (hbias : V c main_v39 = shapeCast S1x64 bias shapeCasts_S64_S1x64)
    (hdeg : V c main_v20 = shapeCast S500000x1 deg shapeCasts_S500000_S500000x1) :
    Host.reduceAdd (shapeCast S25 (extractStridedSlice S25x1 ![0, 0] (statsArr2 (F := Ideal) V c) slices_S25x2_S25x1_0_0) shapeCasts_S25x1_S25)
        (constant S_ .f32 0x00000000#32) reducesTo_S25_S_d0 h_S_
      = Host.reduceAdd (mulf (comb2_upd V c bias deg) (comb2_upd V c bias deg)) (constant Cert.ReferenceIdeal.S_ .f32 0x00000000#32)
          Cert.ReferenceIdeal.Gen.reducesTo_S500000x64_S_d0_1 Cert.ReferenceIdeal.Gen.h_S_ :=
  stats2_sq_of V c (comb2_upd V c bias deg) fun t a b =>
    comb2_pay2_apply V c bias deg hbias hdeg (Fin.cast N_2.symm t) a b

/-- Column 1 of the statistics array, summed from zero by the host, is the reference's sum from zero of the indicator
    of a positive degree over the whole vector. -/
theorem stats2_cnt (hdeg : V c main_v20 = shapeCast S500000x1 deg shapeCasts_S500000_S500000x1) :
    Host.reduceAdd (shapeCast S25 (extractStridedSlice S25x1 ![0, 1] (statsArr2 (F := Ideal) V c) slices_S25x2_S25x1_0_1) shapeCasts_S25x1_S25)
        (constant S_ .f32 0x00000000#32) reducesTo_S25_S_d0 h_S_
      = Host.reduceAdd (comb2_ind deg) (constant Cert.ReferenceIdeal.S_ .f32 0x00000000#32)
          Cert.ReferenceIdeal.Gen.reducesTo_S500000_S_d0 Cert.ReferenceIdeal.Gen.h_S_ :=
  stats2_cnt_of V c (comb2_ind deg) fun t a =>
    comb2_pay1_apply V c deg hdeg (Fin.cast N_2.symm t) a (0 : Fin 1)

end Regions

end Cert.KernelIdeal.Hand
end
-- ==== Proof.StatsValue3.lean ====
import proofs.«427575_j39067022524700_2_alg».proof.Proof.Comb3Arr
import proofs.«427575_j39067022524700_2_alg».proof.Proof.CombValue3
import proofs.«427575_j39067022524700_2_alg».proof.Proof.Gen.ReferenceIdeal
import Idealize.ShloMosaic.Lib.Pipeline.Value
import Idealize.ShloMosaic.Lib.ValueLayout
import Idealize.ShloMosaic.Lib.ValueIdxRank1
import Idealize.ShloMosaic.Lib.ReduceAll
import Idealize.ShloMosaic.Lib.IdealHost
import Idealize.ShloMosaic.PureOps.Ideal.Laws
import proofs.«427575_j39067022524700_2_alg».proof.Proof.LibSumRegroup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

/-! ## A combine region's statistics: the two column sums of the per-block array are the reference's two whole-array sums

Block `t` of 20000 rows leaves in row `t` of the statistics array the sum over its rows and columns of the squared masked
update and the sum over its rows of the indicator of a positive degree. The host then sums each column over the 15
blocks, from zero. The reference sums the squared update over all 300000 rows and 64 columns at once, and the indicator
over all 300000 rows, from zero. Row `a` of block `t` is row `20000 t + a` of the array, so the two are one finite sum,
grouped by blocks on one side: addition of extended reals is commutative and associative, and nothing else is used. -/

/-! ### The statistics payload read at its two entries -/

section Pay

/-- A one-entry vector, recast to one entry on three unit axes and read there, is read at its one index. -/
theorem unitRead3 (w : FVec Ideal S1 .f32) :
    extractAt ![0, 0, 0] (shapeCast S1x1x1 w shapeCasts_S1_S1x1x1) inpos_S1x1x1_p0_0_0 = w (ix1 (0 : Fin 1)) :=
  shapeCast_apply w shapeCasts_S1_S1x1x1 _ (ix1 (0 : Fin 1)) (by decide)

/-- The two-entry row built from two scalars, recast to one row, read at its first entry. -/
theorem rowFst3 (p q : Ideal .f32) :
    shapeCast S1x2 (concatenate S2 0 [⟨S1, broadcast S1 p⟩, ⟨S1, broadcast S1 q⟩] concatenates_S1_S1_S2_d0) shapeCasts_S2_S1x2
      (ix2 (0 : Fin 1) (0 : Fin 2)) = p := by
  refine (shapeCast_apply _ shapeCasts_S2_S1x2 (ix2 (0 : Fin 1) (0 : Fin 2)) (ix1 (0 : Fin 2)) (by decide)).trans ?_
  exact concatenate_pair_apply_left (0 : Fin S2.rank) _ _ concatenates_S1_S1_S2_d0 (ix1 (0 : Fin 2)) rfl (ix1 (0 : Fin 1))
    (fun b => match b with | ⟨0, _⟩ => rfl)

/-- … and at its second. -/
theorem rowSnd3 (p q : Ideal .f32) :
    shapeCast S1x2 (concatenate S2 0 [⟨S1, broadcast S1 p⟩, ⟨S1, broadcast S1 q⟩] concatenates_S1_S1_S2_d0) shapeCasts_S2_S1x2
      (ix2 (0 : Fin 1) (1 : Fin 2)) = q := by
  refine (shapeCast_apply _ shapeCasts_S2_S1x2 (ix2 (0 : Fin 1) (1 : Fin 2)) (ix1 (1 : Fin 2)) (by decide)).trans ?_
  exact concatenate_pair_apply_right (0 : Fin S2.rank) _ _ concatenates_S1_S1_S2_d0 (ix1 (1 : Fin 2)) rfl rfl (ix1 (0 : Fin 1))
    (fun b hb => match b with | ⟨0, _⟩ => (hb rfl).elim) rfl

variable (v0 : Vec Ideal S20000x64 .f32) (v1 : Vec Ideal S64x64 .f32) (v4 : Vec Ideal S1x64 .f32)
  (v8 : Vec Ideal S20000x1 .f32) (v14 : Vec Ideal S20000x64 .f32)

/-- Entry 0 of the block's statistics row: the sum over the block's rows and columns of the squared update. -/
theorem pay4_sq3 : k3_pay4 (F := Ideal) v0 v1 v4 v8 v14 (ix2 (0 : Fin 1) (0 : Fin 2))
    = ∑ a : Fin 20000, ∑ b : Fin 64,
        k3_pay2 (F := Ideal) v0 v1 v4 v8 v14 (ix2 a b) * k3_pay2 (F := Ideal) v0 v1 v4 v8 v14 (ix2 a b) := by
  unfold k3_pay4
  dsimp only
  rw [rowFst3, unitRead3]
  refine (Ideal.multiReduction_add_total _ _ reduces_S1x20000x64_S1 (by decide) _ _ _).trans ?_
  rw [sum_shapeCast, sum_idx2]
  exact Finset.sum_congr rfl fun a _ => Finset.sum_congr rfl fun b _ => rfl

/-- Entry 1 of the block's statistics row: the sum over the block's rows of the indicator column. -/
theorem pay4_cnt3 : k3_pay4 (F := Ideal) v0 v1 v4 v8 v14 (ix2 (0 : Fin 1) (1 : Fin 2))
    = ∑ a : Fin 20000, k3_pay1 (F := Ideal) v8 (ix2 a (0 : Fin 1)) := by
  unfold k3_pay4
  dsimp only
  rw [rowSnd3, unitRead3]
  refine (Ideal.multiReduction_add_total _ _ reduces_S1x20000x1_S1 (by decide) _ _ _).trans ?_
  rw [sum_shapeCast, sum_idx2_unit]

end Pay

/-! ### The statistics array row by row, and its two column sums -/

section Regions
variable (V : (c : Dev nD) → (b : Ref sig .tc) → Buf (Elt Ideal) ((c : Thread nD τ).loc b)) (c : Dev nD)

/-- The masked update of a block, from the windows' blocks in window order (rows, self weight, bias, propagated sum,
    degree column). -/
def updOf3 (x0 : Vec Ideal S20000x64 .f32) (x1 : Vec Ideal S64x64 .f32) (x2 : Vec Ideal S1x64 .f32) (x3 : Vec Ideal S20000x64 .f32)
    (x4 : Vec Ideal S20000x1 .f32) : FVec Ideal S20000x64 .f32 :=
  k3_pay2 (View.ld x0 rX3) (View.ld x1 rW3) (View.ld x2 rB3) (View.ld x4 rD3) (View.ld x3 rX3)

/-- The indicator column of a block (1 where the degree is positive, else 0), from the degree column's block. -/
def indOf3 (x4 : Vec Ideal S20000x1 .f32) : FVec Ideal S20000x1 .f32 := k3_pay1 (View.ld x4 rD3)

/-- The masked update of the block at point `t`. -/
def upd3 (t : Fin cfg3.N) : FVec Ideal S20000x64 .f32 :=
  updOf3 (iblk3 V c 0 t) (iblk3 V c 1 t) (iblk3 V c 2 t) (iblk3 V c 3 t) (iblk3 V c 4 t)

/-- The indicator column of the block at point `t`. -/
def ind3 (t : Fin cfg3.N) : FVec Ideal S20000x1 .f32 := indOf3 (iblk3 V c 4 t)

/-- The array's rows are the blocks' rows laid end to end. -/
theorem rows3 : 15 * 20000 = 300000 := by decide

/-- Row `r` of the statistics array, entry 0: the sum over block `r`'s rows and columns of the squared update. -/
theorem statsArr3_sq (r : Fin 15) : statsArr3 (F := Ideal) V c (ix2 r (0 : Fin 2))
    = ∑ a : Fin 20000, ∑ b : Fin 64,
        upd3 V c (Fin.cast N_3.symm r) (ix2 a b) * upd3 V c (Fin.cast N_3.symm r) (ix2 a b) := by
  unfold statsArr3 stats3At stat3 upd3 updOf3
  exact pay4_sq3 _ _ _ _ _

/-- Row `r` of the statistics array, entry 1: the sum over block `r`'s rows of the indicator column. -/
theorem statsArr3_cnt (r : Fin 15) : statsArr3 (F := Ideal) V c (ix2 r (1 : Fin 2))
    = ∑ a : Fin 20000, ind3 V c (Fin.cast N_3.symm r) (ix2 a (0 : Fin 1)) := by
  unfold statsArr3 stats3At stat3 ind3 indOf3
  exact pay4_cnt3 _ _ _ _ _

/-- Column 0 of the statistics array summed from zero is the sum from zero of the squares of any 300000x64 array `D`
    whose row `20000 t + a` is row `a` of block `t`'s update: the same finite sum, grouped by blocks on one side. -/
theorem stats3_sq_of (D : FVec Ideal Cert.ReferenceIdeal.S300000x64 .f32)
    (hD : ∀ (t : Fin 15) (a : Fin 20000) (b : Fin 64),
      upd3 V c (Fin.cast N_3.symm t) (ix2 a b) = D (ix2 (blockRow rows3 t a) b)) :
    Host.reduceAdd (shapeCast S15 (extractStridedSlice S15x1 ![0, 0] (statsArr3 (F := Ideal) V c) slices_S15x2_S15x1_0_0) shapeCasts_S15x1_S15)
        (constant S_ .f32 0x00000000#32) reducesTo_S15_S_d0 h_S_
      = Host.reduceAdd (mulf D D) (constant Cert.ReferenceIdeal.S_ .f32 0x00000000#32)
          Cert.ReferenceIdeal.Gen.reducesTo_S300000x64_S_d0_1 Cert.ReferenceIdeal.Gen.h_S_ := by
  funext i
  rw [hostReduceAdd_apply, hostReduceAdd_apply,
    Ideal.hostReduceAdd_total reducesTo_S15_S_d0 (fun b => b.elim0),
    Ideal.hostReduceAdd_total Cert.ReferenceIdeal.Gen.reducesTo_S300000x64_S_d0_1 (fun b => b.elim0)]
  rw [sum_shapeCast, sum_idx2_unit, sum_idx2 (mulf D D), sum_blocks rows3]
  refine congrArg₂ (· + ·) rfl ?_
  refine Finset.sum_congr rfl fun t _ => ?_
  rw [slice2_axis1_apply 0 (statsArr3 (F := Ideal) V c) slices_S15x2_S15x1_0_0 t (0 : Fin 1) (0 : Fin 2) rfl, statsArr3_sq]
  exact Finset.sum_congr rfl fun a _ => Finset.sum_congr rfl fun b _ => by rw [hD]; rfl

/-- Column 1 of the statistics array summed from zero is the sum from zero of any 300000-vector `I` whose entry
    `20000 t + a` is entry `a` of block `t`'s indicator column. -/
theorem stats3_cnt_of (I : FVec Ideal Cert.ReferenceIdeal.S300000 .f32)
    (hI : ∀ (t : Fin 15) (a : Fin 20000),
      ind3 V c (Fin.cast N_3.symm t) (ix2 a (0 : Fin 1)) = I (ix1 (blockRow rows3 t a))) :
    Host.reduceAdd (shapeCast S15 (extractStridedSlice S15x1 ![0, 1] (statsArr3 (F := Ideal) V c) slices_S15x2_S15x1_0_1) shapeCasts_S15x1_S15)
        (constant S_ .f32 0x00000000#32) reducesTo_S15_S_d0 h_S_
      = Host.reduceAdd I (constant Cert.ReferenceIdeal.S_ .f32 0x00000000#32)
          Cert.ReferenceIdeal.Gen.reducesTo_S300000_S_d0 Cert.ReferenceIdeal.Gen.h_S_ := by
  funext i
  rw [hostReduceAdd_apply, hostReduceAdd_apply,
    Ideal.hostReduceAdd_total reducesTo_S15_S_d0 (fun b => b.elim0),
    Ideal.hostReduceAdd_total Cert.ReferenceIdeal.Gen.reducesTo_S300000_S_d0 (fun b => b.elim0)]
  rw [sum_shapeCast, sum_idx2_unit, sum_idx1 I, sum_blocks rows3]
  refine congrArg₂ (· + ·) rfl ?_
  refine Finset.sum_congr rfl fun t _ => ?_
  rw [slice2_axis1_apply 1 (statsArr3 (F := Ideal) V c) slices_S15x2_S15x1_0_1 t (0 : Fin 1) (1 : Fin 2) rfl, statsArr3_cnt]
  exact Finset.sum_congr rfl fun a _ => hI t a

variable (bias : (⟨Cert.ReferenceIdeal.S64, .f32⟩ : BufTy).Contents (Elt Ideal))
  (deg : (⟨Cert.ReferenceIdeal.S300000, .f32⟩ : BufTy).Contents (Elt Ideal))

/-- Column 0 of the statistics array, summed from zero by the host, is the reference's sum from zero of the squared
    masked update over the whole array. -/
theorem stats3_sq (hbias : V c main_v42 = shapeCast S1x64 bias shapeCasts_S64_S1x64)
    (hdeg : V c main_v37 = shapeCast S300000x1 deg shapeCasts_S300000_S300000x1) :
    Host.reduceAdd (shapeCast S15 (extractStridedSlice S15x1 ![0, 0] (statsArr3 (F := Ideal) V c) slices_S15x2_S15x1_0_0) shapeCasts_S15x1_S15)
        (constant S_ .f32 0x00000000#32) reducesTo_S15_S_d0 h_S_
      = Host.reduceAdd (mulf (comb3_upd V c bias deg) (comb3_upd V c bias deg)) (constant Cert.ReferenceIdeal.S_ .f32 0x00000000#32)
          Cert.ReferenceIdeal.Gen.reducesTo_S300000x64_S_d0_1 Cert.ReferenceIdeal.Gen.h_S_ :=
  stats3_sq_of V c (comb3_upd V c bias deg) fun t a b =>
    comb3_pay2_apply V c bias deg hbias hdeg (Fin.cast N_3.symm t) a b

/-- Column 1 of the statistics array, summed from zero by the host, is the reference's sum from zero of the indicator
    of a positive degree over the whole vector. -/
theorem stats3_cnt (hdeg : V c main_v37 = shapeCast S300000x1 deg shapeCasts_S300000_S300000x1) :
    Host.reduceAdd (shapeCast S15 (extractStridedSlice S15x1 ![0, 1] (statsArr3 (F := Ideal) V c) slices_S15x2_S15x1_0_1) shapeCasts_S15x1_S15)
        (constant S_ .f32 0x00000000#32) reducesTo_S15_S_d0 h_S_
      = Host.reduceAdd (comb3_ind deg) (constant Cert.ReferenceIdeal.S_ .f32 0x00000000#32)
          Cert.ReferenceIdeal.Gen.reducesTo_S300000_S_d0 Cert.ReferenceIdeal.Gen.h_S_ :=
  stats3_cnt_of V c (comb3_ind deg) fun t a =>
    comb3_pay1_apply V c deg hdeg (Fin.cast N_3.symm t) a (0 : Fin 1)

end Regions

end Cert.KernelIdeal.Hand
end
-- ==== Proof.Bridge.lean ====
import proofs.«427575_j39067022524700_2_alg».proof.Proof.HostStages
import proofs.«427575_j39067022524700_2_alg».proof.Proof.LinValue
import proofs.«427575_j39067022524700_2_alg».proof.Proof.CombValue2
import proofs.«427575_j39067022524700_2_alg».proof.Proof.CombValue3
import proofs.«427575_j39067022524700_2_alg».proof.Proof.StatsValue2
import proofs.«427575_j39067022524700_2_alg».proof.Proof.StatsValue3
import proofs.«427575_j39067022524700_2_alg».proof.Proof.RefValue
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! # The kernel's three results are the reference's terms of the launch contents

The kernel's host program leaves its three results at what its last two regions and its last stretch of host
operations make of the earlier regions' arrays. Followed back through the stretches, each region's operands are
operations of the launch contents of the fourteen arguments: the two projected tables are the host's products of a table
with a transposed weight, the two propagated sums and the two degree columns are the scatter-adds over the edge lists.
With those put in place, the new rows, and the per-block statistics summed over the blocks, are term by term the
reference's composed operations of the same fourteen arrays. -/

section Bridge
variable (m : (ℓ : Loc nD τ sig) → Buf (Elt Ideal) ℓ)

/-- The arm of region 2's final arrays holding the new rows of the 500000-row table, -/
theorem fin2_rows (V : (c : Dev nD) → (b : Ref sig .tc) → Buf (Elt Ideal) ((c : Thread nD τ).loc b)) (c : Dev nD) :
    fin2 (F := Ideal) V c 5 = (dat2 (F := Ideal) V c).arrAt 5 cfg2.N := by dsimp only [fin2]
/-- and the arm holding its per-block statistics; -/
theorem fin2_stats (V : (c : Dev nD) → (b : Ref sig .tc) → Buf (Elt Ideal) ((c : Thread nD τ).loc b)) (c : Dev nD) :
    fin2 (F := Ideal) V c 6 = statsArr2 (F := Ideal) V c := by dsimp only [fin2]
/-- the same two arms of region 3, for the 300000-row table. -/
theorem fin3_rows (V : (c : Dev nD) → (b : Ref sig .tc) → Buf (Elt Ideal) ((c : Thread nD τ).loc b)) (c : Dev nD) :
    fin3 (F := Ideal) V c 5 = (dat3 (F := Ideal) V c).arrAt 5 cfg3.N := by dsimp only [fin3]
theorem fin3_stats (V : (c : Dev nD) → (b : Ref sig .tc) → Buf (Elt Ideal) ((c : Thread nD τ).loc b)) (c : Dev nD) :
    fin3 (F := Ideal) V c 6 = statsArr3 (F := Ideal) V c := by dsimp only [fin3]

/-- The first result: the 500000-row table plus its masked, clamped update. -/
theorem res0 (c : Dev nD) :
    W9 (F := Ideal) m c main_v40_0 = Cert.ReferenceIdeal.RefValue.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W9_v40_0 m c, fin2_rows,
    comb2_value (V5 m) c _ _ (V5_v39 m c) (V5_v20 m c),
    V5_arg0 m c, V5_v38 m c, V5_v16 m c, V4_v1 m c, lin0_value (V1 m) c, V1_arg1 m c, V1_v0 m c]
  unfold Cert.ReferenceIdeal.RefValue.out0 Cert.ReferenceIdeal.RefValue.deltaU Cert.ReferenceIdeal.RefValue.projU Cert.ReferenceIdeal.RefValue.spmmU Cert.ReferenceIdeal.RefValue.degU
  rfl

/-- The second result: the 300000-row table plus its masked, clamped update. -/
theorem res1 (c : Dev nD) :
    W9 (F := Ideal) m c main_v43_0 = Cert.ReferenceIdeal.RefValue.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W9_v43_0 m c, fin3_rows,
    comb3_value (V7 m) c _ _ (V7_v42 m c) (V7_v37 m c),
    V7_arg1 m c, V7_v41 m c, V7_v33 m c, V4_v3 m c, lin1_value (V3 m) c, V3_arg0 m c, V3_v2 m c]
  unfold Cert.ReferenceIdeal.RefValue.out1 Cert.ReferenceIdeal.RefValue.deltaI Cert.ReferenceIdeal.RefValue.projI Cert.ReferenceIdeal.RefValue.spmmI Cert.ReferenceIdeal.RefValue.degI
  rfl

/-- The third result: each update's sum of squares over its number of rows kept, the two quotients added. -/
theorem res2 (c : Dev nD) :
    W9 (F := Ideal) m c main_v58 = Cert.ReferenceIdeal.RefValue.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [W9_v58 m c, W8_v40_1 m c, W8_v43_1 m c, fin2_stats, fin3_stats,
    stats2_sq (V5 m) c _ _ (V5_v39 m c) (V5_v20 m c), stats3_sq (V7 m) c _ _ (V7_v42 m c) (V7_v37 m c)]
  rw [stats2_cnt (V5 m) c _ (V5_v20 m c), stats3_cnt (V7 m) c _ (V7_v37 m c)]
  unfold comb2_upd comb2_ind comb3_upd comb3_ind
  rw [V5_arg0 m c, V5_v38 m c, V5_v16 m c, V4_v1 m c, lin0_value (V1 m) c, V1_arg1 m c, V1_v0 m c,
    V7_arg1 m c, V7_v41 m c, V7_v33 m c, V4_v3 m c, lin1_value (V3 m) c, V3_arg0 m c, V3_v2 m c]
  unfold Cert.ReferenceIdeal.RefValue.out2 Cert.ReferenceIdeal.RefValue.deltaU Cert.ReferenceIdeal.RefValue.projU Cert.ReferenceIdeal.RefValue.spmmU Cert.ReferenceIdeal.RefValue.degU Cert.ReferenceIdeal.RefValue.deltaI Cert.ReferenceIdeal.RefValue.projI Cert.ReferenceIdeal.RefValue.spmmI Cert.ReferenceIdeal.RefValue.degI
  rfl

end Bridge

end Cert.KernelIdeal.Hand
end
-- ==== Proof.lean ====
/- The proof of `Cert.Claim`.
   The kernel's host program is five stretches of host operations around four kernel regions: two projections (one matrix
   product per block of 20000 rows) and two combine regions (per block: the new rows, and one row of a statistics array
   holding the block's sum of squared updates and its count of rows of positive degree). Each program's frame is the
   launch over those nine segments with the argument arrays read back through the boundaries' contents. At the ideal
   instance the last boundary's three results are the reference's own three terms of the same arguments: the block
   products are the reference's whole products, the shared gather and scatter chains are the same operations applied to
   equal arrays, the per-block new rows tile the reference's new rows, and the 25 (15) per-block sums regroup the
   reference's one sum over the whole array — addition of extended reals is commutative and associative, so no
   finiteness is used and the precondition is never opened. -/
import proofs.«427575_j39067022524700_2_alg».proof.Defs
import proofs.«427575_j39067022524700_2_alg».proof.Proof.Gen.Kernel
import proofs.«427575_j39067022524700_2_alg».proof.Proof.Gen.KernelIdeal
import proofs.«427575_j39067022524700_2_alg».proof.Proof.Gen.ReferenceIdeal
import proofs.«427575_j39067022524700_2_alg».proof.Proof.Gen.Pre_finite_inputs
import proofs.«427575_j39067022524700_2_alg».proof.Proof.Assembly
import proofs.«427575_j39067022524700_2_alg».proof.Proof.Keep
import proofs.«427575_j39067022524700_2_alg».proof.Proof.BAssembly
import proofs.«427575_j39067022524700_2_alg».proof.Proof.BKeep
import proofs.«427575_j39067022524700_2_alg».proof.Proof.RefValue
import proofs.«427575_j39067022524700_2_alg».proof.Proof.Bridge
import Idealize.ShloMosaic.Adequacy
import Idealize.ShloMosaic.Init

noncomputable section

namespace Cert.Proof

open Idealize.ShloMosaic Idealize.ShloMosaic.TcCoe Idealize.SL.Sem

/-- An argument array of the k ends as launched: it is unscoped, no host stretch writes it and no region's output is
    it, so the last boundary's contents at it are the launch memory's. -/
theorem kept_k (m : (ℓ : Loc Cert.Kernel.nD Cert.Kernel.τ Cert.Kernel.sig) → Buf (Elt Bits) ℓ) (r : PUnit × MemSt Cert.Kernel.nD Cert.Kernel.τ Cert.Kernel.sig (Elt Bits))
    (h : ∀ c : Dev Cert.Kernel.nD, ∀ b ∈ Pipeline.ucRefs Cert.Kernel.τ Cert.Kernel.sig, r.2.mem (((c : Thread Cert.Kernel.nD Cert.Kernel.τ)).1, b) = Cert.Kernel.Hand.W9 (F := Bits) m c b)
    (c : Dev Cert.Kernel.nD) (b : Ref Cert.Kernel.sig .tc) (hs : ¬ (Proc.devRef .tc b : DevRef Cert.Kernel.τ Cert.Kernel.sig).isScoped)
    (h0 : b ∉ Cert.Kernel.Gen.hostOps0_W) (h1 : b ∉ ([Cert.Kernel.main_v1] : List (Ref Cert.Kernel.sig .tc))) (h2 : b ∉ Cert.Kernel.Gen.hostOps1_W)
    (h3 : b ∉ ([Cert.Kernel.main_v3] : List (Ref Cert.Kernel.sig .tc))) (h4 : b ∉ Cert.Kernel.Gen.hostOps2_W)
    (h5 : b ∉ ([Cert.Kernel.main_v40_0, Cert.Kernel.main_v40_1] : List (Ref Cert.Kernel.sig .tc))) (h6 : b ∉ Cert.Kernel.Gen.hostOps3_W)
    (h7 : b ∉ ([Cert.Kernel.main_v43_0, Cert.Kernel.main_v43_1] : List (Ref Cert.Kernel.sig .tc))) (h8 : b ∉ Cert.Kernel.Gen.hostOps4_W) :
    r.2.mem ((c.tc : Thread Cert.Kernel.nD Cert.Kernel.τ).loc b) = m ((c.tc : Thread Cert.Kernel.nD Cert.Kernel.τ).loc b) :=
  (h c _ (Cert.Kernel.Hand.mem_uc b hs)).trans (Cert.Kernel.Hand.W9_keep m c b h0 h1 h2 h3 h4 h5 h6 h7 h8)

/-- An argument array of the ki ends as launched: it is unscoped, no host stretch writes it and no region's output is
    it, so the last boundary's contents at it are the launch memory's. -/
theorem kept_ki (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : ∀ c : Dev Cert.KernelIdeal.nD, ∀ b ∈ Pipeline.ucRefs Cert.KernelIdeal.τ Cert.KernelIdeal.sig, r.2.mem (((c : Thread Cert.KernelIdeal.nD Cert.KernelIdeal.τ)).1, b) = Cert.KernelIdeal.Hand.W9 (F := Ideal) m c b)
    (c : Dev Cert.KernelIdeal.nD) (b : Ref Cert.KernelIdeal.sig .tc) (hs : ¬ (Proc.devRef .tc b : DevRef Cert.KernelIdeal.τ Cert.KernelIdeal.sig).isScoped)
    (h0 : b ∉ Cert.KernelIdeal.Gen.hostOps0_W) (h1 : b ∉ ([Cert.KernelIdeal.main_v1] : List (Ref Cert.KernelIdeal.sig .tc))) (h2 : b ∉ Cert.KernelIdeal.Gen.hostOps1_W)
    (h3 : b ∉ ([Cert.KernelIdeal.main_v3] : List (Ref Cert.KernelIdeal.sig .tc))) (h4 : b ∉ Cert.KernelIdeal.Gen.hostOps2_W)
    (h5 : b ∉ ([Cert.KernelIdeal.main_v40_0, Cert.KernelIdeal.main_v40_1] : List (Ref Cert.KernelIdeal.sig .tc))) (h6 : b ∉ Cert.KernelIdeal.Gen.hostOps3_W)
    (h7 : b ∉ ([Cert.KernelIdeal.main_v43_0, Cert.KernelIdeal.main_v43_1] : List (Ref Cert.KernelIdeal.sig .tc))) (h8 : b ∉ Cert.KernelIdeal.Gen.hostOps4_W) :
    r.2.mem ((c.tc : Thread Cert.KernelIdeal.nD Cert.KernelIdeal.τ).loc b) = m ((c.tc : Thread Cert.KernelIdeal.nD Cert.KernelIdeal.τ).loc b) :=
  (h c _ (Cert.KernelIdeal.Hand.mem_uc b hs)).trans (Cert.KernelIdeal.Hand.W9_keep m c b h0 h1 h2 h3 h4 h5 h6 h7 h8)

/-- The word-level program runs to the end, nothing faulting, its arguments as launched. -/
theorem frame_k : Cert.frame_Kernel := fun m ρ _ =>
  (θ_run (Cert.Kernel.defs (F := Bits)) _ _).mono (fun r h c => by
    refine ⟨?_, ?_, ?_, ?_, ?_, ?_, ?_, ?_, ?_, ?_, ?_, ?_, ?_, ?_⟩ <;>
      exact kept_k m r h c _ (by decide) (by decide) (by decide) (by decide) (by decide) (by decide) (by decide) (by decide) (by decide) (by decide))
    (Cert.Kernel.Hand.run_main (F := Bits) m ρ)

/-- So does its idealization. -/
theorem frame_ki : Cert.frame_KernelIdeal := fun m ρ _ =>
  (θ_run (Cert.KernelIdeal.defs (F := Ideal)) _ _).mono (fun r h c => by
    refine ⟨?_, ?_, ?_, ?_, ?_, ?_, ?_, ?_, ?_, ?_, ?_, ?_, ?_, ?_⟩ <;>
      exact kept_ki m r h c _ (by decide) (by decide) (by decide) (by decide) (by decide) (by decide) (by decide) (by decide) (by decide) (by decide))
    (Cert.KernelIdeal.Hand.run_main (F := Ideal) m ρ)

/-- The reference is host operations only: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 2000000 in
/-- From memories agreeing on the arguments both idealized programs run to the end with the same three results: the
    kernel's last boundary's contents at its three result buffers, which are the reference's terms of the arguments. -/
theorem algebraic : Cert.algebraic_KernelIdeal_ReferenceIdeal := by
  intro m ρ m' ρ' _ hagree
  refine ⟨fun c => Cert.KernelIdeal.Hand.W9 (F := Ideal) m c Cert.KernelIdeal.main_v40_0,
    fun c => Cert.KernelIdeal.Hand.W9 (F := Ideal) m c Cert.KernelIdeal.main_v43_0,
    fun c => Cert.KernelIdeal.Hand.W9 (F := Ideal) m c Cert.KernelIdeal.main_v58, ?_, ?_⟩
  · refine (θ_run (Cert.KernelIdeal.defs (F := Ideal)) _ _).mono (fun r h c => ?_) (Cert.KernelIdeal.Hand.run_main (F := Ideal) m ρ)
    refine ⟨h c _ (Cert.KernelIdeal.Hand.mem_uc Cert.KernelIdeal.main_v40_0 (by decide)),
      h c _ (Cert.KernelIdeal.Hand.mem_uc Cert.KernelIdeal.main_v43_0 (by decide)),
      h c _ (Cert.KernelIdeal.Hand.mem_uc Cert.KernelIdeal.main_v58 (by decide)),
      ?_, ?_, ?_, ?_, ?_, ?_, ?_, ?_, ?_, ?_, ?_, ?_, ?_, ?_⟩ <;>
      exact kept_ki m r h c _ (by decide) (by decide) (by decide) (by decide) (by decide) (by decide) (by decide) (by decide) (by decide) (by decide)
  · refine (θ_run Cert.ReferenceIdeal.defs _ _).mono (fun r h c => ?_) (Cert.ReferenceIdeal.RefValue.ref_run (F := Ideal) m' ρ')
    obtain ⟨h0, h1, h2, hrest⟩ := h c
    obtain ⟨e0, e1, e2, e3, e4, e5, e6, e7, e8, e9, e10, e11, e12, e13⟩ := hagree c
    refine ⟨h0.trans ?_, h1.trans ?_, h2.trans ?_, hrest⟩
    · rw [e0, e1, e2, e3, e4, e5, e6, e7, e8, e9, e10, e11, e12, e13]; exact (Cert.KernelIdeal.Hand.res0 m c).symm
    · rw [e0, e1, e2, e3, e4, e5, e6, e7, e8, e9, e10, e11, e12, e13]; exact (Cert.KernelIdeal.Hand.res1 m c).symm
    · rw [e0, e1, e2, e3, e4, e5, e6, e7, e8, e9, e10, e11, e12, e13]; exact (Cert.KernelIdeal.Hand.res2 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
